-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)) →
    ∃ (v0 : (c : Dev Cert.KernelIdeal.nD) → Buf (Elt Ideal) ((c.tc : Thread Cert.KernelIdeal.nD Cert.KernelIdeal.τ).loc Cert.KernelIdeal.main_v27)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v27) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v52) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x512 : Shape := ⟨2, ![50000, 512]⟩
abbrev S800000 : Shape := ⟨1, ![800000]⟩
abbrev S512x64 : Shape := ⟨2, ![512, 64]⟩
abbrev S64 : Shape := ⟨1, ![64]⟩
abbrev S64x64 : Shape := ⟨2, ![64, 64]⟩
abbrev S64x40 : Shape := ⟨2, ![64, 40]⟩
abbrev S40 : Shape := ⟨1, ![40]⟩
abbrev S_ : Shape := ⟨0, ![]⟩

class Facts : Prop where
  bcast_S_S50000x512 : S_.BroadcastsInDim S50000x512 (![] : Fin 0 → Fin S50000x512.rank)
  reducesTo_S50000x512_S_d0_1 : S50000x512.ReducesTo [0, 1] S_
  h_S_ : 0 < S_.numel
  bcast_S_S800000 : S_.BroadcastsInDim S800000 (![] : Fin 0 → Fin S800000.rank)
  reducesTo_S800000_S_d0 : S800000.ReducesTo [0] S_
  bcast_S_S512x64 : S_.BroadcastsInDim S512x64 (![] : Fin 0 → Fin S512x64.rank)
  reducesTo_S512x64_S_d0_1 : S512x64.ReducesTo [0, 1] S_
  bcast_S_S64 : S_.BroadcastsInDim S64 (![] : Fin 0 → Fin S64.rank)
  reducesTo_S64_S_d0 : S64.ReducesTo [0] S_
  bcast_S_S64x64 : S_.BroadcastsInDim S64x64 (![] : Fin 0 → Fin S64x64.rank)
  reducesTo_S64x64_S_d0_1 : S64x64.ReducesTo [0, 1] S_
  bcast_S_S64x40 : S_.BroadcastsInDim S64x40 (![] : Fin 0 → Fin S64x40.rank)
  reducesTo_S64x40_S_d0_1 : S64x40.ReducesTo [0, 1] S_
  bcast_S_S40 : S_.BroadcastsInDim S40 (![] : Fin 0 → Fin S40.rank)
  reducesTo_S40_S_d0 : S40.ReducesTo [0] S_

variable [Facts]

def fn_part2 {F : FTy → Type} [FloatOps F] (main_arg7 : FVec F S40 .f32) (main_arg9 : IVec S800000 32) (main_v33 : IVec S_ 1) : IVec S_ 1 :=
  let main_v34 : FVec F S40 .f32 := Host.absf main_arg7
  let main_cst_12 : FVec F S_ .f32 := constant S_ .f32 0x7F800000#32
  let main_v35 : FVec F S40 .f32 := broadcastInDim S40 ![] bcast_S_S40 main_cst_12
  let main_v36 : IVec S40 1 := cmpf .olt main_v34 main_v35
  let main_c_13 : IVec S_ 1 := constantI S_ 1 1#1
  let main_v37 : IVec S_ 1 := (fun x v => Host.reduce IntOp.andi x v reducesTo_S40_S_d0 h_S_) main_v36 main_c_13
  let main_v38 : IVec S_ 1 := andi main_v33 main_v37
  let main_c_14 : IVec S_ 32 := constantI S_ 32 4294917296#32
  let main_v39 : IVec S800000 32 := broadcastInDim S800000 ![] bcast_S_S800000 main_c_14
  let main_v40 : IVec S800000 1 := cmpi .sge main_arg9 main_v39
  let main_c_15 : IVec S_ 1 := constantI S_ 1 1#1
  let main_v41 : IVec S_ 1 := (fun x v => Host.reduce IntOp.andi x v reducesTo_S800000_S_d0 h_S_) main_v40 main_c_15
  let main_v42 : IVec S_ 1 := andi main_v38 main_v41
  let main_c_16 : IVec S_ 32 := constantI S_ 32 50000#32
  let main_v43 : IVec S800000 32 := broadcastInDim S800000 ![] bcast_S_S800000 main_c_16
  let main_v44 : IVec S800000 1 := cmpi .slt main_arg9 main_v43
  let main_c_17 : IVec S_ 1 := constantI S_ 1 1#1
  let main_v45 : IVec S_ 1 := (fun x v => Host.reduce IntOp.andi x v reducesTo_S800000_S_d0 h_S_) main_v44 main_c_17
  let main_v46 : IVec S_ 1 := andi main_v42 main_v45
  main_v46

def fn_part1 {F : FTy → Type} [FloatOps F] (main_arg4 : FVec F S64x64 .f32) (main_arg5 : FVec F S64 .f32) (main_arg6 : FVec F S64x40 .f32) (main_arg7 : FVec F S40 .f32) (main_arg9 : IVec S800000 32) (main_v13 : IVec S_ 1) (main_v16 : IVec S64 1) : IVec S_ 1 :=
  let main_c_5 : IVec S_ 1 := constantI S_ 1 1#1
  let main_v17 : IVec S_ 1 := (fun x v => Host.reduce IntOp.andi x v reducesTo_S64_S_d0 h_S_) main_v16 main_c_5
  let main_v18 : IVec S_ 1 := andi main_v13 main_v17
  let main_v19 : FVec F S64x64 .f32 := Host.absf main_arg4
  let main_cst_6 : FVec F S_ .f32 := constant S_ .f32 0x7F800000#32
  let main_v20 : FVec F S64x64 .f32 := broadcastInDim S64x64 ![] bcast_S_S64x64 main_cst_6
  let main_v21 : IVec S64x64 1 := cmpf .olt main_v19 main_v20
  let main_c_7 : IVec S_ 1 := constantI S_ 1 1#1
  let main_v22 : IVec S_ 1 := (fun x v => Host.reduce IntOp.andi x v reducesTo_S64x64_S_d0_1 h_S_) main_v21 main_c_7
  let main_v23 : IVec S_ 1 := andi main_v18 main_v22
  let main_v24 : FVec F S64 .f32 := Host.absf main_arg5
  let main_cst_8 : FVec F S_ .f32 := constant S_ .f32 0x7F800000#32
  let main_v25 : FVec F S64 .f32 := broadcastInDim S64 ![] bcast_S_S64 main_cst_8
  let main_v26 : IVec S64 1 := cmpf .olt main_v24 main_v25
  let main_c_9 : IVec S_ 1 := constantI S_ 1 1#1
  let main_v27 : IVec S_ 1 := (fun x v => Host.reduce IntOp.andi x v reducesTo_S64_S_d0 h_S_) main_v26 main_c_9
  let main_v28 : IVec S_ 1 := andi main_v23 main_v27
  let main_v29 : FVec F S64x40 .f32 := Host.absf main_arg6
  let main_cst_10 : FVec F S_ .f32 := constant S_ .f32 0x7F800000#32
  let main_v30 : FVec F S64x40 .f32 := broadcastInDim S64x40 ![] bcast_S_S64x40 main_cst_10
  let main_v31 : IVec S64x40 1 := cmpf .olt main_v29 main_v30
  let main_c_11 : IVec S_ 1 := constantI S_ 1 1#1
  let main_v32 : IVec S_ 1 := (fun x v => Host.reduce IntOp.andi x v reducesTo_S64x40_S_d0_1 h_S_) main_v31 main_c_11
  let main_v33 : IVec S_ 1 := andi main_v28 main_v32
  fn_part2 (F := F) main_arg7 main_arg9 main_v33

def fn {F : FTy → Type} [FloatOps F] (main_arg0 : FVec F S50000x512 .f32) (main_arg1 : FVec F S800000 .f32) (main_arg2 : FVec F S512x64 .f32) (main_arg3 : FVec F S64 .f32) (main_arg4 : FVec F S64x64 .f32) (main_arg5 : FVec F S64 .f32) (main_arg6 : FVec F S64x40 .f32) (main_arg7 : FVec F S40 .f32) (main_arg8 : IVec S800000 32) (main_arg9 : IVec S800000 32) : IVec S_ 1 :=
  let main_v0 : FVec F S50000x512 .f32 := Host.absf main_arg0
  let main_cst : FVec F S_ .f32 := constant S_ .f32 0x7F800000#32
  let main_v1 : FVec F S50000x512 .f32 := broadcastInDim S50000x512 ![] bcast_S_S50000x512 main_cst
  let main_v2 : IVec S50000x512 1 := cmpf .olt main_v0 main_v1
  let main_c : IVec S_ 1 := constantI S_ 1 1#1
  let main_v3 : IVec S_ 1 := (fun x v => Host.reduce IntOp.andi x v reducesTo_S50000x512_S_d0_1 h_S_) main_v2 main_c
  let main_v4 : FVec F S800000 .f32 := Host.absf main_arg1
  let main_cst_0 : FVec F S_ .f32 := constant S_ .f32 0x7F800000#32
  let main_v5 : FVec F S800000 .f32 := broadcastInDim S800000 ![] bcast_S_S800000 main_cst_0
  let main_v6 : IVec S800000 1 := cmpf .olt main_v4 main_v5
  let main_c_1 : IVec S_ 1 := constantI S_ 1 1#1
  let main_v7 : IVec S_ 1 := (fun x v => Host.reduce IntOp.andi x v reducesTo_S800000_S_d0 h_S_) main_v6 main_c_1
  let main_v8 : IVec S_ 1 := andi main_v3 main_v7
  let main_v9 : FVec F S512x64 .f32 := Host.absf main_arg2
  let main_cst_2 : FVec F S_ .f32 := constant S_ .f32 0x7F800000#32
  let main_v10 : FVec F S512x64 .f32 := broadcastInDim S512x64 ![] bcast_S_S512x64 main_cst_2
  let main_v11 : IVec S512x64 1 := cmpf .olt main_v9 main_v10
  let main_c_3 : IVec S_ 1 := constantI S_ 1 1#1
  let main_v12 : IVec S_ 1 := (fun x v => Host.reduce IntOp.andi x v reducesTo_S512x64_S_d0_1 h_S_) main_v11 main_c_3
  let main_v13 : IVec S_ 1 := andi main_v8 main_v12
  let main_v14 : FVec F S64 .f32 := Host.absf main_arg3
  let main_cst_4 : FVec F S_ .f32 := constant S_ .f32 0x7F800000#32
  let main_v15 : FVec F S64 .f32 := broadcastInDim S64 ![] bcast_S_S64 main_cst_4
  let main_v16 : IVec S64 1 := cmpf .olt main_v14 main_v15
  fn_part1 (F := F) main_arg4 main_arg5 main_arg6 main_arg7 main_arg9 main_v13 main_v16
-- ==== Kernel.lean ====
abbrev S50000x512 : Shape := ⟨2, ![50000, 512]⟩
abbrev S800000 : Shape := ⟨1, ![800000]⟩
abbrev S512x64 : Shape := ⟨2, ![512, 64]⟩
abbrev S64 : Shape := ⟨1, ![64]⟩
abbrev S64x64 : Shape := ⟨2, ![64, 64]⟩
abbrev S64x40 : Shape := ⟨2, ![64, 40]⟩
abbrev S40 : Shape := ⟨1, ![40]⟩
abbrev S1x64 : Shape := ⟨2, ![1, 64]⟩
abbrev S50000x64 : Shape := ⟨2, ![50000, 64]⟩
abbrev S2000x512 : Shape := ⟨2, ![2000, 512]⟩
abbrev S2000x64 : Shape := ⟨2, ![2000, 64]⟩
abbrev S_ : Shape := ⟨0, ![]⟩
abbrev S800000x1 : Shape := ⟨2, ![800000, 1]⟩
abbrev S1 : Shape := ⟨1, ![1]⟩
abbrev S1x1 : Shape := ⟨2, ![1, 1]⟩
abbrev S800000x64 : Shape := ⟨2, ![800000, 64]⟩
abbrev S1x40 : Shape := ⟨2, ![1, 40]⟩
abbrev S50000x40 : Shape := ⟨2, ![50000, 40]⟩
abbrev S2000x40 : Shape := ⟨2, ![2000, 40]⟩
abbrev S800000x40 : Shape := ⟨2, ![800000, 40]⟩
abbrev S2000 : Shape := ⟨1, ![2000]⟩
abbrev S2000x1 : Shape := ⟨2, ![2000, 1]⟩

abbrev nBuf : Space → Nat
  | .hbm => 107
  | .vmem => 22
  | .smem => 0
  | _ => 0

abbrev bufTy : (tb : Table) → Fin (tcTables nBuf tb) → BufTy
  | .hbm, ⟨0, _⟩ => ⟨S50000x512, .f32⟩
  | .hbm, ⟨1, _⟩ => ⟨S800000, .f32⟩
  | .hbm, ⟨2, _⟩ => ⟨S512x64, .f32⟩
  | .hbm, ⟨3, _⟩ => ⟨S64, .f32⟩
  | .hbm, ⟨4, _⟩ => ⟨S64x64, .f32⟩
  | .hbm, ⟨5, _⟩ => ⟨S64, .f32⟩
  | .hbm, ⟨6, _⟩ => ⟨S64x40, .f32⟩
  | .hbm, ⟨7, _⟩ => ⟨S40, .f32⟩
  | .hbm, ⟨8, _⟩ => ⟨S800000, .i32⟩
  | .hbm, ⟨9, _⟩ => ⟨S800000, .i32⟩
  | .hbm, ⟨10, _⟩ => ⟨S1x64, .f32⟩
  | .hbm, ⟨11, _⟩ => ⟨S50000x64, .f32⟩
  | .hbm, ⟨12, _⟩ => ⟨S_, .i32⟩
  | .hbm, ⟨13, _⟩ => ⟨S800000, .i32⟩
  | .hbm, ⟨14, _⟩ => ⟨S800000, .i1⟩
  | .hbm, ⟨15, _⟩ => ⟨S_, .i32⟩
  | .hbm, ⟨16, _⟩ => ⟨S800000, .i32⟩
  | .hbm, ⟨17, _⟩ => ⟨S800000, .i32⟩
  | .hbm, ⟨18, _⟩ => ⟨S800000, .i32⟩
  | .hbm, ⟨19, _⟩ => ⟨S800000x1, .i32⟩
  | .hbm, ⟨20, _⟩ => ⟨S1, .i32⟩
  | .hbm, ⟨21, _⟩ => ⟨S_, .i32⟩
  | .hbm, ⟨22, _⟩ => ⟨S800000x1, .i32⟩
  | .hbm, ⟨23, _⟩ => ⟨S800000x1, .i1⟩
  | .hbm, ⟨24, _⟩ => ⟨S1x1, .i32⟩
  | .hbm, ⟨25, _⟩ => ⟨S800000x1, .i32⟩
  | .hbm, ⟨26, _⟩ => ⟨S800000x1, .i1⟩
  | .hbm, ⟨27, _⟩ => ⟨S800000x1, .i1⟩
  | .hbm, ⟨28, _⟩ => ⟨S_, .i1⟩
  | .hbm, ⟨29, _⟩ => ⟨S800000, .i1⟩
  | .hbm, ⟨30, _⟩ => ⟨S800000x64, .f32⟩
  | .hbm, ⟨31, _⟩ => ⟨S800000x64, .i1⟩
  | .hbm, ⟨32, _⟩ => ⟨S_, .f32⟩
  | .hbm, ⟨33, _⟩ => ⟨S800000x64, .f32⟩
  | .hbm, ⟨34, _⟩ => ⟨S800000x64, .f32⟩
  | .hbm, ⟨35, _⟩ => ⟨S800000x1, .f32⟩
  | .hbm, ⟨36, _⟩ => ⟨S800000x64, .f32⟩
  | .hbm, ⟨37, _⟩ => ⟨S800000x64, .f32⟩
  | .hbm, ⟨38, _⟩ => ⟨S_, .f32⟩
  | .hbm, ⟨39, _⟩ => ⟨S50000x64, .f32⟩
  | .hbm, ⟨40, _⟩ => ⟨S800000x1, .i32⟩
  | .hbm, ⟨41, _⟩ => ⟨S50000x64, .f32⟩
  | .hbm, ⟨42, _⟩ => ⟨S1x64, .f32⟩
  | .hbm, ⟨43, _⟩ => ⟨S50000x64, .f32⟩
  | .hbm, ⟨44, _⟩ => ⟨S_, .i32⟩
  | .hbm, ⟨45, _⟩ => ⟨S800000, .i32⟩
  | .hbm, ⟨46, _⟩ => ⟨S800000, .i1⟩
  | .hbm, ⟨47, _⟩ => ⟨S_, .i32⟩
  | .hbm, ⟨48, _⟩ => ⟨S800000, .i32⟩
  | .hbm, ⟨49, _⟩ => ⟨S800000, .i32⟩
  | .hbm, ⟨50, _⟩ => ⟨S800000, .i32⟩
  | .hbm, ⟨51, _⟩ => ⟨S800000x1, .i32⟩
  | .hbm, ⟨52, _⟩ => ⟨S1, .i32⟩
  | .hbm, ⟨53, _⟩ => ⟨S_, .i32⟩
  | .hbm, ⟨54, _⟩ => ⟨S800000x1, .i32⟩
  | .hbm, ⟨55, _⟩ => ⟨S800000x1, .i1⟩
  | .hbm, ⟨56, _⟩ => ⟨S1x1, .i32⟩
  | .hbm, ⟨57, _⟩ => ⟨S800000x1, .i32⟩
  | .hbm, ⟨58, _⟩ => ⟨S800000x1, .i1⟩
  | .hbm, ⟨59, _⟩ => ⟨S800000x1, .i1⟩
  | .hbm, ⟨60, _⟩ => ⟨S_, .i1⟩
  | .hbm, ⟨61, _⟩ => ⟨S800000, .i1⟩
  | .hbm, ⟨62, _⟩ => ⟨S800000x64, .f32⟩
  | .hbm, ⟨63, _⟩ => ⟨S800000x64, .i1⟩
  | .hbm, ⟨64, _⟩ => ⟨S_, .f32⟩
  | .hbm, ⟨65, _⟩ => ⟨S800000x64, .f32⟩
  | .hbm, ⟨66, _⟩ => ⟨S800000x64, .f32⟩
  | .hbm, ⟨67, _⟩ => ⟨S800000x1, .f32⟩
  | .hbm, ⟨68, _⟩ => ⟨S800000x64, .f32⟩
  | .hbm, ⟨69, _⟩ => ⟨S800000x64, .f32⟩
  | .hbm, ⟨70, _⟩ => ⟨S_, .f32⟩
  | .hbm, ⟨71, _⟩ => ⟨S50000x64, .f32⟩
  | .hbm, ⟨72, _⟩ => ⟨S800000x1, .i32⟩
  | .hbm, ⟨73, _⟩ => ⟨S50000x64, .f32⟩
  | .hbm, ⟨74, _⟩ => ⟨S1x40, .f32⟩
  | .hbm, ⟨75, _⟩ => ⟨S50000x40, .f32⟩
  | .hbm, ⟨76, _⟩ => ⟨S_, .i32⟩
  | .hbm, ⟨77, _⟩ => ⟨S800000, .i32⟩
  | .hbm, ⟨78, _⟩ => ⟨S800000, .i1⟩
  | .hbm, ⟨79, _⟩ => ⟨S_, .i32⟩
  | .hbm, ⟨80, _⟩ => ⟨S800000, .i32⟩
  | .hbm, ⟨81, _⟩ => ⟨S800000, .i32⟩
  | .hbm, ⟨82, _⟩ => ⟨S800000, .i32⟩
  | .hbm, ⟨83, _⟩ => ⟨S800000x1, .i32⟩
  | .hbm, ⟨84, _⟩ => ⟨S1, .i32⟩
  | .hbm, ⟨85, _⟩ => ⟨S_, .i32⟩
  | .hbm, ⟨86, _⟩ => ⟨S800000x1, .i32⟩
  | .hbm, ⟨87, _⟩ => ⟨S800000x1, .i1⟩
  | .hbm, ⟨88, _⟩ => ⟨S1x1, .i32⟩
  | .hbm, ⟨89, _⟩ => ⟨S800000x1, .i32⟩
  | .hbm, ⟨90, _⟩ => ⟨S800000x1, .i1⟩
  | .hbm, ⟨91, _⟩ => ⟨S800000x1, .i1⟩
  | .hbm, ⟨92, _⟩ => ⟨S_, .i1⟩
  | .hbm, ⟨93, _⟩ => ⟨S800000, .i1⟩
  | .hbm, ⟨94, _⟩ => ⟨S800000x40, .f32⟩
  | .hbm, ⟨95, _⟩ => ⟨S800000x40, .i1⟩
  | .hbm, ⟨96, _⟩ => ⟨S_, .f32⟩
  | .hbm, ⟨97, _⟩ => ⟨S800000x40, .f32⟩
  | .hbm, ⟨98, _⟩ => ⟨S800000x40, .f32⟩
  | .hbm, ⟨99, _⟩ => ⟨S800000x1, .f32⟩
  | .hbm, ⟨100, _⟩ => ⟨S800000x40, .f32⟩
  | .hbm, ⟨101, _⟩ => ⟨S800000x40, .f32⟩
  | .hbm, ⟨102, _⟩ => ⟨S_, .f32⟩
  | .hbm, ⟨103, _⟩ => ⟨S50000x40, .f32⟩
  | .hbm, ⟨104, _⟩ => ⟨S800000x1, .i32⟩
  | .hbm, ⟨105, _⟩ => ⟨S50000x40, .f32⟩
  | .hbm, ⟨106, _⟩ => ⟨S50000x40, .f32⟩
  | .local _ .vmem, ⟨0, _⟩ => ⟨S2000x512, .f32⟩
  | .local _ .vmem, ⟨1, _⟩ => ⟨S2000x512, .f32⟩
  | .local _ .vmem, ⟨2, _⟩ => ⟨S512x64, .f32⟩
  | .local _ .vmem, ⟨3, _⟩ => ⟨S1x64, .f32⟩
  | .local _ .vmem, ⟨4, _⟩ => ⟨S2000x64, .f32⟩
  | .local _ .vmem, ⟨5, _⟩ => ⟨S2000x64, .f32⟩
  | .local _ .vmem, ⟨6, _⟩ => ⟨S2000x64, .f32⟩
  | .local _ .vmem, ⟨7, _⟩ => ⟨S2000x64, .f32⟩
  | .local _ .vmem, ⟨8, _⟩ => ⟨S64x64, .f32⟩
  | .local _ .vmem, ⟨9, _⟩ => ⟨S1x64, .f32⟩
  | .local _ .vmem, ⟨10, _⟩ => ⟨S2000x64, .f32⟩
  | .local _ .vmem, ⟨11, _⟩ => ⟨S2000x64, .f32⟩
  | .local _ .vmem, ⟨12, _⟩ => ⟨S2000x64, .f32⟩
  | .local _ .vmem, ⟨13, _⟩ => ⟨S2000x64, .f32⟩
  | .local _ .vmem, ⟨14, _⟩ => ⟨S64x40, .f32⟩
  | .local _ .vmem, ⟨15, _⟩ => ⟨S1x40, .f32⟩
  | .local _ .vmem, ⟨16, _⟩ => ⟨S2000x40, .f32⟩
  | .local _ .vmem, ⟨17, _⟩ => ⟨S2000x40, .f32⟩
  | .local _ .vmem, ⟨18, _⟩ => ⟨S2000x40, .f32⟩
  | .local _ .vmem, ⟨19, _⟩ => ⟨S2000x40, .f32⟩
  | .local _ .vmem, ⟨20, _⟩ => ⟨S2000x40, .f32⟩
  | .local _ .vmem, ⟨21, _⟩ => ⟨S2000x40, .f32⟩
  | _, _ => ⟨S50000x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | _, _ => false

abbrev semScoped : Fin 0 → Bool
  | ⟨_, h⟩ => absurd h (Nat.not_lt_zero _)

abbrev dmaSemScoped : Fin 22 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | _ => false

abbrev sig : RefSig :=
  ofTc nBuf bufTy 0 22 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_call0_c : Ref sig .tc := ⟨.hbm, 12, rfl⟩
abbrev main_call0_v0 : Ref sig .tc := ⟨.hbm, 13, rfl⟩
abbrev main_call0_v1 : Ref sig .tc := ⟨.hbm, 14, rfl⟩
abbrev main_call0_c_0 : Ref sig .tc := ⟨.hbm, 15, rfl⟩
abbrev main_call0_v2 : Ref sig .tc := ⟨.hbm, 16, rfl⟩
abbrev main_call0_v3 : Ref sig .tc := ⟨.hbm, 17, rfl⟩
abbrev main_call0_v4 : Ref sig .tc := ⟨.hbm, 18, rfl⟩
abbrev main_call0_v5 : Ref sig .tc := ⟨.hbm, 19, rfl⟩
abbrev main_call0_c_1 : Ref sig .tc := ⟨.hbm, 20, rfl⟩
abbrev main_call0_c_2 : Ref sig .tc := ⟨.hbm, 21, rfl⟩
abbrev main_call0_v6 : Ref sig .tc := ⟨.hbm, 22, rfl⟩
abbrev main_call0_v7 : Ref sig .tc := ⟨.hbm, 23, rfl⟩
abbrev main_call0_v8 : Ref sig .tc := ⟨.hbm, 24, rfl⟩
abbrev main_call0_v9 : Ref sig .tc := ⟨.hbm, 25, rfl⟩
abbrev main_call0_v10 : Ref sig .tc := ⟨.hbm, 26, rfl⟩
abbrev main_call0_v11 : Ref sig .tc := ⟨.hbm, 27, rfl⟩
abbrev main_call0_c_3 : Ref sig .tc := ⟨.hbm, 28, rfl⟩
abbrev main_call0_v12 : Ref sig .tc := ⟨.hbm, 29, rfl⟩
abbrev main_call0_v13 : Ref sig .tc := ⟨.hbm, 30, rfl⟩
abbrev main_call0_v14 : Ref sig .tc := ⟨.hbm, 31, rfl⟩
abbrev main_call0_cst : Ref sig .tc := ⟨.hbm, 32, rfl⟩
abbrev main_call0_v15 : Ref sig .tc := ⟨.hbm, 33, rfl⟩
abbrev main_v2 : Ref sig .tc := ⟨.hbm, 34, rfl⟩
abbrev main_v3 : Ref sig .tc := ⟨.hbm, 35, rfl⟩
abbrev main_v4 : Ref sig .tc := ⟨.hbm, 36, rfl⟩
abbrev main_v5 : Ref sig .tc := ⟨.hbm, 37, rfl⟩
abbrev main_cst : Ref sig .tc := ⟨.hbm, 38, rfl⟩
abbrev main_v6 : Ref sig .tc := ⟨.hbm, 39, rfl⟩
abbrev main_v7 : Ref sig .tc := ⟨.hbm, 40, rfl⟩
abbrev main_v8 : Ref sig .tc := ⟨.hbm, 41, rfl⟩
abbrev main_v9 : Ref sig .tc := ⟨.hbm, 42, rfl⟩
abbrev main_v10 : Ref sig .tc := ⟨.hbm, 43, rfl⟩
abbrev main_call1_c : Ref sig .tc := ⟨.hbm, 44, rfl⟩
abbrev main_call1_v0 : Ref sig .tc := ⟨.hbm, 45, rfl⟩
abbrev main_call1_v1 : Ref sig .tc := ⟨.hbm, 46, rfl⟩
abbrev main_call1_c_0 : Ref sig .tc := ⟨.hbm, 47, rfl⟩
abbrev main_call1_v2 : Ref sig .tc := ⟨.hbm, 48, rfl⟩
abbrev main_call1_v3 : Ref sig .tc := ⟨.hbm, 49, rfl⟩
abbrev main_call1_v4 : Ref sig .tc := ⟨.hbm, 50, rfl⟩
abbrev main_call1_v5 : Ref sig .tc := ⟨.hbm, 51, rfl⟩
abbrev main_call1_c_1 : Ref sig .tc := ⟨.hbm, 52, rfl⟩
abbrev main_call1_c_2 : Ref sig .tc := ⟨.hbm, 53, rfl⟩
abbrev main_call1_v6 : Ref sig .tc := ⟨.hbm, 54, rfl⟩
abbrev main_call1_v7 : Ref sig .tc := ⟨.hbm, 55, rfl⟩
abbrev main_call1_v8 : Ref sig .tc := ⟨.hbm, 56, rfl⟩
abbrev main_call1_v9 : Ref sig .tc := ⟨.hbm, 57, rfl⟩
abbrev main_call1_v10 : Ref sig .tc := ⟨.hbm, 58, rfl⟩
abbrev main_call1_v11 : Ref sig .tc := ⟨.hbm, 59, rfl⟩
abbrev main_call1_c_3 : Ref sig .tc := ⟨.hbm, 60, rfl⟩
abbrev main_call1_v12 : Ref sig .tc := ⟨.hbm, 61, rfl⟩
abbrev main_call1_v13 : Ref sig .tc := ⟨.hbm, 62, rfl⟩
abbrev main_call1_v14 : Ref sig .tc := ⟨.hbm, 63, rfl⟩
abbrev main_call1_cst : Ref sig .tc := ⟨.hbm, 64, rfl⟩
abbrev main_call1_v15 : Ref sig .tc := ⟨.hbm, 65, rfl⟩
abbrev main_v11 : Ref sig .tc := ⟨.hbm, 66, rfl⟩
abbrev main_v12 : Ref sig .tc := ⟨.hbm, 67, rfl⟩
abbrev main_v13 : Ref sig .tc := ⟨.hbm, 68, rfl⟩
abbrev main_v14 : Ref sig .tc := ⟨.hbm, 69, rfl⟩
abbrev main_cst_0 : Ref sig .tc := ⟨.hbm, 70, rfl⟩
abbrev main_v15 : Ref sig .tc := ⟨.hbm, 71, rfl⟩
abbrev main_v16 : Ref sig .tc := ⟨.hbm, 72, rfl⟩
abbrev main_v17 : Ref sig .tc := ⟨.hbm, 73, rfl⟩
abbrev main_v18 : Ref sig .tc := ⟨.hbm, 74, rfl⟩
abbrev main_v19 : Ref sig .tc := ⟨.hbm, 75, rfl⟩
abbrev main_call2_c : Ref sig .tc := ⟨.hbm, 76, rfl⟩
abbrev main_call2_v0 : Ref sig .tc := ⟨.hbm, 77, rfl⟩
abbrev main_call2_v1 : Ref sig .tc := ⟨.hbm, 78, rfl⟩
abbrev main_call2_c_0 : Ref sig .tc := ⟨.hbm, 79, rfl⟩
abbrev main_call2_v2 : Ref sig .tc := ⟨.hbm, 80, rfl⟩
abbrev main_call2_v3 : Ref sig .tc := ⟨.hbm, 81, rfl⟩
abbrev main_call2_v4 : Ref sig .tc := ⟨.hbm, 82, rfl⟩
abbrev main_call2_v5 : Ref sig .tc := ⟨.hbm, 83, rfl⟩
abbrev main_call2_c_1 : Ref sig .tc := ⟨.hbm, 84, rfl⟩
abbrev main_call2_c_2 : Ref sig .tc := ⟨.hbm, 85, rfl⟩
abbrev main_call2_v6 : Ref sig .tc := ⟨.hbm, 86, rfl⟩
abbrev main_call2_v7 : Ref sig .tc := ⟨.hbm, 87, rfl⟩
abbrev main_call2_v8 : Ref sig .tc := ⟨.hbm, 88, rfl⟩
abbrev main_call2_v9 : Ref sig .tc := ⟨.hbm, 89, rfl⟩
abbrev main_call2_v10 : Ref sig .tc := ⟨.hbm, 90, rfl⟩
abbrev main_call2_v11 : Ref sig .tc := ⟨.hbm, 91, rfl⟩
abbrev main_call2_c_3 : Ref sig .tc := ⟨.hbm, 92, rfl⟩
abbrev main_call2_v12 : Ref sig .tc := ⟨.hbm, 93, rfl⟩
abbrev main_call2_v13 : Ref sig .tc := ⟨.hbm, 94, rfl⟩
abbrev main_call2_v14 : Ref sig .tc := ⟨.hbm, 95, rfl⟩
abbrev main_call2_cst : Ref sig .tc := ⟨.hbm, 96, rfl⟩
abbrev main_call2_v15 : Ref sig .tc := ⟨.hbm, 97, rfl⟩
abbrev main_v20 : Ref sig .tc := ⟨.hbm, 98, rfl⟩
abbrev main_v21 : Ref sig .tc := ⟨.hbm, 99, rfl⟩
abbrev main_v22 : Ref sig .tc := ⟨.hbm, 100, rfl⟩
abbrev main_v23 : Ref sig .tc := ⟨.hbm, 101, rfl⟩
abbrev main_cst_1 : Ref sig .tc := ⟨.hbm, 102, rfl⟩
abbrev main_v24 : Ref sig .tc := ⟨.hbm, 103, rfl⟩
abbrev main_v25 : Ref sig .tc := ⟨.hbm, 104, rfl⟩
abbrev main_v26 : Ref sig .tc := ⟨.hbm, 105, rfl⟩
abbrev main_v27 : Ref sig .tc := ⟨.hbm, 106, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc1_stg0_0 : Ref sig .tc := ⟨.vmem, 6, rfl⟩
abbrev cc1_stg0_1 : Ref sig .tc := ⟨.vmem, 7, rfl⟩
abbrev cc1_stg1_0 : Ref sig .tc := ⟨.vmem, 8, rfl⟩
abbrev cc1_stg2_0 : Ref sig .tc := ⟨.vmem, 9, rfl⟩
abbrev cc1_stg3_0 : Ref sig .tc := ⟨.vmem, 10, rfl⟩
abbrev cc1_stg3_1 : Ref sig .tc := ⟨.vmem, 11, rfl⟩
abbrev cc2_stg0_0 : Ref sig .tc := ⟨.vmem, 12, rfl⟩
abbrev cc2_stg0_1 : Ref sig .tc := ⟨.vmem, 13, rfl⟩
abbrev cc2_stg1_0 : Ref sig .tc := ⟨.vmem, 14, rfl⟩
abbrev cc2_stg2_0 : Ref sig .tc := ⟨.vmem, 15, rfl⟩
abbrev cc2_stg3_0 : Ref sig .tc := ⟨.vmem, 16, rfl⟩
abbrev cc2_stg3_1 : Ref sig .tc := ⟨.vmem, 17, rfl⟩
abbrev cc3_stg0_0 : Ref sig .tc := ⟨.vmem, 18, rfl⟩
abbrev cc3_stg0_1 : Ref sig .tc := ⟨.vmem, 19, rfl⟩
abbrev cc3_stg1_0 : Ref sig .tc := ⟨.vmem, 20, rfl⟩
abbrev cc3_stg1_1 : Ref sig .tc := ⟨.vmem, 21, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc1_sem0_0 : DmaSem sig := 6
abbrev cc1_sem0_1 : DmaSem sig := 7
abbrev cc1_sem1_0 : DmaSem sig := 8
abbrev cc1_sem2_0 : DmaSem sig := 9
abbrev cc1_sem3_0 : DmaSem sig := 10
abbrev cc1_sem3_1 : DmaSem sig := 11
abbrev cc2_sem0_0 : DmaSem sig := 12
abbrev cc2_sem0_1 : DmaSem sig := 13
abbrev cc2_sem1_0 : DmaSem sig := 14
abbrev cc2_sem2_0 : DmaSem sig := 15
abbrev cc2_sem3_0 : DmaSem sig := 16
abbrev cc2_sem3_1 : DmaSem sig := 17
abbrev cc3_sem0_0 : DmaSem sig := 18
abbrev cc3_sem0_1 : DmaSem sig := 19
abbrev cc3_sem1_0 : DmaSem sig := 20
abbrev cc3_sem1_1 : DmaSem sig := 21

abbrev nD : Nat := 1
abbrev τ : Topo := Topo.v7x

variable {F : FTy → Type} [FloatOps F]

abbrev grid0 : Pipeline.Grid := ⟨1, ![25], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2000x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S512x64 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x64 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S2000x64 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev grid1 : Pipeline.Grid := ⟨1, ![25], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S2000x64 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S64x64 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S1x64 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 2 → Memref sig .tc .vmem S2000x64 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev grid2 : Pipeline.Grid := ⟨1, ![25], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S2000x64 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S64x40 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 1 → Memref sig .tc .vmem S1x40 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 2 → Memref sig .tc .vmem S2000x40 .f32 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true]

abbrev grid3 : Pipeline.Grid := ⟨1, ![25], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S2000x40 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 2 → Memref sig .tc .vmem S2000x40 .f32 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![true]

class Facts₀ : Prop where
  shapeCasts_S64_S1x64 : S64.ShapeCasts S1x64
  inb_S2000x512_S2000x512_0_0 : ∀ a, (![0, 0] : Fin 2 → Nat) a + S2000x512.size a ≤ S2000x512.size a
  h_S2000x512 : 0 < S2000x512.numel
  bitsLt_bf16_f32 : FTy.bits .bf16 < FTy.bits .f32
  inb_S512x64_S512x64_0_0 : ∀ a, (![0, 0] : Fin 2 → Nat) a + S512x64.size a ≤ S512x64.size a
  h_S512x64 : 0 < S512x64.numel
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S2000x64 : S1x64.Broadcasts S2000x64
  inb_S2000x64_S2000x64_0_0 : ∀ a, (![0, 0] : Fin 2 → Nat) a + S2000x64.size a ≤ S2000x64.size a
  h_S2000x64 : 0 < S2000x64.numel
  bcast_S_S800000 : S_.BroadcastsInDim S800000 (![] : Fin 0 → Fin S800000.rank)
  bcast_S800000_S800000x1_0 : S800000.BroadcastsInDim S800000x1 (![0] : Fin 1 → Fin S800000x1.rank)
  bcast_S_S800000x1 : S_.BroadcastsInDim S800000x1 (![] : Fin 0 → Fin S800000x1.rank)
  bcast_S1_S1x1_1 : S1.BroadcastsInDim S1x1 (![1] : Fin 1 → Fin S1x1.rank)
  bcast_S1x1_S800000x1_0_1 : S1x1.BroadcastsInDim S800000x1 (![0, 1] : Fin 2 → Fin S800000x1.rank)
  reducesTo_S800000x1_S800000_d1 : S800000x1.ReducesTo [1] S800000
  h_S_ : 0 < S_.numel
  bcast_S800000_S800000x64_0 : S800000.BroadcastsInDim S800000x64 (![0] : Fin 1 → Fin S800000x64.rank)
  bcast_S_S800000x64 : S_.BroadcastsInDim S800000x64 (![] : Fin 0 → Fin S800000x64.rank)
  bcast_S800000x1_S800000x64_0_1 : S800000x1.BroadcastsInDim S800000x64 (![0, 1] : Fin 2 → Fin S800000x64.rank)
  bcast_S_S50000x64 : S_.BroadcastsInDim S50000x64 (![] : Fin 0 → Fin S50000x64.rank)
  shapeCasts_S2000x64_S2000x64 : S2000x64.ShapeCasts S2000x64
  inb_S64x64_S64x64_0_0 : ∀ a, (![0, 0] : Fin 2 → Nat) a + S64x64.size a ≤ S64x64.size a
  h_S64x64 : 0 < S64x64.numel
  shapeCasts_S40_S1x40 : S40.ShapeCasts S1x40
  inb_S64x40_S64x40_0_0 : ∀ a, (![0, 0] : Fin 2 → Nat) a + S64x40.size a ≤ S64x40.size a
  h_S64x40 : 0 < S64x40.numel
  inb_S1x40_S1x40_0_0 : ∀ a, (![0, 0] : Fin 2 → Nat) a + S1x40.size a ≤ S1x40.size a
  h_S1x40 : 0 < S1x40.numel
  shapeCasts_S1x40_S1x40 : S1x40.ShapeCasts S1x40
  broadcasts_S1x40_S2000x40 : S1x40.Broadcasts S2000x40
  inb_S2000x40_S2000x40_0_0 : ∀ a, (![0, 0] : Fin 2 → Nat) a + S2000x40.size a ≤ S2000x40.size a
  h_S2000x40 : 0 < S2000x40.numel
  bcast_S800000_S800000x40_0 : S800000.BroadcastsInDim S800000x40 (![0] : Fin 1 → Fin S800000x40.rank)
  bcast_S_S800000x40 : S_.BroadcastsInDim S800000x40 (![] : Fin 0 → Fin S800000x40.rank)
  bcast_S800000x1_S800000x40_0_1 : S800000x1.BroadcastsInDim S800000x40 (![0, 1] : Fin 2 → Fin S800000x40.rank)
  bcast_S_S50000x40 : S_.BroadcastsInDim S50000x40 (![] : Fin 0 → Fin S50000x40.rank)
  shapeCasts_S2000x40_S2000x40 : S2000x40.ShapeCasts S2000x40
  reduces_S2000x40_S2000 : S2000x40.Reduces [1] S2000
  shapeCasts_S2000_S2000x1 : S2000.ShapeCasts S2000x1
  broadcasts_S2000x1_S2000x40 : S2000x1.Broadcasts S2000x40
  dot_S2000x512_S512x64_S2000x64_1_0_0_1_n_n_wf : DotDims.WF S2000x512 S512x64 S2000x64 [1] [0] [0] [1] [] []
  gather_S50000x64_S800000x1_S800000x64_1_0_n_n_0_1_164_wf : GatherDims.WF S50000x64 S800000x1 S800000x64 [1] [0] [] [0] [] 1 ![1, 64]
  scatter_S50000x64_S800000x1_S800000x64_1_0_0_1_wf : ScatterDims.WF S50000x64 S800000x1 S800000x64 [1] [0] [0] 1
  dot_S2000x64_S64x64_S2000x64_1_0_0_1_n_n_wf : DotDims.WF S2000x64 S64x64 S2000x64 [1] [0] [0] [1] [] []
  dot_S2000x64_S64x40_S2000x40_1_0_0_1_n_n_wf : DotDims.WF S2000x64 S64x40 S2000x40 [1] [0] [0] [1] [] []
  gather_S50000x40_S800000x1_S800000x40_1_0_n_n_0_1_140_wf : GatherDims.WF S50000x40 S800000x1 S800000x40 [1] [0] [] [0] [] 1 ![1, 40]
  scatter_S50000x40_S800000x1_S800000x40_1_0_0_1_wf : ScatterDims.WF S50000x40 S800000x1 S800000x40 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2000x512.size a ≤ S50000x512.size a
  hwx0_0 : ∀ i : grid0.Coords, EltTy.bits .f32 = 32 ∨ (Rect.block (s := S50000x512) S2000x512.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S512x64.size a ≤ S512x64.size a
  hwx0_1 : ∀ i : grid0.Coords, EltTy.bits .f32 = 32 ∨ (Rect.block (s := S512x64) S512x64.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x64.size a ≤ S1x64.size a
  hwx0_2 : ∀ i : grid0.Coords, EltTy.bits .f32 = 32 ∨ (Rect.block (s := S1x64) S1x64.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S2000x64.size a ≤ S50000x64.size a
  hwx0_3 : ∀ i : grid0.Coords, EltTy.bits .f32 = 32 ∨ (Rect.block (s := S50000x64) S2000x64.size (cc0_transform_3 i) (hinb0_3 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S2000x64.size a ≤ S50000x64.size a
  hwx1_0 : ∀ i : grid1.Coords, EltTy.bits .f32 = 32 ∨ (Rect.block (s := S50000x64) S2000x64.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S64x64.size a ≤ S64x64.size a
  hwx1_1 : ∀ i : grid1.Coords, EltTy.bits .f32 = 32 ∨ (Rect.block (s := S64x64) S64x64.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x64.size a ≤ S1x64.size a
  hwx1_2 : ∀ i : grid1.Coords, EltTy.bits .f32 = 32 ∨ (Rect.block (s := S1x64) S1x64.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S2000x64.size a ≤ S50000x64.size a
  hwx1_3 : ∀ i : grid1.Coords, EltTy.bits .f32 = 32 ∨ (Rect.block (s := S50000x64) S2000x64.size (cc1_transform_3 i) (hinb1_3 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S2000x64.size a ≤ S50000x64.size a
  hwx2_0 : ∀ i : grid2.Coords, EltTy.bits .f32 = 32 ∨ (Rect.block (s := S50000x64) S2000x64.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S64x40.size a ≤ S64x40.size a
  hwx2_1 : ∀ i : grid2.Coords, EltTy.bits .f32 = 32 ∨ (Rect.block (s := S64x40) S64x40.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S1x40.size a ≤ S1x40.size a
  hwx2_2 : ∀ i : grid2.Coords, EltTy.bits .f32 = 32 ∨ (Rect.block (s := S1x40) S1x40.size (cc2_transform_2 i) (hinb2_2 i)).WholeWords (EltTy.packing .f32)
  hstage2_3 : ∀ j, (stage2_3 j).IsWhole
  nbuf2_3 : grid2.bufCount reads2_3 false = 2
  hreads2_3 : ∀ i i' : grid2.Coords, (∀ a, reads2_3 a = true → i a = i' a) → cc2_transform_3 i = cc2_transform_3 i'
  hinb2_3 : ∀ (i : grid2.Coords) a, (cc2_transform_3 i a + 1) * S2000x40.size a ≤ S50000x40.size a
  hwx2_3 : ∀ i : grid2.Coords, EltTy.bits .f32 = 32 ∨ (Rect.block (s := S50000x40) S2000x40.size (cc2_transform_3 i) (hinb2_3 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S2000x40.size a ≤ S50000x40.size a
  hwx3_0 : ∀ i : grid3.Coords, EltTy.bits .f32 = 32 ∨ (Rect.block (s := S50000x40) S2000x40.size (cc3_transform_0 i) (hinb3_0 i)).WholeWords (EltTy.packing .f32)
  hstage3_1 : ∀ j, (stage3_1 j).IsWhole
  nbuf3_1 : grid3.bufCount reads3_1 false = 2
  hreads3_1 : ∀ i i' : grid3.Coords, (∀ a, reads3_1 a = true → i a = i' a) → cc3_transform_1 i = cc3_transform_1 i'
  hinb3_1 : ∀ (i : grid3.Coords) a, (cc3_transform_1 i a + 1) * S2000x40.size a ≤ S50000x40.size a
  hwx3_1 : ∀ i : grid3.Coords, EltTy.bits .f32 = 32 ∨ (Rect.block (s := S50000x40) S2000x40.size (cc3_transform_1 i) (hinb3_1 i)).WholeWords (EltTy.packing .f32)

variable [Facts₀]

def dot_S2000x512_S512x64_S2000x64_1_0_0_1_n_n : DotDims S2000x512 S512x64 S2000x64 where
  lhsContracting := [1]
  rhsContracting := [0]
  lhsNonContracting := [0]
  rhsNonContracting := [1]
  lhsBatch := []
  rhsBatch := []
  wf := dot_S2000x512_S512x64_S2000x64_1_0_0_1_n_n_wf
def gather_S50000x64_S800000x1_S800000x64_1_0_n_n_0_1_164 : GatherDims S50000x64 S800000x1 S800000x64 where
  offsetDims := [1]
  collapsedSliceDims := [0]
  operandBatchingDims := []
  startIndicesBatchingDims := []
  startIndexMap := [0]
  indexVectorDim := 1
  sliceSizes := ![1, 64]
  wf := gather_S50000x64_S800000x1_S800000x64_1_0_n_n_0_1_164_wf
def scatter_S50000x64_S800000x1_S800000x64_1_0_0_1 : ScatterDims S50000x64 S800000x1 S800000x64 where
  updateWindowDims := [1]
  insertedWindowDims := [0]
  scatterDimsToOperandDims := [0]
  indexVectorDim := 1
  wf := scatter_S50000x64_S800000x1_S800000x64_1_0_0_1_wf
def dot_S2000x64_S64x64_S2000x64_1_0_0_1_n_n : DotDims S2000x64 S64x64 S2000x64 where
  lhsContracting := [1]
  rhsContracting := [0]
  lhsNonContracting := [0]
  rhsNonContracting := [1]
  lhsBatch := []
  rhsBatch := []
  wf := dot_S2000x64_S64x64_S2000x64_1_0_0_1_n_n_wf
def dot_S2000x64_S64x40_S2000x40_1_0_0_1_n_n : DotDims S2000x64 S64x40 S2000x40 where
  lhsContracting := [1]
  rhsContracting := [0]
  lhsNonContracting := [0]
  rhsNonContracting := [1]
  lhsBatch := []
  rhsBatch := []
  wf := dot_S2000x64_S64x40_S2000x40_1_0_0_1_n_n_wf
def gather_S50000x40_S800000x1_S800000x40_1_0_n_n_0_1_140 : GatherDims S50000x40 S800000x1 S800000x40 where
  offsetDims := [1]
  collapsedSliceDims := [0]
  operandBatchingDims := []
  startIndicesBatchingDims := []
  startIndexMap := [0]
  indexVectorDim := 1
  sliceSizes := ![1, 40]
  wf := gather_S50000x40_S800000x1_S800000x40_1_0_n_n_0_1_140_wf
def scatter_S50000x40_S800000x1_S800000x40_1_0_0_1 : ScatterDims S50000x40 S800000x1 S800000x40 where
  updateWindowDims := [1]
  insertedWindowDims := [0]
  scatterDimsToOperandDims := [0]
  indexVectorDim := 1
  wf := scatter_S50000x40_S800000x1_S800000x40_1_0_0_1_wf

abbrev win0_0 : Pipeline.Window sig grid0 :=
  Pipeline.Window.ofSpec (Memref.whole main_arg0) S2000x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S512x64.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v0) S1x64.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v1) S2000x64.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_v8) S2000x64.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg4) S64x64.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v9) S1x64.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v10) S2000x64.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

abbrev win2_0 : Pipeline.Window sig grid2 :=
  Pipeline.Window.ofSpec (Memref.whole main_v17) S2000x64.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_arg6) S64x40.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v18) S1x40.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v19) S2000x40.size cc2_transform_3 reads2_3 true false 2 stage2_3 sem2_3
    hrank2 hreads2_3 hinb2_3 nbuf2_3 (Memref.isWhole_whole _) hwx2_3 hstage2_3

abbrev win2 : Fin 4 → Pipeline.Window sig grid2 := fun | 0 => win2_0 | 1 => win2_1 | 2 => win2_2 | 3 => win2_3 | ⟨_ + 4, h⟩ => absurd h (Nat.not_lt.2 (Nat.le_add_left _ _))
abbrev spec2 : Fin 4 → Pipeline.WinSpec sig grid2.rank := fun w => (win2 w).toWinSpec

abbrev win3_0 : Pipeline.Window sig grid3 :=
  Pipeline.Window.ofSpec (Memref.whole main_v26) S2000x40.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v27) S2000x40.size cc3_transform_1 reads3_1 true false 2 stage3_1 sem3_1
    hrank3 hreads3_1 hinb3_1 nbuf3_1 (Memref.isWhole_whole _) hwx3_1 hstage3_1

abbrev win3 : Fin 2 → Pipeline.Window sig grid3 := fun | 0 => win3_0 | 1 => win3_1 | ⟨_ + 2, h⟩ => absurd h (Nat.not_lt.2 (Nat.le_add_left _ _))
abbrev spec3 : Fin 2 → Pipeline.WinSpec sig grid3.rank := fun w => (win3 w).toWinSpec

class Facts : Prop extends Facts₀ where

variable [Facts]
-- ==== ReferenceIdeal.lean ====
abbrev S50000x512 : Shape := ⟨2, ![50000, 512]⟩
abbrev S800000 : Shape := ⟨1, ![800000]⟩
abbrev S512x64 : Shape := ⟨2, ![512, 64]⟩
abbrev S64 : Shape := ⟨1, ![64]⟩
abbrev S64x64 : Shape := ⟨2, ![64, 64]⟩
abbrev S64x40 : Shape := ⟨2, ![64, 40]⟩
abbrev S40 : Shape := ⟨1, ![40]⟩
abbrev S50000x64 : Shape := ⟨2, ![50000, 64]⟩
abbrev S1x64 : Shape := ⟨2, ![1, 64]⟩
abbrev S_ : Shape := ⟨0, ![]⟩
abbrev S800000x1 : Shape := ⟨2, ![800000, 1]⟩
abbrev S800000x64 : Shape := ⟨2, ![800000, 64]⟩
abbrev S50000x40 : Shape := ⟨2, ![50000, 40]⟩
abbrev S1x40 : Shape := ⟨2, ![1, 40]⟩
abbrev S800000x40 : Shape := ⟨2, ![800000, 40]⟩
abbrev S50000 : Shape := ⟨1, ![50000]⟩
abbrev S50000x1 : Shape := ⟨2, ![50000, 1]⟩

abbrev nBuf : Space → Nat
  | .hbm => 88
  | .vmem => 0
  | .smem => 0
  | _ => 0

abbrev bufTy : (tb : Table) → Fin (tcTables nBuf tb) → BufTy
  | .hbm, ⟨0, _⟩ => ⟨S50000x512, .f32⟩
  | .hbm, ⟨1, _⟩ => ⟨S800000, .f32⟩
  | .hbm, ⟨2, _⟩ => ⟨S512x64, .f32⟩
  | .hbm, ⟨3, _⟩ => ⟨S64, .f32⟩
  | .hbm, ⟨4, _⟩ => ⟨S64x64, .f32⟩
  | .hbm, ⟨5, _⟩ => ⟨S64, .f32⟩
  | .hbm, ⟨6, _⟩ => ⟨S64x40, .f32⟩
  | .hbm, ⟨7, _⟩ => ⟨S40, .f32⟩
  | .hbm, ⟨8, _⟩ => ⟨S800000, .i32⟩
  | .hbm, ⟨9, _⟩ => ⟨S800000, .i32⟩
  | .hbm, ⟨10, _⟩ => ⟨S50000x64, .f32⟩
  | .hbm, ⟨11, _⟩ => ⟨S1x64, .f32⟩
  | .hbm, ⟨12, _⟩ => ⟨S50000x64, .f32⟩
  | .hbm, ⟨13, _⟩ => ⟨S50000x64, .f32⟩
  | .hbm, ⟨14, _⟩ => ⟨S_, .i32⟩
  | .hbm, ⟨15, _⟩ => ⟨S800000, .i32⟩
  | .hbm, ⟨16, _⟩ => ⟨S800000, .i1⟩
  | .hbm, ⟨17, _⟩ => ⟨S_, .i32⟩
  | .hbm, ⟨18, _⟩ => ⟨S800000, .i32⟩
  | .hbm, ⟨19, _⟩ => ⟨S800000, .i32⟩
  | .hbm, ⟨20, _⟩ => ⟨S800000, .i32⟩
  | .hbm, ⟨21, _⟩ => ⟨S800000x1, .i32⟩
  | .hbm, ⟨22, _⟩ => ⟨S800000x64, .f32⟩
  | .hbm, ⟨23, _⟩ => ⟨S800000x1, .f32⟩
  | .hbm, ⟨24, _⟩ => ⟨S800000x64, .f32⟩
  | .hbm, ⟨25, _⟩ => ⟨S800000x64, .f32⟩
  | .hbm, ⟨26, _⟩ => ⟨S_, .f32⟩
  | .hbm, ⟨27, _⟩ => ⟨S50000x64, .f32⟩
  | .hbm, ⟨28, _⟩ => ⟨S800000x1, .i32⟩
  | .hbm, ⟨29, _⟩ => ⟨S50000x64, .f32⟩
  | .hbm, ⟨30, _⟩ => ⟨S_, .f32⟩
  | .hbm, ⟨31, _⟩ => ⟨S50000x64, .f32⟩
  | .hbm, ⟨32, _⟩ => ⟨S50000x64, .f32⟩
  | .hbm, ⟨33, _⟩ => ⟨S50000x64, .f32⟩
  | .hbm, ⟨34, _⟩ => ⟨S1x64, .f32⟩
  | .hbm, ⟨35, _⟩ => ⟨S50000x64, .f32⟩
  | .hbm, ⟨36, _⟩ => ⟨S50000x64, .f32⟩
  | .hbm, ⟨37, _⟩ => ⟨S_, .i32⟩
  | .hbm, ⟨38, _⟩ => ⟨S800000, .i32⟩
  | .hbm, ⟨39, _⟩ => ⟨S800000, .i1⟩
  | .hbm, ⟨40, _⟩ => ⟨S_, .i32⟩
  | .hbm, ⟨41, _⟩ => ⟨S800000, .i32⟩
  | .hbm, ⟨42, _⟩ => ⟨S800000, .i32⟩
  | .hbm, ⟨43, _⟩ => ⟨S800000, .i32⟩
  | .hbm, ⟨44, _⟩ => ⟨S800000x1, .i32⟩
  | .hbm, ⟨45, _⟩ => ⟨S800000x64, .f32⟩
  | .hbm, ⟨46, _⟩ => ⟨S800000x1, .f32⟩
  | .hbm, ⟨47, _⟩ => ⟨S800000x64, .f32⟩
  | .hbm, ⟨48, _⟩ => ⟨S800000x64, .f32⟩
  | .hbm, ⟨49, _⟩ => ⟨S_, .f32⟩
  | .hbm, ⟨50, _⟩ => ⟨S50000x64, .f32⟩
  | .hbm, ⟨51, _⟩ => ⟨S800000x1, .i32⟩
  | .hbm, ⟨52, _⟩ => ⟨S50000x64, .f32⟩
  | .hbm, ⟨53, _⟩ => ⟨S50000x40, .f32⟩
  | .hbm, ⟨54, _⟩ => ⟨S1x40, .f32⟩
  | .hbm, ⟨55, _⟩ => ⟨S50000x40, .f32⟩
  | .hbm, ⟨56, _⟩ => ⟨S50000x40, .f32⟩
  | .hbm, ⟨57, _⟩ => ⟨S_, .i32⟩
  | .hbm, ⟨58, _⟩ => ⟨S800000, .i32⟩
  | .hbm, ⟨59, _⟩ => ⟨S800000, .i1⟩
  | .hbm, ⟨60, _⟩ => ⟨S_, .i32⟩
  | .hbm, ⟨61, _⟩ => ⟨S800000, .i32⟩
  | .hbm, ⟨62, _⟩ => ⟨S800000, .i32⟩
  | .hbm, ⟨63, _⟩ => ⟨S800000, .i32⟩
  | .hbm, ⟨64, _⟩ => ⟨S800000x1, .i32⟩
  | .hbm, ⟨65, _⟩ => ⟨S800000x40, .f32⟩
  | .hbm, ⟨66, _⟩ => ⟨S800000x1, .f32⟩
  | .hbm, ⟨67, _⟩ => ⟨S800000x40, .f32⟩
  | .hbm, ⟨68, _⟩ => ⟨S800000x40, .f32⟩
  | .hbm, ⟨69, _⟩ => ⟨S_, .f32⟩
  | .hbm, ⟨70, _⟩ => ⟨S50000x40, .f32⟩
  | .hbm, ⟨71, _⟩ => ⟨S800000x1, .i32⟩
  | .hbm, ⟨72, _⟩ => ⟨S50000x40, .f32⟩
  | .hbm, ⟨73, _⟩ => ⟨S_, .f32⟩
  | .hbm, ⟨74, _⟩ => ⟨S50000, .f32⟩
  | .hbm, ⟨75, _⟩ => ⟨S_, .f32⟩
  | .hbm, ⟨76, _⟩ => ⟨S50000, .f32⟩
  | .hbm, ⟨77, _⟩ => ⟨S50000, .f32⟩
  | .hbm, ⟨78, _⟩ => ⟨S50000x1, .f32⟩
  | .hbm, ⟨79, _⟩ => ⟨S50000x40, .f32⟩
  | .hbm, ⟨80, _⟩ => ⟨S50000x40, .f32⟩
  | .hbm, ⟨81, _⟩ => ⟨S50000x40, .f32⟩
  | .hbm, ⟨82, _⟩ => ⟨S_, .f32⟩
  | .hbm, ⟨83, _⟩ => ⟨S50000, .f32⟩
  | .hbm, ⟨84, _⟩ => ⟨S50000x1, .f32⟩
  | .hbm, ⟨85, _⟩ => ⟨S50000x1, .f32⟩
  | .hbm, ⟨86, _⟩ => ⟨S50000x40, .f32⟩
  | .hbm, ⟨87, _⟩ => ⟨S50000x40, .f32⟩
  | _, _ => ⟨S50000x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_c : Ref sig .tc := ⟨.hbm, 14, rfl⟩
abbrev main_v4 : Ref sig .tc := ⟨.hbm, 15, rfl⟩
abbrev main_v5 : Ref sig .tc := ⟨.hbm, 16, rfl⟩
abbrev main_c_0 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_cst : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_call0_cst : Ref sig .tc := ⟨.hbm, 30, rfl⟩
abbrev main_call0_v0 : Ref sig .tc := ⟨.hbm, 31, rfl⟩
abbrev main_v17 : Ref sig .tc := ⟨.hbm, 32, rfl⟩
abbrev main_v18 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_c_1 : Ref sig .tc := ⟨.hbm, 37, rfl⟩
abbrev main_v22 : Ref sig .tc := ⟨.hbm, 38, rfl⟩
abbrev main_v23 : Ref sig .tc := ⟨.hbm, 39, rfl⟩
abbrev main_c_2 : Ref sig .tc := ⟨.hbm, 40, rfl⟩
abbrev main_v24 : Ref sig .tc := ⟨.hbm, 41, rfl⟩
abbrev main_v25 : Ref sig .tc := ⟨.hbm, 42, rfl⟩
abbrev main_v26 : Ref sig .tc := ⟨.hbm, 43, rfl⟩
abbrev main_v27 : Ref sig .tc := ⟨.hbm, 44, rfl⟩
abbrev main_v28 : Ref sig .tc := ⟨.hbm, 45, rfl⟩
abbrev main_v29 : Ref sig .tc := ⟨.hbm, 46, rfl⟩
abbrev main_v30 : Ref sig .tc := ⟨.hbm, 47, rfl⟩
abbrev main_v31 : Ref sig .tc := ⟨.hbm, 48, rfl⟩
abbrev main_cst_3 : Ref sig .tc := ⟨.hbm, 49, rfl⟩
abbrev main_v32 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_c_4 : Ref sig .tc := ⟨.hbm, 57, rfl⟩
abbrev main_v39 : Ref sig .tc := ⟨.hbm, 58, rfl⟩
abbrev main_v40 : Ref sig .tc := ⟨.hbm, 59, rfl⟩
abbrev main_c_5 : Ref sig .tc := ⟨.hbm, 60, rfl⟩
abbrev main_v41 : Ref sig .tc := ⟨.hbm, 61, rfl⟩
abbrev main_v42 : Ref sig .tc := ⟨.hbm, 62, rfl⟩
abbrev main_v43 : Ref sig .tc := ⟨.hbm, 63, rfl⟩
abbrev main_v44 : Ref sig .tc := ⟨.hbm, 64, rfl⟩
abbrev main_v45 : Ref sig .tc := ⟨.hbm, 65, rfl⟩
abbrev main_v46 : Ref sig .tc := ⟨.hbm, 66, rfl⟩
abbrev main_v47 : Ref sig .tc := ⟨.hbm, 67, rfl⟩
abbrev main_v48 : Ref sig .tc := ⟨.hbm, 68, rfl⟩
abbrev main_cst_6 : Ref sig .tc := ⟨.hbm, 69, rfl⟩
abbrev main_v49 : Ref sig .tc := ⟨.hbm, 70, rfl⟩
abbrev main_v50 : Ref sig .tc := ⟨.hbm, 71, rfl⟩
abbrev main_v51 : Ref sig .tc := ⟨.hbm, 72, rfl⟩
abbrev main_call1_cst : Ref sig .tc := ⟨.hbm, 73, rfl⟩
abbrev main_call1_v0 : Ref sig .tc := ⟨.hbm, 74, rfl⟩
abbrev main_call1_cst_0 : Ref sig .tc := ⟨.hbm, 75, rfl⟩
abbrev main_call1_v1 : Ref sig .tc := ⟨.hbm, 76, rfl⟩
abbrev main_call1_v2 : Ref sig .tc := ⟨.hbm, 77, rfl⟩
abbrev main_call1_v3 : Ref sig .tc := ⟨.hbm, 78, rfl⟩
abbrev main_call1_v4 : Ref sig .tc := ⟨.hbm, 79, rfl⟩
abbrev main_call1_v5 : Ref sig .tc := ⟨.hbm, 80, rfl⟩
abbrev main_call1_v6 : Ref sig .tc := ⟨.hbm, 81, rfl⟩
abbrev main_call1_cst_1 : Ref sig .tc := ⟨.hbm, 82, rfl⟩
abbrev main_call1_v7 : Ref sig .tc := ⟨.hbm, 83, rfl⟩
abbrev main_call1_v8 : Ref sig .tc := ⟨.hbm, 84, rfl⟩
abbrev main_call1_v9 : Ref sig .tc := ⟨.hbm, 85, rfl⟩
abbrev main_call1_v10 : Ref sig .tc := ⟨.hbm, 86, rfl⟩
abbrev main_v52 : Ref sig .tc := ⟨.hbm, 87, rfl⟩

abbrev nD : Nat := 1
abbrev τ : Topo := Topo.v7x

variable {F : FTy → Type} [FloatOps F]

class Facts₀ : Prop where
  bcast_S64_S1x64_1 : S64.BroadcastsInDim S1x64 (![1] : Fin 1 → Fin S1x64.rank)
  bcast_S1x64_S50000x64_0_1 : S1x64.BroadcastsInDim S50000x64 (![0, 1] : Fin 2 → Fin S50000x64.rank)
  bcast_S_S800000 : S_.BroadcastsInDim S800000 (![] : Fin 0 → Fin S800000.rank)
  bcast_S800000_S800000x1_0 : S800000.BroadcastsInDim S800000x1 (![0] : Fin 1 → Fin S800000x1.rank)
  bcast_S800000x1_S800000x64_0_1 : S800000x1.BroadcastsInDim S800000x64 (![0, 1] : Fin 2 → Fin S800000x64.rank)
  bcast_S_S50000x64 : S_.BroadcastsInDim S50000x64 (![] : Fin 0 → Fin S50000x64.rank)
  bcast_S40_S1x40_1 : S40.BroadcastsInDim S1x40 (![1] : Fin 1 → Fin S1x40.rank)
  bcast_S1x40_S50000x40_0_1 : S1x40.BroadcastsInDim S50000x40 (![0, 1] : Fin 2 → Fin S50000x40.rank)
  bcast_S800000x1_S800000x40_0_1 : S800000x1.BroadcastsInDim S800000x40 (![0, 1] : Fin 2 → Fin S800000x40.rank)
  bcast_S_S50000x40 : S_.BroadcastsInDim S50000x40 (![] : Fin 0 → Fin S50000x40.rank)
  reducesTo_S50000x40_S50000_d1 : S50000x40.ReducesTo [1] S50000
  h_S_ : 0 < S_.numel
  bcast_S_S50000 : S_.BroadcastsInDim S50000 (![] : Fin 0 → Fin S50000.rank)
  bcast_S50000_S50000x1_0 : S50000.BroadcastsInDim S50000x1 (![0] : Fin 1 → Fin S50000x1.rank)
  bcast_S50000x1_S50000x40_0_1 : S50000x1.BroadcastsInDim S50000x40 (![0, 1] : Fin 2 → Fin S50000x40.rank)
  dot_S50000x512_S512x64_S50000x64_1_0_0_1_n_n_wf : DotDims.WF S50000x512 S512x64 S50000x64 [1] [0] [0] [1] [] []
  gather_S50000x64_S800000x1_S800000x64_1_0_n_n_0_1_164_wf : GatherDims.WF S50000x64 S800000x1 S800000x64 [1] [0] [] [0] [] 1 ![1, 64]
  scatter_S50000x64_S800000x1_S800000x64_1_0_0_1_wf : ScatterDims.WF S50000x64 S800000x1 S800000x64 [1] [0] [0] 1
  dot_S50000x64_S64x64_S50000x64_1_0_0_1_n_n_wf : DotDims.WF S50000x64 S64x64 S50000x64 [1] [0] [0] [1] [] []
  dot_S50000x64_S64x40_S50000x40_1_0_0_1_n_n_wf : DotDims.WF S50000x64 S64x40 S50000x40 [1] [0] [0] [1] [] []
  gather_S50000x40_S800000x1_S800000x40_1_0_n_n_0_1_140_wf : GatherDims.WF S50000x40 S800000x1 S800000x40 [1] [0] [] [0] [] 1 ![1, 40]
  scatter_S50000x40_S800000x1_S800000x40_1_0_0_1_wf : ScatterDims.WF S50000x40 S800000x1 S800000x40 [1] [0] [0] 1

variable [Facts₀]

def dot_S50000x512_S512x64_S50000x64_1_0_0_1_n_n : DotDims S50000x512 S512x64 S50000x64 where
  lhsContracting := [1]
  rhsContracting := [0]
  lhsNonContracting := [0]
  rhsNonContracting := [1]
  lhsBatch := []
  rhsBatch := []
  wf := dot_S50000x512_S512x64_S50000x64_1_0_0_1_n_n_wf
def gather_S50000x64_S800000x1_S800000x64_1_0_n_n_0_1_164 : GatherDims S50000x64 S800000x1 S800000x64 where
  offsetDims := [1]
  collapsedSliceDims := [0]
  operandBatchingDims := []
  startIndicesBatchingDims := []
  startIndexMap := [0]
  indexVectorDim := 1
  sliceSizes := ![1, 64]
  wf := gather_S50000x64_S800000x1_S800000x64_1_0_n_n_0_1_164_wf
def scatter_S50000x64_S800000x1_S800000x64_1_0_0_1 : ScatterDims S50000x64 S800000x1 S800000x64 where
  updateWindowDims := [1]
  insertedWindowDims := [0]
  scatterDimsToOperandDims := [0]
  indexVectorDim := 1
  wf := scatter_S50000x64_S800000x1_S800000x64_1_0_0_1_wf
def dot_S50000x64_S64x64_S50000x64_1_0_0_1_n_n : DotDims S50000x64 S64x64 S50000x64 where
  lhsContracting := [1]
  rhsContracting := [0]
  lhsNonContracting := [0]
  rhsNonContracting := [1]
  lhsBatch := []
  rhsBatch := []
  wf := dot_S50000x64_S64x64_S50000x64_1_0_0_1_n_n_wf
def dot_S50000x64_S64x40_S50000x40_1_0_0_1_n_n : DotDims S50000x64 S64x40 S50000x40 where
  lhsContracting := [1]
  rhsContracting := [0]
  lhsNonContracting := [0]
  rhsNonContracting := [1]
  lhsBatch := []
  rhsBatch := []
  wf := dot_S50000x64_S64x40_S50000x40_1_0_0_1_n_n_wf
def gather_S50000x40_S800000x1_S800000x40_1_0_n_n_0_1_140 : GatherDims S50000x40 S800000x1 S800000x40 where
  offsetDims := [1]
  collapsedSliceDims := [0]
  operandBatchingDims := []
  startIndicesBatchingDims := []
  startIndexMap := [0]
  indexVectorDim := 1
  sliceSizes := ![1, 40]
  wf := gather_S50000x40_S800000x1_S800000x40_1_0_n_n_0_1_140_wf
def scatter_S50000x40_S800000x1_S800000x40_1_0_0_1 : ScatterDims S50000x40 S800000x1 S800000x40 where
  updateWindowDims := [1]
  insertedWindowDims := [0]
  scatterDimsToOperandDims := [0]
  indexVectorDim := 1
  wf := scatter_S50000x40_S800000x1_S800000x40_1_0_0_1_wf

class Facts : Prop extends Facts₀ where

variable [Facts]
-- ==== Proof.Spec.lean ====
/-
  The three-layer graph convolution's dense pieces as plain formulas over the extended reals, entry by entry.

  A LINEAR layer's entry (p, q): the sum over k of x (p, k) · w (k, q), plus the bias b q.
  A LOG-SOFTMAX entry (p, q): with M the largest entry of row p, (a (p, q) − M) − log (∑ over j of exp (a (p, j) − M)).
  Both programs are shown to compute exactly these, so that the two meet without any algebra on the sums.
-/
import Idealize.ShloMosaic.PureOps.Ideal
import Idealize.ShloMosaic.Lib.ValueIdx

noncomputable section

namespace Cert.Spec

open Idealize.ShloMosaic Idealize.ShloMosaic.ValueIdx

variable {M K N : Nat}

/-- Entry (p, q) of x · w + b: the row of x against the column of w, plus the bias of column q. -/
def linAt (x : (⟨2, ![M, K]⟩ : Shape).Idx → EReal) (w : (⟨2, ![K, N]⟩ : Shape).Idx → EReal) (b : Fin N → EReal)
    (p : Fin M) (q : Fin N) : EReal :=
  (∑ k : Fin K, x (ix2 p k) * w (ix2 k q)) + b q

/-- The positive part of every entry. -/
def relu (a : (⟨2, ![M, N]⟩ : Shape).Idx → EReal) : (⟨2, ![M, N]⟩ : Shape).Idx → EReal := fun i => max (a i) 0

/-- The largest entry of row p (−∞ for a row with no entry). -/
def rowMax (a : (⟨2, ![M, N]⟩ : Shape).Idx → EReal) (p : Fin M) : EReal :=
  (Finset.univ : Finset (Fin N)).fold max ⊥ fun j => a (ix2 p j)

/-- Entry (p, q) of the row-wise log-softmax, in the shifted form both programs compute. -/
def lsmAt (a : (⟨2, ![M, N]⟩ : Shape).Idx → EReal) (p : Fin M) (q : Fin N) : EReal :=
  (a (ix2 p q) - rowMax a p) - Ideal.log (∑ j : Fin N, Ideal.exp (a (ix2 p j) - rowMax a p))

end Cert.Spec

end
-- ==== Proof.LibPlainDot.lean ====
/-
  A matrix product read at an entry.

  For the dimension numbers of the plain product of an M × K matrix with a K × N matrix (contract the left
  operand's second axis against the right operand's first, no batch axis) the sum over the product's contraction
  index is the familiar sum over `k : Fin K` of `l (a, k) · r (k, b)`. Stated for ANY record with those dimension
  numbers, so one lemma serves every such product of a program whatever the three extents; the forms for a
  `tpu.matmul` into a zero accumulator and for the host's `dot_general` at the ideal values follow.
-/
import Idealize.ShloMosaic.PureOps.Ideal.Laws
import Idealize.ShloMosaic.Lib.ValueIdx

noncomputable section

namespace Cert.LibPlainDot

open Idealize.ShloMosaic Idealize.ShloMosaic.ValueIdx

variable {M K N : Nat}

/-- The plain product's sum over its contraction index is the sum over `k : Fin K` of `l (a, k) * r (k, b)`. -/
theorem dot_sum (d : DotDims ⟨2, ![M, K]⟩ ⟨2, ![K, N]⟩ ⟨2, ![M, N]⟩)
    (hlc : d.lhsContracting = [1]) (hrc : d.rhsContracting = [0])
    (hln : d.lhsNonContracting = [0]) (hrn : d.rhsNonContracting = [1])
    (hlb : d.lhsBatch = []) (hrb : d.rhsBatch = [])
    (l : (⟨2, ![M, K]⟩ : Shape).Idx → EReal) (r : (⟨2, ![K, N]⟩ : Shape).Idx → EReal) (a : Fin M) (b : Fin N) :
    ∑ k : d.contr.Idx, l (d.lhsIdx (ix2 a b) k) * r (d.rhsIdx (ix2 a b) k) = ∑ k : Fin K, l (ix2 a k) * r (ix2 k b) := by
  obtain ⟨lc, rc, ln, rn, lb, rb, wf⟩ := d
  dsimp only at hlc hrc hln hrn hlb hrb
  subst hlc hrc hln hrn hlb hrb
  generalize hd : (⟨[1], [0], [0], [1], [], [], wf⟩ : DotDims ⟨2, ![M, K]⟩ ⟨2, ![K, N]⟩ ⟨2, ![M, N]⟩) = d
  have hlc : d.lhsContracting = [1] := by rw [← hd]
  have hrc : d.rhsContracting = [0] := by rw [← hd]
  have hr : d.contr.rank = 1 := by rw [← hd]; rfl
  have hs : d.contr.size ⟨0, by omega⟩ = K := by subst hd; rfl
  have l0 : ∀ q : d.contr.Idx, (d.lhsIdx (ix2 a b) q 0).val = a.val := by
    subst hd; intro q
    unfold DotDims.lhsIdx
    rw [dif_neg (show ¬ (0 : Fin 2) ∈ ([] : List (Fin 2)) from List.not_mem_nil),
      dif_pos (show (0 : Fin 2) ∈ ([0] : List (Fin 2)) from List.mem_singleton.mpr rfl)]
    rfl
  have r1 : ∀ q : d.contr.Idx, (d.rhsIdx (ix2 a b) q 1).val = b.val := by
    subst hd; intro q
    unfold DotDims.rhsIdx
    rw [dif_neg (show ¬ (1 : Fin 2) ∈ ([] : List (Fin 2)) from List.not_mem_nil),
      dif_pos (show (1 : Fin 2) ∈ ([1] : List (Fin 2)) from List.mem_singleton.mpr rfl)]
    rfl
  rw [← Equiv.sum_comp (contrEquiv1 d K hr hs).symm]
  refine Finset.sum_congr rfl fun k _ => ?_
  have hk := contrEquiv1_symm_val d K hr hs k
  have el : d.lhsIdx (ix2 a b) ((contrEquiv1 d K hr hs).symm k) = ix2 a k := funext fun ax => Fin.ext (by
    match ax with
    | ⟨0, _⟩ => exact l0 _
    | ⟨1, _⟩ => exact (d.lhsIdx_val_of_single hlc _ _).trans hk)
  have er : d.rhsIdx (ix2 a b) ((contrEquiv1 d K hr hs).symm k) = ix2 k b := funext fun ax => Fin.ext (by
    match ax with
    | ⟨0, _⟩ => exact (d.rhsIdx_val_of_single hrc _ _).trans hk
    | ⟨1, _⟩ => exact r1 _)
  rw [el, er]

/-- A `tpu.matmul` of the plain dimension numbers into the zero accumulator, at the ideal values, at entry (a, b). -/
theorem matmul_zero_apply {φ₁ φ₂ : FTy} (d : DotDims ⟨2, ![M, K]⟩ ⟨2, ![K, N]⟩ ⟨2, ![M, N]⟩)
    (hlc : d.lhsContracting = [1]) (hrc : d.rhsContracting = [0])
    (hln : d.lhsNonContracting = [0]) (hrn : d.rhsNonContracting = [1])
    (hlb : d.lhsBatch = []) (hrb : d.rhsBatch = [])
    (prec : Option ContractPrecision)
    (l : FVec Ideal ⟨2, ![M, K]⟩ φ₁) (r : FVec Ideal ⟨2, ![K, N]⟩ φ₂) (a : Fin M) (b : Fin N) :
    FloatOps.matmul d prec l r (constant ⟨2, ![M, N]⟩ .f32 0x00000000#32) (ix2 a b) = ∑ k : Fin K, l (ix2 a k) * r (ix2 k b) :=
  (Ideal.matmul_constant_zero_apply d prec l r (ix2 a b)).trans (dot_sum d hlc hrc hln hrn hlb hrb l r a b)

/-- The host's `dot_general` of the plain dimension numbers, at the ideal values, at entry (a, b). -/
theorem dotGeneral_apply {φ₁ φ₂ : FTy} (d : DotDims ⟨2, ![M, K]⟩ ⟨2, ![K, N]⟩ ⟨2, ![M, N]⟩)
    (hlc : d.lhsContracting = [1]) (hrc : d.rhsContracting = [0])
    (hln : d.lhsNonContracting = [0]) (hrn : d.rhsNonContracting = [1])
    (hlb : d.lhsBatch = []) (hrb : d.rhsBatch = [])
    (prec : Option ContractPrecision) (sched : HostSchedule)
    (l : FVec Ideal ⟨2, ![M, K]⟩ φ₁) (r : FVec Ideal ⟨2, ![K, N]⟩ φ₂) (a : Fin M) (b : Fin N) :
    FloatOps.dotGeneral d prec sched l r (ix2 a b) = ∑ k : Fin K, l (ix2 a k) * r (ix2 k b) :=
  (Ideal.dotGeneral_apply d prec sched l r (ix2 a b)).trans (dot_sum d hlc hrc hln hrn hlb hrb l r a b)

end Cert.LibPlainDot

end
-- ==== Proof.RefLayers.lean ====
/-
  The reference's @main cut into its layers, each the reference's own operations composed:
  a linear layer (product plus broadcast bias; the second one takes the positive part of its input first),
  the aggregation over the edges (gather the rows named by the edge's source, scale by the edge weight,
  add into the row named by the edge's target), and the closing row-wise log-softmax.
  Read at an entry, a linear layer and the log-softmax are the plain formulas of Spec.lean.
-/
import proofs.«403088_j44418551775312_1_alg».proof.ReferenceIdeal
import proofs.«403088_j44418551775312_1_alg».proof.Proof.Gen.ReferenceIdeal
import proofs.«403088_j44418551775312_1_alg».proof.Proof.Spec
import proofs.«403088_j44418551775312_1_alg».proof.Proof.LibPlainDot
import Idealize.ShloMosaic.PureOps.Ideal.Laws
import Idealize.ShloMosaic.Lib.ValueIdx
import Idealize.ShloMosaic.Lib.Pipeline.Value

noncomputable section

namespace Cert.ReferenceIdeal.Layers

open Cert.ReferenceIdeal Cert.ReferenceIdeal.Gen Idealize.ShloMosaic Idealize.ShloMosaic.ValueIdx

variable {F : FTy → Type} [FloatOps F]

/-- The edge's source index made non-negative (a negative index counts from the end), as a column of start indices. -/
def wrapIdx (col : IVec S800000 32) : IVec S800000x1 32 :=
  broadcastInDim S800000x1 ![0] bcast_S800000_S800000x1_0
    (select (cmpi .slt col (broadcastInDim S800000 ![] bcast_S_S800000 (constantI S_ 32 0#32)))
      (addi col (broadcastInDim S800000 ![] bcast_S_S800000 (constantI S_ 32 50000#32))) col)

/-- The aggregation over the edges of 64-wide rows. -/
def agg64 (s : FVec F S50000x64 .f32) (ew : FVec F S800000 .f32) (row col : IVec S800000 32) : FVec F S50000x64 .f32 :=
  Host.scatterAdd scatter_S50000x64_S800000x1_S800000x64_1_0_0_1
    (broadcastInDim S50000x64 ![] bcast_S_S50000x64 (constant S_ .f32 0x00000000#32))
    (broadcastInDim S800000x1 ![0] bcast_S800000_S800000x1_0 row)
    (mulf (Host.gather gather_S50000x64_S800000x1_S800000x64_1_0_n_n_0_1_164 s (wrapIdx col))
      (broadcastInDim S800000x64 ![0, 1] bcast_S800000x1_S800000x64_0_1 (broadcastInDim S800000x1 ![0] bcast_S800000_S800000x1_0 ew)))

/-- The aggregation over the edges of 40-wide rows. -/
def agg40 (s : FVec F S50000x40 .f32) (ew : FVec F S800000 .f32) (row col : IVec S800000 32) : FVec F S50000x40 .f32 :=
  Host.scatterAdd scatter_S50000x40_S800000x1_S800000x40_1_0_0_1
    (broadcastInDim S50000x40 ![] bcast_S_S50000x40 (constant S_ .f32 0x00000000#32))
    (broadcastInDim S800000x1 ![0] bcast_S800000_S800000x1_0 row)
    (mulf (Host.gather gather_S50000x40_S800000x1_S800000x40_1_0_n_n_0_1_140 s (wrapIdx col))
      (broadcastInDim S800000x40 ![0, 1] bcast_S800000x1_S800000x40_0_1 (broadcastInDim S800000x1 ![0] bcast_S800000_S800000x1_0 ew)))

/-- The first linear layer: x · W1 + b1. -/
def lin0 (x : FVec F S50000x512 .f32) (w : FVec F S512x64 .f32) (b : FVec F S64 .f32) : FVec F S50000x64 .f32 :=
  addf (Host.dotGeneral dot_S50000x512_S512x64_S50000x64_1_0_0_1_n_n none x w)
    (broadcastInDim S50000x64 ![0, 1] bcast_S1x64_S50000x64_0_1 (broadcastInDim S1x64 ![1] bcast_S64_S1x64_1 b))

/-- The second linear layer, on the positive part of its input: relu(a) · W2 + b2. -/
def lin1 (a : FVec F S50000x64 .f32) (w : FVec F S64x64 .f32) (b : FVec F S64 .f32) : FVec F S50000x64 .f32 :=
  addf (Host.dotGeneral dot_S50000x64_S64x64_S50000x64_1_0_0_1_n_n none
      (maximumf a (broadcastInDim S50000x64 ![] bcast_S_S50000x64 (constant S_ .f32 0x00000000#32))) w)
    (broadcastInDim S50000x64 ![0, 1] bcast_S1x64_S50000x64_0_1 (broadcastInDim S1x64 ![1] bcast_S64_S1x64_1 b))

/-- The third linear layer: a · W3 + b3. -/
def lin2 (a : FVec F S50000x64 .f32) (w : FVec F S64x40 .f32) (b : FVec F S40 .f32) : FVec F S50000x40 .f32 :=
  addf (Host.dotGeneral dot_S50000x64_S64x40_S50000x40_1_0_0_1_n_n none a w)
    (broadcastInDim S50000x40 ![0, 1] bcast_S1x40_S50000x40_0_1 (broadcastInDim S1x40 ![1] bcast_S40_S1x40_1 b))

/-- The shifted rows a − max: each entry less its row's largest. -/
def shifted (a : FVec F S50000x40 .f32) : FVec F S50000x40 .f32 :=
  subf a (broadcastInDim S50000x40 ![0, 1] bcast_S50000x1_S50000x40_0_1 (broadcastInDim S50000x1 ![0] bcast_S50000_S50000x1_0
    (maximumf (broadcastInDim S50000 ![] bcast_S_S50000 (constant S_ .f32 0xFF800000#32))
      (Host.reduce FloatOps.maximumf a (constant S_ .f32 0xFF800000#32) reducesTo_S50000x40_S50000_d1 h_S_))))

/-- The row-wise log-softmax: the shifted rows less the logarithm of the sum of their exponentials. -/
def lsm (a : FVec F S50000x40 .f32) : FVec F S50000x40 .f32 :=
  subf (shifted a) (broadcastInDim S50000x40 ![0, 1] bcast_S50000x1_S50000x40_0_1
    (Host.log (broadcastInDim S50000x1 ![0] bcast_S50000_S50000x1_0
      (Host.reduceAdd (Host.exp (shifted a)) (constant S_ .f32 0x00000000#32) reducesTo_S50000x40_S50000_d1 h_S_))))

/-- The whole network: three linear layers, each followed by the aggregation over the edges (the second linear layer on the
    positive part of its input), then the row-wise log-softmax. -/
def gcn (x : FVec F S50000x512 .f32) (w1 : FVec F S512x64 .f32) (b1 : FVec F S64 .f32) (w2 : FVec F S64x64 .f32) (b2 : FVec F S64 .f32)
    (w3 : FVec F S64x40 .f32) (b3 : FVec F S40 .f32) (ew : FVec F S800000 .f32) (row col : IVec S800000 32) : FVec F S50000x40 .f32 :=
  lsm (agg40 (lin2 (agg64 (lin1 (agg64 (lin0 x w1 b1) ew row col) w2 b2) ew row col) w3 b3) ew row col)

/-! ## Broadcasts, the row maximum and the row sum read at an entry -/

section Reads

variable {α : Type} {m n : Nat}

/-- A vector laid along every row of an m × n rectangle ([n] → [1 × n] → [m × n]) reads, at (p, q), the vector at q. -/
theorem bcastAlongRows_apply (h₁ : (⟨1, ![n]⟩ : Shape).BroadcastsInDim ⟨2, ![1, n]⟩ ![1])
    (h₂ : (⟨2, ![1, n]⟩ : Shape).BroadcastsInDim ⟨2, ![m, n]⟩ ![0, 1]) (v : (⟨1, ![n]⟩ : Shape).Idx → α) (p : Fin m) (q : Fin n) :
    broadcastInDim ⟨2, ![m, n]⟩ ![0, 1] h₂ (broadcastInDim ⟨2, ![1, n]⟩ ![1] h₁ v) (ix2 p q) = v (ix1 q) := by
  refine (broadcastInDim_apply ![0, 1] h₂ _ (ix2 p q) (ix2 (0 : Fin 1) q) ?_).trans
    (broadcastInDim_apply ![1] h₁ v (ix2 (0 : Fin 1) q) (ix1 q) ?_)
  · intro a
    match a with
    | ⟨0, _⟩ => show (0 : ℕ) = if (1 : ℕ) = 1 then 0 else _; simp
    | ⟨1, _⟩ =>
      show q.val = if n = 1 then 0 else q.val
      split_ifs with hn
      · have := q.isLt; omega
      · rfl
  · intro a
    match a with
    | ⟨0, _⟩ =>
      show q.val = if n = 1 then 0 else q.val
      split_ifs with hn
      · have := q.isLt; omega
      · rfl

/-- A one-column matrix laid along every column of an m × n rectangle ([m × 1] → [m × n]) reads, at (p, q), the column at (p, 0). -/
theorem bcastOfCol_apply (h₂ : (⟨2, ![m, 1]⟩ : Shape).BroadcastsInDim ⟨2, ![m, n]⟩ ![0, 1])
    (v : (⟨2, ![m, 1]⟩ : Shape).Idx → α) (p : Fin m) (q : Fin n) :
    broadcastInDim ⟨2, ![m, n]⟩ ![0, 1] h₂ v (ix2 p q) = v (ix2 p (0 : Fin 1)) := by
  refine broadcastInDim_apply ![0, 1] h₂ v (ix2 p q) (ix2 p (0 : Fin 1)) ?_
  intro a
  match a with
  | ⟨0, _⟩ =>
    show p.val = if m = 1 then 0 else p.val
    split_ifs with hm
    · have := p.isLt; omega
    · rfl
  | ⟨1, _⟩ => show (0 : ℕ) = if (1 : ℕ) = 1 then 0 else _; simp

/-- A vector stood up as a one-column matrix ([m] → [m × 1]) reads, at (p, 0), the vector at p. -/
theorem bcastCol1_apply (h₁ : (⟨1, ![m]⟩ : Shape).BroadcastsInDim ⟨2, ![m, 1]⟩ ![0])
    (v : (⟨1, ![m]⟩ : Shape).Idx → α) (p : Fin m) :
    broadcastInDim ⟨2, ![m, 1]⟩ ![0] h₁ v (ix2 p (0 : Fin 1)) = v (ix1 p) := by
  refine broadcastInDim_apply ![0] h₁ v (ix2 p (0 : Fin 1)) (ix1 p) ?_
  intro a
  match a with
  | ⟨0, _⟩ =>
    show p.val = if m = 1 then 0 else p.val
    split_ifs with hm
    · have := p.isLt; omega
    · rfl

/-- A scalar laid over any shape reads the scalar everywhere. -/
theorem bcastScalar_apply {T : Shape} (h : (⟨0, ![]⟩ : Shape).BroadcastsInDim T ![])
    (x : (⟨0, ![]⟩ : Shape).Idx → α) (j : T.Idx) (k : (⟨0, ![]⟩ : Shape).Idx) : broadcastInDim T ![] h x j = x k :=
  broadcastInDim_apply ![] h x j k (fun a => a.elim0)

end Reads

/-! ## The layers read at an entry, at the ideal values -/

/-- The first linear layer at (p, q). -/
theorem lin0_apply (x : FVec Ideal S50000x512 .f32) (w : FVec Ideal S512x64 .f32) (b : FVec Ideal S64 .f32) (p : Fin 50000) (q : Fin 64) :
    lin0 x w b (ix2 p q) = Cert.Spec.linAt x w (fun q => b (ix1 q)) p q := by
  show FloatOps.dotGeneral dot_S50000x512_S512x64_S50000x64_1_0_0_1_n_n none _ x w (ix2 p q)
      + broadcastInDim S50000x64 ![0, 1] bcast_S1x64_S50000x64_0_1 (broadcastInDim S1x64 ![1] bcast_S64_S1x64_1 b) (ix2 p q)
    = (∑ k : Fin 512, x (ix2 p k) * w (ix2 k q)) + b (ix1 q)
  rw [Cert.LibPlainDot.dotGeneral_apply _ rfl rfl rfl rfl rfl rfl, bcastAlongRows_apply]

/-- The positive part as the reference takes it: the entrywise larger of the input and the zero laid over the shape. -/
theorem relu_eq (a : FVec Ideal S50000x64 .f32) :
    maximumf a (broadcastInDim S50000x64 ![] bcast_S_S50000x64 (constant S_ .f32 0x00000000#32)) = Cert.Spec.relu a := by
  funext i
  show max (a i) (broadcastInDim S50000x64 ![] bcast_S_S50000x64 (constant S_ .f32 0x00000000#32) i) = max (a i) 0
  rw [bcastScalar_apply bcast_S_S50000x64 _ i ix0, constant_apply, Ideal.ofBits_zero_f32]

/-- The second linear layer at (p, q): the linear formula on the positive part of the input. -/
theorem lin1_apply (a : FVec Ideal S50000x64 .f32) (w : FVec Ideal S64x64 .f32) (b : FVec Ideal S64 .f32) (p : Fin 50000) (q : Fin 64) :
    lin1 a w b (ix2 p q) = Cert.Spec.linAt (Cert.Spec.relu a) w (fun q => b (ix1 q)) p q := by
  show FloatOps.dotGeneral dot_S50000x64_S64x64_S50000x64_1_0_0_1_n_n none _
        (maximumf a (broadcastInDim S50000x64 ![] bcast_S_S50000x64 (constant S_ .f32 0x00000000#32))) w (ix2 p q)
      + broadcastInDim S50000x64 ![0, 1] bcast_S1x64_S50000x64_0_1 (broadcastInDim S1x64 ![1] bcast_S64_S1x64_1 b) (ix2 p q)
    = (∑ k : Fin 64, Cert.Spec.relu a (ix2 p k) * w (ix2 k q)) + b (ix1 q)
  rw [relu_eq, Cert.LibPlainDot.dotGeneral_apply _ rfl rfl rfl rfl rfl rfl, bcastAlongRows_apply]

/-- The third linear layer at (p, q). -/
theorem lin2_apply (a : FVec Ideal S50000x64 .f32) (w : FVec Ideal S64x40 .f32) (b : FVec Ideal S40 .f32) (p : Fin 50000) (q : Fin 40) :
    lin2 a w b (ix2 p q) = Cert.Spec.linAt a w (fun q => b (ix1 q)) p q := by
  show FloatOps.dotGeneral dot_S50000x64_S64x40_S50000x40_1_0_0_1_n_n none _ a w (ix2 p q)
      + broadcastInDim S50000x40 ![0, 1] bcast_S1x40_S50000x40_0_1 (broadcastInDim S1x40 ![1] bcast_S40_S1x40_1 b) (ix2 p q)
    = (∑ k : Fin 64, a (ix2 p k) * w (ix2 k q)) + b (ix1 q)
  rw [Cert.LibPlainDot.dotGeneral_apply _ rfl rfl rfl rfl rfl rfl, bcastAlongRows_apply]

/-! ### The row maximum and the row sum -/

/-- The index of row p with the reduced axis's coordinate k put back is (p, k). -/
theorem lift_row {m n : Nat} (h : (⟨2, ![m, n]⟩ : Shape).Reduces [1] (⟨1, ![m]⟩ : Shape)) (p : Fin m)
    (k : Fin ((⟨2, ![m, n]⟩ : Shape).size 1)) : h.lift (ix1 p) k = ix2 p (⟨k.val, k.isLt⟩ : Fin n) := by
  funext c; apply Fin.ext
  fin_cases c <;> rfl

/-- The pattern 0xFF800000 is −∞. -/
theorem ofBits_negInf_f32 : Ideal.ofBits .f32 0xFF800000#32 = (⊥ : EReal) := by simp [Ideal.ofBits, Ideal.ieee]

theorem reducesRow : S50000x40.Reduces [1] S50000 := by decide

/-- The reference's maximum over a row from −∞ is the fold of max over the row's entries. -/
theorem hostRowMax_apply (a : FVec Ideal S50000x40 .f32) (p : Fin 50000) :
    Host.reduce FloatOps.maximumf a (constant S_ .f32 0xFF800000#32) reducesTo_S50000x40_S50000_d1 h_S_ (ix1 p)
      = Cert.Spec.rowMax a p := by
  rw [Host.reduce_eq_fold_single FloatOps.maximumf a _ reducesTo_S50000x40_S50000_d1 reducesRow h_S_]
  have hf : (a ∘ reducesRow.lift (ix1 p)) = fun k : Fin 40 => a (ix2 p k) := funext fun k => congrArg a (lift_row reducesRow p k)
  show Finset.fold max (Ideal.ofBits .f32 0xFF800000#32) (a ∘ reducesRow.lift (ix1 p)) (Finset.univ : Finset (Fin 40))
    = Finset.fold max ⊥ (fun j : Fin 40 => a (ix2 p j)) (Finset.univ : Finset (Fin 40))
  rw [hf, ofBits_negInf_f32]
  rfl

/-- The reference's sum over a row from zero is the sum of the row's entries. -/
theorem hostRowSum_apply (x : FVec Ideal S50000x40 .f32) (p : Fin 50000) :
    Host.reduceAdd x (constant S_ .f32 0x00000000#32) reducesTo_S50000x40_S50000_d1 h_S_ (ix1 p)
      = ∑ j : Fin 40, x (ix2 p j) := by
  show Ideal.hostReduceAdd reducesTo_S50000x40_S50000_d1 x (Ideal.ofBits .f32 0x00000000#32) (ix1 p) = _
  rw [Ideal.hostReduceAdd_single reducesTo_S50000x40_S50000_d1 reducesRow, Ideal.ofBits_zero_f32, zero_add]
  exact Finset.sum_congr rfl fun k _ => congrArg x (lift_row reducesRow p k)

/-- The shifted rows at (p, q): the entry less its row's largest. -/
theorem shifted_apply (a : FVec Ideal S50000x40 .f32) (p : Fin 50000) (q : Fin 40) :
    shifted a (ix2 p q) = a (ix2 p q) - Cert.Spec.rowMax a p := by
  show a (ix2 p q) - broadcastInDim S50000x40 ![0, 1] bcast_S50000x1_S50000x40_0_1 (broadcastInDim S50000x1 ![0] bcast_S50000_S50000x1_0
    (maximumf (broadcastInDim S50000 ![] bcast_S_S50000 (constant S_ .f32 0xFF800000#32))
      (Host.reduce FloatOps.maximumf a (constant S_ .f32 0xFF800000#32) reducesTo_S50000x40_S50000_d1 h_S_))) (ix2 p q) = _
  rw [bcastOfCol_apply, bcastCol1_apply, maximumf_apply, hostRowMax_apply, bcastScalar_apply bcast_S_S50000 _ (ix1 p) ix0,
    constant_apply, ofBits_negInf_f32, bot_sup_eq]

/-- The reference's logarithm and exponential at an entry are the ideal ones of the entry. -/
theorem hostLog_apply {s : Shape} (x : FVec Ideal s .f32) (i : s.Idx) : Host.log x i = Ideal.log (x i) := rfl

theorem hostExp_apply {s : Shape} (x : FVec Ideal s .f32) (i : s.Idx) : Host.exp x i = Ideal.exp (x i) := rfl

/-- The log-softmax at (p, q). -/
theorem lsm_apply (a : FVec Ideal S50000x40 .f32) (p : Fin 50000) (q : Fin 40) :
    lsm a (ix2 p q) = Cert.Spec.lsmAt a p q := by
  show shifted a (ix2 p q) - broadcastInDim S50000x40 ![0, 1] bcast_S50000x1_S50000x40_0_1
    (Host.log (broadcastInDim S50000x1 ![0] bcast_S50000_S50000x1_0
      (Host.reduceAdd (Host.exp (shifted a)) (constant S_ .f32 0x00000000#32) reducesTo_S50000x40_S50000_d1 h_S_))) (ix2 p q)
    = (a (ix2 p q) - Cert.Spec.rowMax a p) - Ideal.log (∑ j : Fin 40, Ideal.exp (a (ix2 p j) - Cert.Spec.rowMax a p))
  rw [bcastOfCol_apply, shifted_apply, hostLog_apply, bcastCol1_apply, hostRowSum_apply]
  refine congrArg (fun s => (a (ix2 p q) - Cert.Spec.rowMax a p) - Ideal.log s) (Finset.sum_congr rfl fun j _ => ?_)
  rw [hostExp_apply, shifted_apply]

end Cert.ReferenceIdeal.Layers

end
-- ==== Proof.LibTypedRef.lean ====
/-
  A value written through a typed reference and read back through it is the value: the two transports along the
  reference's type equation cancel.
-/
import Idealize.ShloMosaic.Lib.StableHlo

noncomputable section

namespace Cert.LibTypedRef

open Idealize.ShloMosaic Idealize.ShloMosaic.StableHlo

theorem ofBuf_toBuf {sig : RefSig} {T : BufTy} {Val : EltTy → Type} (x : TRef sig T) (v : T.Contents Val) :
    x.ofBuf (x.toBuf v) = v := by
  obtain ⟨r, h, h2, h3⟩ := x
  subst h
  rfl

end Cert.LibTypedRef

end
-- ==== Proof.RefValue.lean ====
/-
  The reference's result: the fold of its 78 operations over the launch contents, at the result buffer, is the
  network of RefLayers.lean applied to the ten arguments. Read off the fold one layer's stretch of operations at a time.
-/
import proofs.«403088_j44418551775312_1_alg».proof.Proof.RefRun
import proofs.«403088_j44418551775312_1_alg».proof.Proof.RefLayers
import Idealize.ShloMosaic.Lib.StableHlo.Run
import Idealize.ShloMosaic.Lib.Pipeline.Frame
import proofs.«403088_j44418551775312_1_alg».proof.Proof.LibTypedRef

noncomputable section

open Idealize.ShloMosaic Idealize.ShloMosaic.TcCoe Idealize.SL.Sem Idealize.ShloMosaic.StableHlo

namespace Cert.ReferenceIdeal.RefValue

open Cert.ReferenceIdeal Cert.ReferenceIdeal.Gen Cert.ReferenceIdeal.ValueP Cert.ReferenceIdeal.Layers

variable {F : FTy → Type} [FloatOps F]

/-! ## The operations cut into the layers' stretches -/

abbrev s1 : List (HloOp τ sig (Elt F)) :=
  [ binary main_arg0 main_arg2 main_v0 ((fun l r => Host.dotGeneral dot_S50000x512_S512x64_S50000x64_1_0_0_1_n_n none l r) : (⟨S50000x512, .f32⟩ : BufTy).Contents (Elt F) → (⟨S512x64, .f32⟩ : BufTy).Contents (Elt F) → (⟨S50000x64, .f32⟩ : BufTy).Contents (Elt F)),
    unary main_arg3 main_v1 (broadcastInDim S1x64 ![1] bcast_S64_S1x64_1 : (⟨S64, .f32⟩ : BufTy).Contents (Elt F) → (⟨S1x64, .f32⟩ : BufTy).Contents (Elt F)),
    unary main_v1 main_v2 (broadcastInDim S50000x64 ![0, 1] bcast_S1x64_S50000x64_0_1 : (⟨S1x64, .f32⟩ : BufTy).Contents (Elt F) → (⟨S50000x64, .f32⟩ : BufTy).Contents (Elt F)),
    binary main_v0 main_v2 main_v3 (addf : (⟨S50000x64, .f32⟩ : BufTy).Contents (Elt F) → (⟨S50000x64, .f32⟩ : BufTy).Contents (Elt F) → (⟨S50000x64, .f32⟩ : BufTy).Contents (Elt F)) ]

abbrev s2 : List (HloOp τ sig (Elt F)) :=
  [ nullary main_c (constantI S_ 32 0#32),
    unary main_c main_v4 (broadcastInDim S800000 ![] bcast_S_S800000 : (⟨S_, .i32⟩ : BufTy).Contents (Elt F) → (⟨S800000, .i32⟩ : BufTy).Contents (Elt F)),
    binary main_arg9 main_v4 main_v5 (cmpi .slt : (⟨S800000, .i32⟩ : BufTy).Contents (Elt F) → (⟨S800000, .i32⟩ : BufTy).Contents (Elt F) → (⟨S800000, .i1⟩ : BufTy).Contents (Elt F)),
    nullary main_c_0 (constantI S_ 32 50000#32),
    unary main_c_0 main_v6 (broadcastInDim S800000 ![] bcast_S_S800000 : (⟨S_, .i32⟩ : BufTy).Contents (Elt F) → (⟨S800000, .i32⟩ : BufTy).Contents (Elt F)),
    binary main_arg9 main_v6 main_v7 (addi : (⟨S800000, .i32⟩ : BufTy).Contents (Elt F) → (⟨S800000, .i32⟩ : BufTy).Contents (Elt F) → (⟨S800000, .i32⟩ : BufTy).Contents (Elt F)),
    ternary main_v5 main_v7 main_arg9 main_v8 (select : (⟨S800000, .i1⟩ : BufTy).Contents (Elt F) → (⟨S800000, .i32⟩ : BufTy).Contents (Elt F) → (⟨S800000, .i32⟩ : BufTy).Contents (Elt F) → (⟨S800000, .i32⟩ : BufTy).Contents (Elt F)),
    unary main_v8 main_v9 (broadcastInDim S800000x1 ![0] bcast_S800000_S800000x1_0 : (⟨S800000, .i32⟩ : BufTy).Contents (Elt F) → (⟨S800000x1, .i32⟩ : BufTy).Contents (Elt F)),
    binary main_v3 main_v9 main_v10 ((fun x i => Host.gather gather_S50000x64_S800000x1_S800000x64_1_0_n_n_0_1_164 x i) : (⟨S50000x64, .f32⟩ : BufTy).Contents (Elt F) → (⟨S800000x1, .i32⟩ : BufTy).Contents (Elt F) → (⟨S800000x64, .f32⟩ : BufTy).Contents (Elt F)),
    unary main_arg1 main_v11 (broadcastInDim S800000x1 ![0] bcast_S800000_S800000x1_0 : (⟨S800000, .f32⟩ : BufTy).Contents (Elt F) → (⟨S800000x1, .f32⟩ : BufTy).Contents (Elt F)),
    unary main_v11 main_v12 (broadcastInDim S800000x64 ![0, 1] bcast_S800000x1_S800000x64_0_1 : (⟨S800000x1, .f32⟩ : BufTy).Contents (Elt F) → (⟨S800000x64, .f32⟩ : BufTy).Contents (Elt F)),
    binary main_v10 main_v12 main_v13 (mulf : (⟨S800000x64, .f32⟩ : BufTy).Contents (Elt F) → (⟨S800000x64, .f32⟩ : BufTy).Contents (Elt F) → (⟨S800000x64, .f32⟩ : BufTy).Contents (Elt F)),
    nullary main_cst (constant S_ .f32 0x00000000#32),
    unary main_cst main_v14 (broadcastInDim S50000x64 ![] bcast_S_S50000x64 : (⟨S_, .f32⟩ : BufTy).Contents (Elt F) → (⟨S50000x64, .f32⟩ : BufTy).Contents (Elt F)),
    unary main_arg8 main_v15 (broadcastInDim S800000x1 ![0] bcast_S800000_S800000x1_0 : (⟨S800000, .i32⟩ : BufTy).Contents (Elt F) → (⟨S800000x1, .i32⟩ : BufTy).Contents (Elt F)),
    ternary main_v14 main_v15 main_v13 main_v16 ((fun x i u => Host.scatterAdd scatter_S50000x64_S800000x1_S800000x64_1_0_0_1 x i u) : (⟨S50000x64, .f32⟩ : BufTy).Contents (Elt F) → (⟨S800000x1, .i32⟩ : BufTy).Contents (Elt F) → (⟨S800000x64, .f32⟩ : BufTy).Contents (Elt F) → (⟨S50000x64, .f32⟩ : BufTy).Contents (Elt F)) ]

abbrev s3 : List (HloOp τ sig (Elt F)) :=
  [ TRef.nullary (TRef.of (T := ⟨S_, .f32⟩) main_call0_cst) (constant S_ .f32 0x00000000#32),
    TRef.unary (TRef.of (T := ⟨S_, .f32⟩) main_call0_cst) (TRef.of (T := ⟨S50000x64, .f32⟩) main_call0_v0) (broadcastInDim S50000x64 ![] bcast_S_S50000x64),
    TRef.binary (TRef.of (T := ⟨S50000x64, .f32⟩) main_v16) (TRef.of (T := ⟨S50000x64, .f32⟩) main_call0_v0) (TRef.of (T := ⟨S50000x64, .f32⟩) main_v17) maximumf,
    binary main_v17 main_arg4 main_v18 ((fun l r => Host.dotGeneral dot_S50000x64_S64x64_S50000x64_1_0_0_1_n_n none l r) : (⟨S50000x64, .f32⟩ : BufTy).Contents (Elt F) → (⟨S64x64, .f32⟩ : BufTy).Contents (Elt F) → (⟨S50000x64, .f32⟩ : BufTy).Contents (Elt F)),
    unary main_arg5 main_v19 (broadcastInDim S1x64 ![1] bcast_S64_S1x64_1 : (⟨S64, .f32⟩ : BufTy).Contents (Elt F) → (⟨S1x64, .f32⟩ : BufTy).Contents (Elt F)),
    unary main_v19 main_v20 (broadcastInDim S50000x64 ![0, 1] bcast_S1x64_S50000x64_0_1 : (⟨S1x64, .f32⟩ : BufTy).Contents (Elt F) → (⟨S50000x64, .f32⟩ : BufTy).Contents (Elt F)),
    binary main_v18 main_v20 main_v21 (addf : (⟨S50000x64, .f32⟩ : BufTy).Contents (Elt F) → (⟨S50000x64, .f32⟩ : BufTy).Contents (Elt F) → (⟨S50000x64, .f32⟩ : BufTy).Contents (Elt F)) ]

abbrev s4 : List (HloOp τ sig (Elt F)) :=
  [ nullary main_c_1 (constantI S_ 32 0#32),
    unary main_c_1 main_v22 (broadcastInDim S800000 ![] bcast_S_S800000 : (⟨S_, .i32⟩ : BufTy).Contents (Elt F) → (⟨S800000, .i32⟩ : BufTy).Contents (Elt F)),
    binary main_arg9 main_v22 main_v23 (cmpi .slt : (⟨S800000, .i32⟩ : BufTy).Contents (Elt F) → (⟨S800000, .i32⟩ : BufTy).Contents (Elt F) → (⟨S800000, .i1⟩ : BufTy).Contents (Elt F)),
    nullary main_c_2 (constantI S_ 32 50000#32),
    unary main_c_2 main_v24 (broadcastInDim S800000 ![] bcast_S_S800000 : (⟨S_, .i32⟩ : BufTy).Contents (Elt F) → (⟨S800000, .i32⟩ : BufTy).Contents (Elt F)),
    binary main_arg9 main_v24 main_v25 (addi : (⟨S800000, .i32⟩ : BufTy).Contents (Elt F) → (⟨S800000, .i32⟩ : BufTy).Contents (Elt F) → (⟨S800000, .i32⟩ : BufTy).Contents (Elt F)),
    ternary main_v23 main_v25 main_arg9 main_v26 (select : (⟨S800000, .i1⟩ : BufTy).Contents (Elt F) → (⟨S800000, .i32⟩ : BufTy).Contents (Elt F) → (⟨S800000, .i32⟩ : BufTy).Contents (Elt F) → (⟨S800000, .i32⟩ : BufTy).Contents (Elt F)),
    unary main_v26 main_v27 (broadcastInDim S800000x1 ![0] bcast_S800000_S800000x1_0 : (⟨S800000, .i32⟩ : BufTy).Contents (Elt F) → (⟨S800000x1, .i32⟩ : BufTy).Contents (Elt F)),
    binary main_v21 main_v27 main_v28 ((fun x i => Host.gather gather_S50000x64_S800000x1_S800000x64_1_0_n_n_0_1_164 x i) : (⟨S50000x64, .f32⟩ : BufTy).Contents (Elt F) → (⟨S800000x1, .i32⟩ : BufTy).Contents (Elt F) → (⟨S800000x64, .f32⟩ : BufTy).Contents (Elt F)),
    unary main_arg1 main_v29 (broadcastInDim S800000x1 ![0] bcast_S800000_S800000x1_0 : (⟨S800000, .f32⟩ : BufTy).Contents (Elt F) → (⟨S800000x1, .f32⟩ : BufTy).Contents (Elt F)),
    unary main_v29 main_v30 (broadcastInDim S800000x64 ![0, 1] bcast_S800000x1_S800000x64_0_1 : (⟨S800000x1, .f32⟩ : BufTy).Contents (Elt F) → (⟨S800000x64, .f32⟩ : BufTy).Contents (Elt F)),
    binary main_v28 main_v30 main_v31 (mulf : (⟨S800000x64, .f32⟩ : BufTy).Contents (Elt F) → (⟨S800000x64, .f32⟩ : BufTy).Contents (Elt F) → (⟨S800000x64, .f32⟩ : BufTy).Contents (Elt F)),
    nullary main_cst_3 (constant S_ .f32 0x00000000#32),
    unary main_cst_3 main_v32 (broadcastInDim S50000x64 ![] bcast_S_S50000x64 : (⟨S_, .f32⟩ : BufTy).Contents (Elt F) → (⟨S50000x64, .f32⟩ : BufTy).Contents (Elt F)),
    unary main_arg8 main_v33 (broadcastInDim S800000x1 ![0] bcast_S800000_S800000x1_0 : (⟨S800000, .i32⟩ : BufTy).Contents (Elt F) → (⟨S800000x1, .i32⟩ : BufTy).Contents (Elt F)),
    ternary main_v32 main_v33 main_v31 main_v34 ((fun x i u => Host.scatterAdd scatter_S50000x64_S800000x1_S800000x64_1_0_0_1 x i u) : (⟨S50000x64, .f32⟩ : BufTy).Contents (Elt F) → (⟨S800000x1, .i32⟩ : BufTy).Contents (Elt F) → (⟨S800000x64, .f32⟩ : BufTy).Contents (Elt F) → (⟨S50000x64, .f32⟩ : BufTy).Contents (Elt F)) ]

abbrev s5 : List (HloOp τ sig (Elt F)) :=
  [ binary main_v34 main_arg6 main_v35 ((fun l r => Host.dotGeneral dot_S50000x64_S64x40_S50000x40_1_0_0_1_n_n none l r) : (⟨S50000x64, .f32⟩ : BufTy).Contents (Elt F) → (⟨S64x40, .f32⟩ : BufTy).Contents (Elt F) → (⟨S50000x40, .f32⟩ : BufTy).Contents (Elt F)),
    unary main_arg7 main_v36 (broadcastInDim S1x40 ![1] bcast_S40_S1x40_1 : (⟨S40, .f32⟩ : BufTy).Contents (Elt F) → (⟨S1x40, .f32⟩ : BufTy).Contents (Elt F)),
    unary main_v36 main_v37 (broadcastInDim S50000x40 ![0, 1] bcast_S1x40_S50000x40_0_1 : (⟨S1x40, .f32⟩ : BufTy).Contents (Elt F) → (⟨S50000x40, .f32⟩ : BufTy).Contents (Elt F)),
    binary main_v35 main_v37 main_v38 (addf : (⟨S50000x40, .f32⟩ : BufTy).Contents (Elt F) → (⟨S50000x40, .f32⟩ : BufTy).Contents (Elt F) → (⟨S50000x40, .f32⟩ : BufTy).Contents (Elt F)) ]

abbrev s6 : List (HloOp τ sig (Elt F)) :=
  [ nullary main_c_4 (constantI S_ 32 0#32),
    unary main_c_4 main_v39 (broadcastInDim S800000 ![] bcast_S_S800000 : (⟨S_, .i32⟩ : BufTy).Contents (Elt F) → (⟨S800000, .i32⟩ : BufTy).Contents (Elt F)),
    binary main_arg9 main_v39 main_v40 (cmpi .slt : (⟨S800000, .i32⟩ : BufTy).Contents (Elt F) → (⟨S800000, .i32⟩ : BufTy).Contents (Elt F) → (⟨S800000, .i1⟩ : BufTy).Contents (Elt F)),
    nullary main_c_5 (constantI S_ 32 50000#32),
    unary main_c_5 main_v41 (broadcastInDim S800000 ![] bcast_S_S800000 : (⟨S_, .i32⟩ : BufTy).Contents (Elt F) → (⟨S800000, .i32⟩ : BufTy).Contents (Elt F)),
    binary main_arg9 main_v41 main_v42 (addi : (⟨S800000, .i32⟩ : BufTy).Contents (Elt F) → (⟨S800000, .i32⟩ : BufTy).Contents (Elt F) → (⟨S800000, .i32⟩ : BufTy).Contents (Elt F)),
    ternary main_v40 main_v42 main_arg9 main_v43 (select : (⟨S800000, .i1⟩ : BufTy).Contents (Elt F) → (⟨S800000, .i32⟩ : BufTy).Contents (Elt F) → (⟨S800000, .i32⟩ : BufTy).Contents (Elt F) → (⟨S800000, .i32⟩ : BufTy).Contents (Elt F)),
    unary main_v43 main_v44 (broadcastInDim S800000x1 ![0] bcast_S800000_S800000x1_0 : (⟨S800000, .i32⟩ : BufTy).Contents (Elt F) → (⟨S800000x1, .i32⟩ : BufTy).Contents (Elt F)),
    binary main_v38 main_v44 main_v45 ((fun x i => Host.gather gather_S50000x40_S800000x1_S800000x40_1_0_n_n_0_1_140 x i) : (⟨S50000x40, .f32⟩ : BufTy).Contents (Elt F) → (⟨S800000x1, .i32⟩ : BufTy).Contents (Elt F) → (⟨S800000x40, .f32⟩ : BufTy).Contents (Elt F)),
    unary main_arg1 main_v46 (broadcastInDim S800000x1 ![0] bcast_S800000_S800000x1_0 : (⟨S800000, .f32⟩ : BufTy).Contents (Elt F) → (⟨S800000x1, .f32⟩ : BufTy).Contents (Elt F)),
    unary main_v46 main_v47 (broadcastInDim S800000x40 ![0, 1] bcast_S800000x1_S800000x40_0_1 : (⟨S800000x1, .f32⟩ : BufTy).Contents (Elt F) → (⟨S800000x40, .f32⟩ : BufTy).Contents (Elt F)),
    binary main_v45 main_v47 main_v48 (mulf : (⟨S800000x40, .f32⟩ : BufTy).Contents (Elt F) → (⟨S800000x40, .f32⟩ : BufTy).Contents (Elt F) → (⟨S800000x40, .f32⟩ : BufTy).Contents (Elt F)),
    nullary main_cst_6 (constant S_ .f32 0x00000000#32),
    unary main_cst_6 main_v49 (broadcastInDim S50000x40 ![] bcast_S_S50000x40 : (⟨S_, .f32⟩ : BufTy).Contents (Elt F) → (⟨S50000x40, .f32⟩ : BufTy).Contents (Elt F)),
    unary main_arg8 main_v50 (broadcastInDim S800000x1 ![0] bcast_S800000_S800000x1_0 : (⟨S800000, .i32⟩ : BufTy).Contents (Elt F) → (⟨S800000x1, .i32⟩ : BufTy).Contents (Elt F)),
    ternary main_v49 main_v50 main_v48 main_v51 ((fun x i u => Host.scatterAdd scatter_S50000x40_S800000x1_S800000x40_1_0_0_1 x i u) : (⟨S50000x40, .f32⟩ : BufTy).Contents (Elt F) → (⟨S800000x1, .i32⟩ : BufTy).Contents (Elt F) → (⟨S800000x40, .f32⟩ : BufTy).Contents (Elt F) → (⟨S50000x40, .f32⟩ : BufTy).Contents (Elt F)) ]

abbrev s7 : List (HloOp τ sig (Elt F)) :=
  [ TRef.nullary (TRef.of (T := ⟨S_, .f32⟩) main_call1_cst) (constant S_ .f32 0xFF800000#32),
    TRef.binary (TRef.of (T := ⟨S50000x40, .f32⟩) main_v51) (TRef.of (T := ⟨S_, .f32⟩) main_call1_cst) (TRef.of (T := ⟨S50000, .f32⟩) main_call1_v0) (fun x v => Host.reduce FloatOps.maximumf x v reducesTo_S50000x40_S50000_d1 h_S_),
    TRef.nullary (TRef.of (T := ⟨S_, .f32⟩) main_call1_cst_0) (constant S_ .f32 0xFF800000#32),
    TRef.unary (TRef.of (T := ⟨S_, .f32⟩) main_call1_cst_0) (TRef.of (T := ⟨S50000, .f32⟩) main_call1_v1) (broadcastInDim S50000 ![] bcast_S_S50000),
    TRef.binary (TRef.of (T := ⟨S50000, .f32⟩) main_call1_v1) (TRef.of (T := ⟨S50000, .f32⟩) main_call1_v0) (TRef.of (T := ⟨S50000, .f32⟩) main_call1_v2) maximumf,
    TRef.unary (TRef.of (T := ⟨S50000, .f32⟩) main_call1_v2) (TRef.of (T := ⟨S50000x1, .f32⟩) main_call1_v3) (broadcastInDim S50000x1 ![0] bcast_S50000_S50000x1_0),
    TRef.unary (TRef.of (T := ⟨S50000x1, .f32⟩) main_call1_v3) (TRef.of (T := ⟨S50000x40, .f32⟩) main_call1_v4) (broadcastInDim S50000x40 ![0, 1] bcast_S50000x1_S50000x40_0_1),
    TRef.binary (TRef.of (T := ⟨S50000x40, .f32⟩) main_v51) (TRef.of (T := ⟨S50000x40, .f32⟩) main_call1_v4) (TRef.of (T := ⟨S50000x40, .f32⟩) main_call1_v5) subf,
    TRef.unary (TRef.of (T := ⟨S50000x40, .f32⟩) main_call1_v5) (TRef.of (T := ⟨S50000x40, .f32⟩) main_call1_v6) Host.exp,
    TRef.nullary (TRef.of (T := ⟨S_, .f32⟩) main_call1_cst_1) (constant S_ .f32 0x00000000#32),
    TRef.binary (TRef.of (T := ⟨S50000x40, .f32⟩) main_call1_v6) (TRef.of (T := ⟨S_, .f32⟩) main_call1_cst_1) (TRef.of (T := ⟨S50000, .f32⟩) main_call1_v7) (fun x v => Host.reduceAdd x v reducesTo_S50000x40_S50000_d1 h_S_),
    TRef.unary (TRef.of (T := ⟨S50000, .f32⟩) main_call1_v7) (TRef.of (T := ⟨S50000x1, .f32⟩) main_call1_v8) (broadcastInDim S50000x1 ![0] bcast_S50000_S50000x1_0),
    TRef.unary (TRef.of (T := ⟨S50000x1, .f32⟩) main_call1_v8) (TRef.of (T := ⟨S50000x1, .f32⟩) main_call1_v9) Host.log,
    TRef.unary (TRef.of (T := ⟨S50000x1, .f32⟩) main_call1_v9) (TRef.of (T := ⟨S50000x40, .f32⟩) main_call1_v10) (broadcastInDim S50000x40 ![0, 1] bcast_S50000x1_S50000x40_0_1),
    TRef.binary (TRef.of (T := ⟨S50000x40, .f32⟩) main_call1_v5) (TRef.of (T := ⟨S50000x40, .f32⟩) main_call1_v10) (TRef.of (T := ⟨S50000x40, .f32⟩) main_v52) subf ]

abbrev s7a : List (HloOp τ sig (Elt F)) :=
  [ TRef.nullary (TRef.of (T := ⟨S_, .f32⟩) main_call1_cst) (constant S_ .f32 0xFF800000#32),
    TRef.binary (TRef.of (T := ⟨S50000x40, .f32⟩) main_v51) (TRef.of (T := ⟨S_, .f32⟩) main_call1_cst) (TRef.of (T := ⟨S50000, .f32⟩) main_call1_v0) (fun x v => Host.reduce FloatOps.maximumf x v reducesTo_S50000x40_S50000_d1 h_S_),
    TRef.nullary (TRef.of (T := ⟨S_, .f32⟩) main_call1_cst_0) (constant S_ .f32 0xFF800000#32),
    TRef.unary (TRef.of (T := ⟨S_, .f32⟩) main_call1_cst_0) (TRef.of (T := ⟨S50000, .f32⟩) main_call1_v1) (broadcastInDim S50000 ![] bcast_S_S50000),
    TRef.binary (TRef.of (T := ⟨S50000, .f32⟩) main_call1_v1) (TRef.of (T := ⟨S50000, .f32⟩) main_call1_v0) (TRef.of (T := ⟨S50000, .f32⟩) main_call1_v2) maximumf,
    TRef.unary (TRef.of (T := ⟨S50000, .f32⟩) main_call1_v2) (TRef.of (T := ⟨S50000x1, .f32⟩) main_call1_v3) (broadcastInDim S50000x1 ![0] bcast_S50000_S50000x1_0),
    TRef.unary (TRef.of (T := ⟨S50000x1, .f32⟩) main_call1_v3) (TRef.of (T := ⟨S50000x40, .f32⟩) main_call1_v4) (broadcastInDim S50000x40 ![0, 1] bcast_S50000x1_S50000x40_0_1),
    TRef.binary (TRef.of (T := ⟨S50000x40, .f32⟩) main_v51) (TRef.of (T := ⟨S50000x40, .f32⟩) main_call1_v4) (TRef.of (T := ⟨S50000x40, .f32⟩) main_call1_v5) subf ]

abbrev s7b : List (HloOp τ sig (Elt F)) :=
  [ TRef.unary (TRef.of (T := ⟨S50000x40, .f32⟩) main_call1_v5) (TRef.of (T := ⟨S50000x40, .f32⟩) main_call1_v6) Host.exp,
    TRef.nullary (TRef.of (T := ⟨S_, .f32⟩) main_call1_cst_1) (constant S_ .f32 0x00000000#32),
    TRef.binary (TRef.of (T := ⟨S50000x40, .f32⟩) main_call1_v6) (TRef.of (T := ⟨S_, .f32⟩) main_call1_cst_1) (TRef.of (T := ⟨S50000, .f32⟩) main_call1_v7) (fun x v => Host.reduceAdd x v reducesTo_S50000x40_S50000_d1 h_S_),
    TRef.unary (TRef.of (T := ⟨S50000, .f32⟩) main_call1_v7) (TRef.of (T := ⟨S50000x1, .f32⟩) main_call1_v8) (broadcastInDim S50000x1 ![0] bcast_S50000_S50000x1_0),
    TRef.unary (TRef.of (T := ⟨S50000x1, .f32⟩) main_call1_v8) (TRef.of (T := ⟨S50000x1, .f32⟩) main_call1_v9) Host.log,
    TRef.unary (TRef.of (T := ⟨S50000x1, .f32⟩) main_call1_v9) (TRef.of (T := ⟨S50000x40, .f32⟩) main_call1_v10) (broadcastInDim S50000x40 ![0, 1] bcast_S50000x1_S50000x40_0_1),
    TRef.binary (TRef.of (T := ⟨S50000x40, .f32⟩) main_call1_v5) (TRef.of (T := ⟨S50000x40, .f32⟩) main_call1_v10) (TRef.of (T := ⟨S50000x40, .f32⟩) main_v52) subf ]

set_option maxRecDepth 8192 in
/-- The 78 operations are the seven stretches one after the other. -/
theorem ops_split : (ops (F := F)) = s1 ++ (s2 ++ (s3 ++ (s4 ++ (s5 ++ (s6 ++ s7))))) := rfl

/-! ## What a stretch leaves alone -/

/-- The references the operations of stretch 1 write. -/
abbrev s1_W : List (Ref sig .tc) := [main_v0, main_v1, main_v2, main_v3]
theorem s1_writes : (s1 : List (HloOp τ sig (Elt F))).Forall fun op => op.writes ⊆ (s1_W.map (Proc.devRef (τ := τ) .tc)).toFinset := by
  simp only [List.Forall, nullary_writes, unary_writes, binary_writes, ternary_writes, Finset.singleton_subset_iff, List.mem_toFinset]
  repeat' apply And.intro
  all_goals exact List.mem_map_of_mem (by decide)
/-- A buffer that stretch 1 does not write keeps its contents through it. -/
theorem s1_kept (V : Valuation τ sig (Elt F)) (r : Ref sig .tc) (h : r ∉ s1_W) :
    after (s1 (F := F)) V (Proc.devRef .tc r) = V (Proc.devRef .tc r) :=
  after_of_writes_sub s1 V s1_writes h

/-- The references the operations of stretch 2 write. -/
abbrev s2_W : List (Ref sig .tc) := [main_c, main_v4, main_v5, main_c_0, main_v6, main_v7, main_v8, main_v9, main_v10, main_v11, main_v12, main_v13, main_cst, main_v14, main_v15, main_v16]
theorem s2_writes : (s2 : List (HloOp τ sig (Elt F))).Forall fun op => op.writes ⊆ (s2_W.map (Proc.devRef (τ := τ) .tc)).toFinset := by
  simp only [List.Forall, nullary_writes, unary_writes, binary_writes, ternary_writes, Finset.singleton_subset_iff, List.mem_toFinset]
  repeat' apply And.intro
  all_goals exact List.mem_map_of_mem (by decide)
/-- A buffer that stretch 2 does not write keeps its contents through it. -/
theorem s2_kept (V : Valuation τ sig (Elt F)) (r : Ref sig .tc) (h : r ∉ s2_W) :
    after (s2 (F := F)) V (Proc.devRef .tc r) = V (Proc.devRef .tc r) :=
  after_of_writes_sub s2 V s2_writes h

/-- The references the operations of stretch 3 write. -/
abbrev s3_W : List (Ref sig .tc) := [main_call0_cst, main_call0_v0, main_v17, main_v18, main_v19, main_v20, main_v21]
theorem s3_writes : (s3 : List (HloOp τ sig (Elt F))).Forall fun op => op.writes ⊆ (s3_W.map (Proc.devRef (τ := τ) .tc)).toFinset := by
  simp only [List.Forall, nullary_writes, unary_writes, binary_writes, ternary_writes, Finset.singleton_subset_iff, List.mem_toFinset]
  repeat' apply And.intro
  all_goals exact List.mem_map_of_mem (by decide)
/-- A buffer that stretch 3 does not write keeps its contents through it. -/
theorem s3_kept (V : Valuation τ sig (Elt F)) (r : Ref sig .tc) (h : r ∉ s3_W) :
    after (s3 (F := F)) V (Proc.devRef .tc r) = V (Proc.devRef .tc r) :=
  after_of_writes_sub s3 V s3_writes h

/-- The references the operations of stretch 4 write. -/
abbrev s4_W : List (Ref sig .tc) := [main_c_1, main_v22, main_v23, main_c_2, main_v24, main_v25, main_v26, main_v27, main_v28, main_v29, main_v30, main_v31, main_cst_3, main_v32, main_v33, main_v34]
theorem s4_writes : (s4 : List (HloOp τ sig (Elt F))).Forall fun op => op.writes ⊆ (s4_W.map (Proc.devRef (τ := τ) .tc)).toFinset := by
  simp only [List.Forall, nullary_writes, unary_writes, binary_writes, ternary_writes, Finset.singleton_subset_iff, List.mem_toFinset]
  repeat' apply And.intro
  all_goals exact List.mem_map_of_mem (by decide)
/-- A buffer that stretch 4 does not write keeps its contents through it. -/
theorem s4_kept (V : Valuation τ sig (Elt F)) (r : Ref sig .tc) (h : r ∉ s4_W) :
    after (s4 (F := F)) V (Proc.devRef .tc r) = V (Proc.devRef .tc r) :=
  after_of_writes_sub s4 V s4_writes h

/-- The references the operations of stretch 5 write. -/
abbrev s5_W : List (Ref sig .tc) := [main_v35, main_v36, main_v37, main_v38]
theorem s5_writes : (s5 : List (HloOp τ sig (Elt F))).Forall fun op => op.writes ⊆ (s5_W.map (Proc.devRef (τ := τ) .tc)).toFinset := by
  simp only [List.Forall, nullary_writes, unary_writes, binary_writes, ternary_writes, Finset.singleton_subset_iff, List.mem_toFinset]
  repeat' apply And.intro
  all_goals exact List.mem_map_of_mem (by decide)
/-- A buffer that stretch 5 does not write keeps its contents through it. -/
theorem s5_kept (V : Valuation τ sig (Elt F)) (r : Ref sig .tc) (h : r ∉ s5_W) :
    after (s5 (F := F)) V (Proc.devRef .tc r) = V (Proc.devRef .tc r) :=
  after_of_writes_sub s5 V s5_writes h

/-- The references the operations of stretch 6 write. -/
abbrev s6_W : List (Ref sig .tc) := [main_c_4, main_v39, main_v40, main_c_5, main_v41, main_v42, main_v43, main_v44, main_v45, main_v46, main_v47, main_v48, main_cst_6, main_v49, main_v50, main_v51]
theorem s6_writes : (s6 : List (HloOp τ sig (Elt F))).Forall fun op => op.writes ⊆ (s6_W.map (Proc.devRef (τ := τ) .tc)).toFinset := by
  simp only [List.Forall, nullary_writes, unary_writes, binary_writes, ternary_writes, Finset.singleton_subset_iff, List.mem_toFinset]
  repeat' apply And.intro
  all_goals exact List.mem_map_of_mem (by decide)
/-- A buffer that stretch 6 does not write keeps its contents through it. -/
theorem s6_kept (V : Valuation τ sig (Elt F)) (r : Ref sig .tc) (h : r ∉ s6_W) :
    after (s6 (F := F)) V (Proc.devRef .tc r) = V (Proc.devRef .tc r) :=
  after_of_writes_sub s6 V s6_writes h

/-- The references the operations of stretch 7 write. -/
abbrev s7_W : List (Ref sig .tc) := [main_call1_cst, main_call1_v0, main_call1_cst_0, main_call1_v1, main_call1_v2, main_call1_v3, main_call1_v4, main_call1_v5, main_call1_v6, main_call1_cst_1, main_call1_v7, main_call1_v8, main_call1_v9, main_call1_v10, main_v52]
theorem s7_writes : (s7 : List (HloOp τ sig (Elt F))).Forall fun op => op.writes ⊆ (s7_W.map (Proc.devRef (τ := τ) .tc)).toFinset := by
  simp only [List.Forall, nullary_writes, unary_writes, binary_writes, ternary_writes, Finset.singleton_subset_iff, List.mem_toFinset]
  repeat' apply And.intro
  all_goals exact List.mem_map_of_mem (by decide)
/-- A buffer that stretch 7 does not write keeps its contents through it. -/
theorem s7_kept (V : Valuation τ sig (Elt F)) (r : Ref sig .tc) (h : r ∉ s7_W) :
    after (s7 (F := F)) V (Proc.devRef .tc r) = V (Proc.devRef .tc r) :=
  after_of_writes_sub s7 V s7_writes h

/-! ## What each stretch computes, over any contents -/

/-- Stretch 1 is the first linear layer. -/
theorem s1_v3 (V : Valuation τ sig (Elt F)) :
    after (s1 (F := F)) V (Proc.devRef .tc main_v3) = lin0 (V (Proc.devRef .tc main_arg0)) (V (Proc.devRef .tc main_arg2)) (V (Proc.devRef .tc main_arg3)) := by
  after_results
  unfold lin0
  with_reducible rfl

/-- Stretch 2 is the aggregation over the edges of the first layer's rows. -/
theorem s2_v16 (V : Valuation τ sig (Elt F)) :
    after (s2 (F := F)) V (Proc.devRef .tc main_v16) = agg64 (V (Proc.devRef .tc main_v3)) (V (Proc.devRef .tc main_arg1)) (V (Proc.devRef .tc main_arg8)) (V (Proc.devRef .tc main_arg9)) := by
  after_results_simp
  unfold agg64 wrapIdx
  with_reducible rfl

/-- Stretch 3 is the second linear layer on the positive part of its input. -/
theorem s3_v21 (V : Valuation τ sig (Elt F)) :
    after (s3 (F := F)) V (Proc.devRef .tc main_v21) = lin1 (V (Proc.devRef .tc main_v16)) (V (Proc.devRef .tc main_arg4)) (V (Proc.devRef .tc main_arg5)) := by
  after_results_simp
  -- a value written through a typed reference and read back is the value; then the transports at the stretch's ends
  simp only [Cert.LibTypedRef.ofBuf_toBuf]
  simp only [TRef.ofBuf, TRef.toBuf, cast_eq]
  unfold lin1
  with_reducible rfl

/-- Stretch 4 is the aggregation over the edges of the second layer's rows. -/
theorem s4_v34 (V : Valuation τ sig (Elt F)) :
    after (s4 (F := F)) V (Proc.devRef .tc main_v34) = agg64 (V (Proc.devRef .tc main_v21)) (V (Proc.devRef .tc main_arg1)) (V (Proc.devRef .tc main_arg8)) (V (Proc.devRef .tc main_arg9)) := by
  after_results_simp
  unfold agg64 wrapIdx
  with_reducible rfl

/-- Stretch 5 is the third linear layer. -/
theorem s5_v38 (V : Valuation τ sig (Elt F)) :
    after (s5 (F := F)) V (Proc.devRef .tc main_v38) = lin2 (V (Proc.devRef .tc main_v34)) (V (Proc.devRef .tc main_arg6)) (V (Proc.devRef .tc main_arg7)) := by
  after_results
  unfold lin2
  with_reducible rfl

/-- Stretch 6 is the aggregation over the edges of the third layer's rows. -/
theorem s6_v51 (V : Valuation τ sig (Elt F)) :
    after (s6 (F := F)) V (Proc.devRef .tc main_v51) = agg40 (V (Proc.devRef .tc main_v38)) (V (Proc.devRef .tc main_arg1)) (V (Proc.devRef .tc main_arg8)) (V (Proc.devRef .tc main_arg9)) := by
  after_results_simp
  unfold agg40 wrapIdx
  with_reducible rfl

/-! ## The last stretch, cut at the shifted rows -/

/-- The last stretch is its two halves one after the other: first the row's largest entry taken off, then the logarithm
    of the row's sum of exponentials taken off. -/
theorem s7_split : (s7 (F := F)) = s7a ++ s7b := rfl

/-- What the log-softmax does to the shifted rows: each less the logarithm of the sum of its row's exponentials. -/
def lsmTail (t : FVec F S50000x40 .f32) : FVec F S50000x40 .f32 :=
  subf t (broadcastInDim S50000x40 ![0, 1] bcast_S50000x1_S50000x40_0_1
    (Host.log (broadcastInDim S50000x1 ![0] bcast_S50000_S50000x1_0
      (Host.reduceAdd (Host.exp t) (constant S_ .f32 0x00000000#32) reducesTo_S50000x40_S50000_d1 h_S_))))

/-- The log-softmax is that, of the shifted rows. -/
theorem lsm_eq (a : FVec F S50000x40 .f32) : lsm a = lsmTail (shifted a) := by
  unfold lsm lsmTail
  with_reducible rfl

/-- The first half of the last stretch computes the shifted rows. -/
theorem s7a_v5 (V : Valuation τ sig (Elt F)) :
    (after (s7a (F := F)) V (Proc.devRef .tc main_call1_v5) : FVec F S50000x40 .f32)
      = shifted (V (Proc.devRef .tc main_v51) : FVec F S50000x40 .f32) := by
  after_results_simp
  simp only [Cert.LibTypedRef.ofBuf_toBuf]
  simp only [TRef.ofBuf, TRef.toBuf, cast_eq]
  unfold shifted
  with_reducible rfl

/-- The second half takes the logarithm of the row's sum of exponentials off the shifted rows. -/
theorem s7b_v52 (V : Valuation τ sig (Elt F)) :
    (after (s7b (F := F)) V (Proc.devRef .tc main_v52) : FVec F S50000x40 .f32)
      = lsmTail (V (Proc.devRef .tc main_call1_v5) : FVec F S50000x40 .f32) := by
  after_results_simp
  simp only [Cert.LibTypedRef.ofBuf_toBuf]
  simp only [TRef.ofBuf, TRef.toBuf, cast_eq]
  unfold lsmTail
  with_reducible rfl

/-- Stretch 7 is the row-wise log-softmax. -/
theorem s7_v52 (V : Valuation τ sig (Elt F)) :
    after (s7 (F := F)) V (Proc.devRef .tc main_v52) = lsm (V (Proc.devRef .tc main_v51)) := by
  rw [s7_split, after_append, s7b_v52, s7a_v5, lsm_eq]

/-! ## The whole reference -/

/-- THE REFERENCE'S RESULT is the network of the arguments as launched. -/
theorem ref_value (m : (ℓ : Loc nD τ sig) → Buf (Elt F) ℓ) (c : Dev nD) :
    after (ops (F := F)) (launchContents m c) (Proc.devRef .tc main_v52)
      = gcn (m ((c.tc : Thread nD τ).loc main_arg0)) (m ((c.tc : Thread nD τ).loc main_arg2)) (m ((c.tc : Thread nD τ).loc main_arg3))
          (m ((c.tc : Thread nD τ).loc main_arg4)) (m ((c.tc : Thread nD τ).loc main_arg5)) (m ((c.tc : Thread nD τ).loc main_arg6))
          (m ((c.tc : Thread nD τ).loc main_arg7)) (m ((c.tc : Thread nD τ).loc main_arg1)) (m ((c.tc : Thread nD τ).loc main_arg8))
          (m ((c.tc : Thread nD τ).loc main_arg9)) := by
  -- the fold over the whole list is the stretches' folds one after the other
  rw [ops_split]
  simp only [after_append]
  -- from the last stretch backwards: each result is its layer of the contents before it, and the arguments are carried through
  rw [s7_v52, s6_v51, s5_v38, s5_kept _ main_arg1 (by decide), s5_kept _ main_arg8 (by decide), s5_kept _ main_arg9 (by decide),
    s4_v34, s4_kept _ main_arg1 (by decide), s4_kept _ main_arg8 (by decide), s4_kept _ main_arg9 (by decide), s4_kept _ main_arg6 (by decide), s4_kept _ main_arg7 (by decide),
    s3_v21, s3_kept _ main_arg1 (by decide), s3_kept _ main_arg8 (by decide), s3_kept _ main_arg9 (by decide), s3_kept _ main_arg6 (by decide), s3_kept _ main_arg7 (by decide),
    s2_v16, s2_kept _ main_arg1 (by decide), s2_kept _ main_arg8 (by decide), s2_kept _ main_arg9 (by decide), s2_kept _ main_arg4 (by decide), s2_kept _ main_arg5 (by decide), s2_kept _ main_arg6 (by decide), s2_kept _ main_arg7 (by decide),
    s1_v3, s1_kept _ main_arg1 (by decide), s1_kept _ main_arg8 (by decide), s1_kept _ main_arg9 (by decide), s1_kept _ main_arg4 (by decide), s1_kept _ main_arg5 (by decide), s1_kept _ main_arg6 (by decide), s1_kept _ main_arg7 (by decide)]
  -- the launch contents at an argument are the memory at its location
  unfold gcn
  with_reducible rfl

end Cert.ReferenceIdeal.RefValue

end
-- ==== Proof.KLin0.lean ====
/-
  Region 0 of the kernel's @main (a linear layer over 25 row blocks of 2000 rows): what its output array holds after the
  region, entry by entry, as the plain formula of Spec.lean over the arrays the region finds on entry.
-/
import proofs.«403088_j44418551775312_1_alg».proof.Proof.Gen.KernelIdeal.Frame
import proofs.«403088_j44418551775312_1_alg».proof.Proof.Spec
import proofs.«403088_j44418551775312_1_alg».proof.Proof.LibPlainDot
import Idealize.ShloMosaic.Lib.Pipeline.Value
import Idealize.ShloMosaic.Lib.ValueIdx
import Idealize.ShloMosaic.Lib.ValueLayout
import Idealize.ShloMosaic.PureOps.Ideal.Laws

noncomputable section

open Idealize.ShloMosaic Idealize.ShloMosaic.TcCoe Idealize.SL.Sem Idealize.ShloMosaic.ValueIdx
open Idealize.ShloMosaic.Pipeline (Dat)

namespace Cert.KernelIdeal.Lin0

open Cert.KernelIdeal Cert.KernelIdeal.Gen

variable (V : (c : Dev nD) → (b : Ref sig .tc) → Buf (Elt Ideal) ((c : Thread nD τ).loc b))

/-- The input array as the region finds it. -/
abbrev xin (c : Dev nD) : FVec Ideal S50000x512 .f32 := V c main_arg0
/-- The weight matrix as the region finds it. -/
abbrev win (c : Dev nD) : FVec Ideal S512x64 .f32 := V c main_arg2
/-- The bias, a one-row matrix, as the region finds it. -/
abbrev bin (c : Dev nD) : FVec Ideal S1x64 .f32 := V c main_v0
/-- The output array after the region's last write-back. -/
abbrev out (c : Dev nD) : FVec Ideal S50000x64 .f32 := (dat0 (F := Ideal) V c).arrAt 3 cfg0.N

/-! ## The body's payload at an entry -/

/-- Entry (a, b) of the body's payload over three blocks: the formats' changes are the identity on the extended reals,
    the product into the zero accumulator is the sum over the contraction index, the one-row bias is repeated on every row. -/
theorem pay_apply (x0 : Vec Ideal S2000x512 .f32) (x1 : Vec Ideal S512x64 .f32) (x2 : Vec Ideal S1x64 .f32)
    (a : Fin 2000) (b : Fin 64) :
    k0_pay1 (F := Ideal) x0 x1 x2 (ix2 a b) = (∑ k : Fin 512, x0 (ix2 a k) * x1 (ix2 k b)) + x2 (ix2 (0 : Fin 1) b) := by
  unfold k0_pay1
  rw [addf_apply]
  have hm := Cert.LibPlainDot.matmul_zero_apply (M := 2000) (K := 512) (N := 64) dot_S2000x512_S512x64_S2000x64_1_0_0_1_n_n rfl rfl rfl rfl rfl rfl none
    (truncf .bf16 x0 bitsLt_bf16_f32) (truncf .bf16 x1 bitsLt_bf16_f32) a b
  have hb : broadcastTo S2000x64 (shapeCast S1x64 x2 shapeCasts_S1x64_S1x64) broadcasts_S1x64_S2000x64 (ix2 a b) = x2 (ix2 (0 : Fin 1) b) := by
    rw [shapeCast_self]
    exact broadcastTo_1b_ab_apply x2 broadcasts_S1x64_S2000x64 a b
  exact congrArg₂ (· + ·) hm hb

/-! ## The blocks -/

theorem hz : (![0, 0] : Fin 2 → Nat) = fun _ => 0 := funext fun a => by fin_cases a <;> rfl

/-- The index maps over the grid: the input's and the output's row block is the point's number, every other block index is 0. -/
theorem idx_facts : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = t.val ∧ win0_3.index t (1 : Fin 2) = 0 :=
  (by decide +kernel : ∀ t : Fin grid0.N, _)

/-- The input's block at point t is rows t·2000 … t·2000 + 1999 of the input array. -/
theorem iblk_x (c : Dev nD) (t : Fin cfg0.N) (y : S2000x512.Idx) (i : S50000x512.Idx)
    (h0 : (i 0).val = t.val * 2000 + (y 0).val) (h1 : (i 1).val = (y 1).val) :
    (iblk0 V c 0 t : Vec Ideal S2000x512 .f32) y = xin V c i := by
  obtain ⟨e0, e1, -⟩ := idx_facts t
  unfold iblk0
  rw [View.read_apply]
  show V c main_arg0 _ = V c main_arg0 _
  congr 1
  funext a
  apply Fin.ext
  match a with
  | ⟨0, _⟩ => show win0_0.index t (0 : Fin 2) * 2000 + 1 * (y 0).val = (i 0).val; rw [e0, h0]; omega
  | ⟨1, _⟩ => show win0_0.index t (1 : Fin 2) * 512 + 1 * (y 1).val = (i 1).val; rw [e1, h1]; omega

/-- The weights' block at every point is the whole weight matrix. -/
theorem iblk_w (c : Dev nD) (t : Fin cfg0.N) (y : S512x64.Idx) :
    (iblk0 V c 1 t : Vec Ideal S512x64 .f32) y = win V c y := by
  obtain ⟨-, -, e0, e1, -⟩ := idx_facts t
  unfold iblk0
  rw [View.read_apply]
  show V c main_arg2 _ = V c main_arg2 _
  congr 1
  funext a
  apply Fin.ext
  match a with
  | ⟨0, _⟩ => show win0_1.index t (0 : Fin 2) * 512 + 1 * (y 0).val = (y 0).val; rw [e0]; omega
  | ⟨1, _⟩ => show win0_1.index t (1 : Fin 2) * 64 + 1 * (y 1).val = (y 1).val; rw [e1]; omega

/-- The bias's block at every point is the whole one-row bias. -/
theorem iblk_b (c : Dev nD) (t : Fin cfg0.N) (y : S1x64.Idx) :
    (iblk0 V c 2 t : Vec Ideal S1x64 .f32) y = bin V c y := by
  obtain ⟨-, -, -, -, e0, e1, -⟩ := idx_facts t
  unfold iblk0
  rw [View.read_apply]
  show V c main_v0 _ = V c main_v0 _
  congr 1
  funext a
  apply Fin.ext
  match a with
  | ⟨0, _⟩ => show win0_2.index t (0 : Fin 2) * 1 + 1 * (y 0).val = (y 0).val; rw [e0]; omega
  | ⟨1, _⟩ => show win0_2.index t (1 : Fin 2) * 64 + 1 * (y 1).val = (y 1).val; rw [e1]; omega

/-! ## The array the region leaves -/

/-- What the output array ends holding: the linear layer's entry at every index. -/
def G (c : Dev nD) : FVec Ideal S50000x64 .f32 := fun i =>
  Cert.Spec.linAt (M := 50000) (K := 512) (N := 64) (xin V c) (win V c) (fun q => bin V c (ix2 (0 : Fin 1) q)) (i 0) (i 1)

/-- What point t writes back is block t of that array. -/
theorem flushed_eq (c : Dev nD) (t : Fin cfg0.N) :
    (dat0 (F := Ideal) V c).flushed 3 t = ((cfg0.win 3).blk t).view.read (Elt Ideal) (G V c) := by
  show (cfg0.win 3).cut (grid0.coords t) ((dat0 V c).after 3 t) = _
  rw [after0_3]
  unfold out0_3
  rw [View.canon_unit_zero hz]
  simp only [View.ld_unit_zero (S := S2000x512) hz, View.ld_unit_zero (S := S512x64) hz, View.ld_unit_zero (S := S1x64) hz]
  obtain ⟨-, -, -, -, -, -, e0, e1⟩ := idx_facts t
  funext y
  show k0_pay1 (F := Ideal) (iblk0 V c 0 t) (iblk0 V c 1 t) (iblk0 V c 2 t) y = G V c (((cfg0.win 3).blk t).view.emb y)
  have hi0 : ((((cfg0.win 3).blk t).view.emb y) 0).val = t.val * 2000 + (y 0).val := by
    show win0_3.index t (0 : Fin 2) * 2000 + 1 * (y 0).val = _
    rw [e0]; omega
  have hi1 : ((((cfg0.win 3).blk t).view.emb y) 1).val = (y 1).val := by
    show win0_3.index t (1 : Fin 2) * 64 + 1 * (y 1).val = _
    rw [e1]; omega
  have hq : (y 1 : Fin 64) = (((cfg0.win 3).blk t).view.emb y) 1 := Fin.ext hi1.symm
  refine ((congrArg (k0_pay1 (F := Ideal) (iblk0 V c 0 t) (iblk0 V c 1 t) (iblk0 V c 2 t)) (eq_ix2 y)).trans
    (pay_apply (iblk0 V c 0 t) (iblk0 V c 1 t) (iblk0 V c 2 t) (y 0) (y 1))).trans ?_
  unfold G Cert.Spec.linAt
  refine congrArg₂ (· + ·) (Finset.sum_congr rfl fun k _ => congrArg₂ (· * ·) ?_ ?_) ?_
  · exact iblk_x V c t (ix2 (y 0) k) (ix2 ((((cfg0.win 3).blk t).view.emb y) 0) k) hi0 rfl
  · exact (iblk_w V c t (ix2 k (y 1))).trans (congrArg (fun z => win V c (ix2 k z)) hq)
  · exact (iblk_b V c t (ix2 (0 : Fin 1) (y 1))).trans (congrArg (fun z => bin V c (ix2 (0 : Fin 1) z)) hq)

/-- An index of the output array is in point t's block iff each coordinate is in the block's range on its axis. -/
theorem mem_blk (t : Fin cfg0.N) (i : S50000x64.Idx) :
    i ∈ ((cfg0.win 3).blk t).view.set ↔ ∀ a : Fin 2, win0_3.index t a * S2000x64.size a ≤ (i a).val ∧ (i a).val < win0_3.index t a * S2000x64.size a + S2000x64.size a := by
  show i ∈ ((View.whole main_v1).slice (win0_3.rect t)).set ↔ _
  rw [View.set_slice_whole, Rect.mem_set_unit]
  exact Iff.rfl

/-- The 25 row blocks cover the output array: row r lies in block r / 2000. -/
theorem cover (i : S50000x64.Idx) :
    ∃ t : Fin cfg0.N, (cfg0.win 3).flush t = true ∧ i ∈ ((cfg0.win 3).blk t).view.set := by
  have hN : cfg0.N = 25 := N_0
  have hi0 : (i 0).val < 50000 := (i 0).isLt
  have hi1 : (i 1).val < 64 := (i 1).isLt
  have ht : (i 0).val / 2000 < cfg0.N := by rw [hN]; omega
  obtain ⟨-, -, -, -, -, -, e0, e1⟩ := idx_facts ⟨(i 0).val / 2000, ht⟩
  have e0' : win0_3.index ⟨(i 0).val / 2000, ht⟩ (0 : Fin 2) = (i 0).val / 2000 := e0
  refine ⟨⟨(i 0).val / 2000, ht⟩, flush0_3 _, ?_⟩
  rw [mem_blk]
  intro a
  match a with
  | ⟨0, _⟩ =>
    show win0_3.index ⟨(i 0).val / 2000, ht⟩ (0 : Fin 2) * 2000 ≤ (i 0).val ∧ (i 0).val < win0_3.index ⟨(i 0).val / 2000, ht⟩ (0 : Fin 2) * 2000 + 2000
    rw [e0']; omega
  | ⟨1, _⟩ =>
    show win0_3.index ⟨(i 0).val / 2000, ht⟩ (1 : Fin 2) * 64 ≤ (i 1).val ∧ (i 1).val < win0_3.index ⟨(i 0).val / 2000, ht⟩ (1 : Fin 2) * 64 + 64
    rw [e1]; omega

/-- So the output array ends holding the linear layer's entries. -/
theorem final (c : Dev nD) : (dat0 (F := Ideal) V c).arrAt 3 cfg0.N = G V c :=
  (dat0 (F := Ideal) V c).arrAt_eq_of_cover 3 (G V c) (fun t _ => flushed_eq V c t) cover

/-- REGION 0, READ AT (p, q): the row p of the input against column q of the weights, plus the bias of column q. -/
theorem region0_apply (c : Dev nD) (p : Fin 50000) (q : Fin 64) :
    out V c (ix2 p q) = Cert.Spec.linAt (xin V c) (win V c) (fun q => bin V c (ix2 (0 : Fin 1) q)) p q := by
  show (dat0 (F := Ideal) V c).arrAt 3 cfg0.N (ix2 p q) = _
  rw [final]
  rfl

end Cert.KernelIdeal.Lin0

end
-- ==== Proof.KLin1.lean ====
/-
  Region 1 of the kernel's @main (a linear layer over 25 row blocks of 2000 rows): what its output array holds after the
  region, entry by entry, as the plain formula of Spec.lean over the arrays the region finds on entry.
-/
import proofs.«403088_j44418551775312_1_alg».proof.Proof.Gen.KernelIdeal.Frame
import proofs.«403088_j44418551775312_1_alg».proof.Proof.Spec
import proofs.«403088_j44418551775312_1_alg».proof.Proof.LibPlainDot
import Idealize.ShloMosaic.Lib.Pipeline.Value
import Idealize.ShloMosaic.Lib.ValueIdx
import Idealize.ShloMosaic.Lib.ValueLayout
import Idealize.ShloMosaic.PureOps.Ideal.Laws

noncomputable section

open Idealize.ShloMosaic Idealize.ShloMosaic.TcCoe Idealize.SL.Sem Idealize.ShloMosaic.ValueIdx
open Idealize.ShloMosaic.Pipeline (Dat)

namespace Cert.KernelIdeal.Lin1

open Cert.KernelIdeal Cert.KernelIdeal.Gen

variable (V : (c : Dev nD) → (b : Ref sig .tc) → Buf (Elt Ideal) ((c : Thread nD τ).loc b))

/-- The input array as the region finds it. -/
abbrev xin (c : Dev nD) : FVec Ideal S50000x64 .f32 := V c main_v8
/-- The weight matrix as the region finds it. -/
abbrev win (c : Dev nD) : FVec Ideal S64x64 .f32 := V c main_arg4
/-- The bias, a one-row matrix, as the region finds it. -/
abbrev bin (c : Dev nD) : FVec Ideal S1x64 .f32 := V c main_v9
/-- The output array after the region's last write-back. -/
abbrev out (c : Dev nD) : FVec Ideal S50000x64 .f32 := (dat1 (F := Ideal) V c).arrAt 3 cfg1.N

/-! ## The body's payload at an entry -/

/-- Entry (a, b) of the body's payload over three blocks: the input enters through its positive part (the larger of the
    entry and the zero word, which denotes 0), the formats' changes are the identity on the extended reals, the product into
    the zero accumulator is the sum over the contraction index, the one-row bias is repeated on every row. -/
theorem pay_apply (x0 : Vec Ideal S2000x64 .f32) (x1 : Vec Ideal S64x64 .f32) (x2 : Vec Ideal S1x64 .f32)
    (a : Fin 2000) (b : Fin 64) :
    k1_pay1 (F := Ideal) x0 x1 x2 (ix2 a b) = (∑ k : Fin 64, max (x0 (ix2 a k)) 0 * x1 (ix2 k b)) + x2 (ix2 (0 : Fin 1) b) := by
  unfold k1_pay1
  rw [addf_apply]
  have hm := Cert.LibPlainDot.matmul_zero_apply (M := 2000) (K := 64) (N := 64) dot_S2000x64_S64x64_S2000x64_1_0_0_1_n_n rfl rfl rfl rfl rfl rfl none
    (truncf .bf16 (maximumf (shapeCast S2000x64 x0 shapeCasts_S2000x64_S2000x64) (broadcast S2000x64 (Scalar.ofBits (F := Ideal) .f32 0x00000000#32))) bitsLt_bf16_f32)
    (truncf .bf16 x1 bitsLt_bf16_f32) a b
  have hx : ∀ k : Fin 64, (truncf .bf16 (maximumf (shapeCast S2000x64 x0 shapeCasts_S2000x64_S2000x64) (broadcast S2000x64 (Scalar.ofBits (F := Ideal) .f32 0x00000000#32))) bitsLt_bf16_f32 : FVec Ideal S2000x64 .bf16) (ix2 a k)
      = max (x0 (ix2 a k)) 0 := by
    intro k
    rw [shapeCast_self]
    show max (x0 (ix2 a k)) (Ideal.ofBits .f32 0x00000000#32) = _
    rw [Ideal.ofBits_zero_f32]
  have hb : broadcastTo S2000x64 (shapeCast S1x64 x2 shapeCasts_S1x64_S1x64) broadcasts_S1x64_S2000x64 (ix2 a b) = x2 (ix2 (0 : Fin 1) b) := by
    rw [shapeCast_self]
    exact broadcastTo_1b_ab_apply x2 broadcasts_S1x64_S2000x64 a b
  exact congrArg₂ (· + ·) (hm.trans (Finset.sum_congr rfl fun k _ => congrArg₂ (· * ·) (hx k) rfl)) hb

/-! ## The blocks -/

theorem hz : (![0, 0] : Fin 2 → Nat) = fun _ => 0 := funext fun a => by fin_cases a <;> rfl

/-- The index maps over the grid: the input's and the output's row block is the point's number, every other block index is 0. -/
theorem idx_facts : ∀ t : Fin cfg1.N, win1_0.index t (0 : Fin 2) = t.val ∧ win1_0.index t (1 : Fin 2) = 0
    ∧ win1_1.index t (0 : Fin 2) = 0 ∧ win1_1.index t (1 : Fin 2) = 0
    ∧ win1_2.index t (0 : Fin 2) = 0 ∧ win1_2.index t (1 : Fin 2) = 0
    ∧ win1_3.index t (0 : Fin 2) = t.val ∧ win1_3.index t (1 : Fin 2) = 0 :=
  (by decide +kernel : ∀ t : Fin grid1.N, _)

/-- The input's block at point t is rows t·2000 … t·2000 + 1999 of the input array. -/
theorem iblk_x (c : Dev nD) (t : Fin cfg1.N) (y : S2000x64.Idx) (i : S50000x64.Idx)
    (h0 : (i 0).val = t.val * 2000 + (y 0).val) (h1 : (i 1).val = (y 1).val) :
    (iblk1 V c 0 t : Vec Ideal S2000x64 .f32) y = xin V c i := by
  obtain ⟨e0, e1, -⟩ := idx_facts t
  unfold iblk1
  rw [View.read_apply]
  show V c main_v8 _ = V c main_v8 _
  congr 1
  funext a
  apply Fin.ext
  match a with
  | ⟨0, _⟩ => show win1_0.index t (0 : Fin 2) * 2000 + 1 * (y 0).val = (i 0).val; rw [e0, h0]; omega
  | ⟨1, _⟩ => show win1_0.index t (1 : Fin 2) * 64 + 1 * (y 1).val = (i 1).val; rw [e1, h1]; omega

/-- The weights' block at every point is the whole weight matrix. -/
theorem iblk_w (c : Dev nD) (t : Fin cfg1.N) (y : S64x64.Idx) :
    (iblk1 V c 1 t : Vec Ideal S64x64 .f32) y = win V c y := by
  obtain ⟨-, -, e0, e1, -⟩ := idx_facts t
  unfold iblk1
  rw [View.read_apply]
  show V c main_arg4 _ = V c main_arg4 _
  congr 1
  funext a
  apply Fin.ext
  match a with
  | ⟨0, _⟩ => show win1_1.index t (0 : Fin 2) * 64 + 1 * (y 0).val = (y 0).val; rw [e0]; omega
  | ⟨1, _⟩ => show win1_1.index t (1 : Fin 2) * 64 + 1 * (y 1).val = (y 1).val; rw [e1]; omega

/-- The bias's block at every point is the whole one-row bias. -/
theorem iblk_b (c : Dev nD) (t : Fin cfg1.N) (y : S1x64.Idx) :
    (iblk1 V c 2 t : Vec Ideal S1x64 .f32) y = bin V c y := by
  obtain ⟨-, -, -, -, e0, e1, -⟩ := idx_facts t
  unfold iblk1
  rw [View.read_apply]
  show V c main_v9 _ = V c main_v9 _
  congr 1
  funext a
  apply Fin.ext
  match a with
  | ⟨0, _⟩ => show win1_2.index t (0 : Fin 2) * 1 + 1 * (y 0).val = (y 0).val; rw [e0]; omega
  | ⟨1, _⟩ => show win1_2.index t (1 : Fin 2) * 64 + 1 * (y 1).val = (y 1).val; rw [e1]; omega

/-! ## The array the region leaves -/

/-- What the output array ends holding: the linear layer's entry, over the positive part of the input, at every index. -/
def G (c : Dev nD) : FVec Ideal S50000x64 .f32 := fun i =>
  Cert.Spec.linAt (M := 50000) (K := 64) (N := 64) (Cert.Spec.relu (xin V c)) (win V c) (fun q => bin V c (ix2 (0 : Fin 1) q)) (i 0) (i 1)

/-- What point t writes back is block t of that array. -/
theorem flushed_eq (c : Dev nD) (t : Fin cfg1.N) :
    (dat1 (F := Ideal) V c).flushed 3 t = ((cfg1.win 3).blk t).view.read (Elt Ideal) (G V c) := by
  show (cfg1.win 3).cut (grid1.coords t) ((dat1 V c).after 3 t) = _
  rw [after1_3]
  unfold out1_3
  rw [View.canon_unit_zero hz]
  simp only [View.ld_unit_zero (S := S2000x64) hz, View.ld_unit_zero (S := S64x64) hz, View.ld_unit_zero (S := S1x64) hz]
  obtain ⟨-, -, -, -, -, -, e0, e1⟩ := idx_facts t
  funext y
  show k1_pay1 (F := Ideal) (iblk1 V c 0 t) (iblk1 V c 1 t) (iblk1 V c 2 t) y = G V c (((cfg1.win 3).blk t).view.emb y)
  have hi0 : ((((cfg1.win 3).blk t).view.emb y) 0).val = t.val * 2000 + (y 0).val := by
    show win1_3.index t (0 : Fin 2) * 2000 + 1 * (y 0).val = _
    rw [e0]; omega
  have hi1 : ((((cfg1.win 3).blk t).view.emb y) 1).val = (y 1).val := by
    show win1_3.index t (1 : Fin 2) * 64 + 1 * (y 1).val = _
    rw [e1]; omega
  have hq : (y 1 : Fin 64) = (((cfg1.win 3).blk t).view.emb y) 1 := Fin.ext hi1.symm
  refine ((congrArg (k1_pay1 (F := Ideal) (iblk1 V c 0 t) (iblk1 V c 1 t) (iblk1 V c 2 t)) (eq_ix2 y)).trans
    (pay_apply (iblk1 V c 0 t) (iblk1 V c 1 t) (iblk1 V c 2 t) (y 0) (y 1))).trans ?_
  unfold G Cert.Spec.linAt
  refine congrArg₂ (· + ·) (Finset.sum_congr rfl fun k _ => congrArg₂ (· * ·) ?_ ?_) ?_
  · exact congrArg (fun z => max z 0) (iblk_x V c t (ix2 (y 0) k) (ix2 ((((cfg1.win 3).blk t).view.emb y) 0) k) hi0 rfl)
  · exact (iblk_w V c t (ix2 k (y 1))).trans (congrArg (fun z => win V c (ix2 k z)) hq)
  · exact (iblk_b V c t (ix2 (0 : Fin 1) (y 1))).trans (congrArg (fun z => bin V c (ix2 (0 : Fin 1) z)) hq)

/-- An index of the output array is in point t's block iff each coordinate is in the block's range on its axis. -/
theorem mem_blk (t : Fin cfg1.N) (i : S50000x64.Idx) :
    i ∈ ((cfg1.win 3).blk t).view.set ↔ ∀ a : Fin 2, win1_3.index t a * S2000x64.size a ≤ (i a).val ∧ (i a).val < win1_3.index t a * S2000x64.size a + S2000x64.size a := by
  show i ∈ ((View.whole main_v10).slice (win1_3.rect t)).set ↔ _
  rw [View.set_slice_whole, Rect.mem_set_unit]
  exact Iff.rfl

/-- The 25 row blocks cover the output array: row r lies in block r / 2000. -/
theorem cover (i : S50000x64.Idx) :
    ∃ t : Fin cfg1.N, (cfg1.win 3).flush t = true ∧ i ∈ ((cfg1.win 3).blk t).view.set := by
  have hN : cfg1.N = 25 := N_1
  have hi0 : (i 0).val < 50000 := (i 0).isLt
  have hi1 : (i 1).val < 64 := (i 1).isLt
  have ht : (i 0).val / 2000 < cfg1.N := by rw [hN]; omega
  obtain ⟨-, -, -, -, -, -, e0, e1⟩ := idx_facts ⟨(i 0).val / 2000, ht⟩
  have e0' : win1_3.index ⟨(i 0).val / 2000, ht⟩ (0 : Fin 2) = (i 0).val / 2000 := e0
  refine ⟨⟨(i 0).val / 2000, ht⟩, flush1_3 _, ?_⟩
  rw [mem_blk]
  intro a
  match a with
  | ⟨0, _⟩ =>
    show win1_3.index ⟨(i 0).val / 2000, ht⟩ (0 : Fin 2) * 2000 ≤ (i 0).val ∧ (i 0).val < win1_3.index ⟨(i 0).val / 2000, ht⟩ (0 : Fin 2) * 2000 + 2000
    rw [e0']; omega
  | ⟨1, _⟩ =>
    show win1_3.index ⟨(i 0).val / 2000, ht⟩ (1 : Fin 2) * 64 ≤ (i 1).val ∧ (i 1).val < win1_3.index ⟨(i 0).val / 2000, ht⟩ (1 : Fin 2) * 64 + 64
    rw [e1]; omega

/-- So the output array ends holding the linear layer's entries. -/
theorem final (c : Dev nD) : (dat1 (F := Ideal) V c).arrAt 3 cfg1.N = G V c :=
  (dat1 (F := Ideal) V c).arrAt_eq_of_cover 3 (G V c) (fun t _ => flushed_eq V c t) cover

/-- REGION 1, READ AT (p, q): the row p of the positive part of the input against column q of the weights, plus the bias of column q. -/
theorem region1_apply (c : Dev nD) (p : Fin 50000) (q : Fin 64) :
    out V c (ix2 p q) = Cert.Spec.linAt (Cert.Spec.relu (xin V c)) (win V c) (fun q => bin V c (ix2 (0 : Fin 1) q)) p q := by
  show (dat1 (F := Ideal) V c).arrAt 3 cfg1.N (ix2 p q) = _
  rw [final]
  rfl

end Cert.KernelIdeal.Lin1

end
-- ==== Proof.KLin2.lean ====
/-
  Region 2 of the kernel's @main (a linear layer over 25 row blocks of 2000 rows): what its output array holds after the
  region, entry by entry, as the plain formula of Spec.lean over the arrays the region finds on entry.
-/
import proofs.«403088_j44418551775312_1_alg».proof.Proof.Gen.KernelIdeal.Frame
import proofs.«403088_j44418551775312_1_alg».proof.Proof.Spec
import proofs.«403088_j44418551775312_1_alg».proof.Proof.LibPlainDot
import Idealize.ShloMosaic.Lib.Pipeline.Value
import Idealize.ShloMosaic.Lib.ValueIdx
import Idealize.ShloMosaic.Lib.ValueLayout
import Idealize.ShloMosaic.PureOps.Ideal.Laws

noncomputable section

open Idealize.ShloMosaic Idealize.ShloMosaic.TcCoe Idealize.SL.Sem Idealize.ShloMosaic.ValueIdx
open Idealize.ShloMosaic.Pipeline (Dat)

namespace Cert.KernelIdeal.Lin2

open Cert.KernelIdeal Cert.KernelIdeal.Gen

variable (V : (c : Dev nD) → (b : Ref sig .tc) → Buf (Elt Ideal) ((c : Thread nD τ).loc b))

/-- The input array as the region finds it. -/
abbrev xin (c : Dev nD) : FVec Ideal S50000x64 .f32 := V c main_v17
/-- The weight matrix as the region finds it. -/
abbrev win (c : Dev nD) : FVec Ideal S64x40 .f32 := V c main_arg6
/-- The bias, a one-row matrix, as the region finds it. -/
abbrev bin (c : Dev nD) : FVec Ideal S1x40 .f32 := V c main_v18
/-- The output array after the region's last write-back. -/
abbrev out (c : Dev nD) : FVec Ideal S50000x40 .f32 := (dat2 (F := Ideal) V c).arrAt 3 cfg2.N

/-! ## The body's payload at an entry -/

/-- Entry (a, b) of the body's payload over three blocks: the formats' changes and the cast to the same shape are the
    identity on the extended reals, the product into the zero accumulator is the sum over the contraction index, the
    one-row bias is repeated on every row. -/
theorem pay_apply (x0 : Vec Ideal S2000x64 .f32) (x1 : Vec Ideal S64x40 .f32) (x2 : Vec Ideal S1x40 .f32)
    (a : Fin 2000) (b : Fin 40) :
    k2_pay1 (F := Ideal) x0 x1 x2 (ix2 a b) = (∑ k : Fin 64, x0 (ix2 a k) * x1 (ix2 k b)) + x2 (ix2 (0 : Fin 1) b) := by
  unfold k2_pay1
  rw [addf_apply, shapeCast_self x0 shapeCasts_S2000x64_S2000x64]
  have hm := Cert.LibPlainDot.matmul_zero_apply (M := 2000) (K := 64) (N := 40) dot_S2000x64_S64x40_S2000x40_1_0_0_1_n_n rfl rfl rfl rfl rfl rfl none
    (truncf .bf16 x0 bitsLt_bf16_f32) (truncf .bf16 x1 bitsLt_bf16_f32) a b
  have hb : broadcastTo S2000x40 (shapeCast S1x40 x2 shapeCasts_S1x40_S1x40) broadcasts_S1x40_S2000x40 (ix2 a b) = x2 (ix2 (0 : Fin 1) b) := by
    rw [shapeCast_self]
    exact broadcastTo_1b_ab_apply x2 broadcasts_S1x40_S2000x40 a b
  exact congrArg₂ (· + ·) hm hb

/-! ## The blocks -/

theorem hz : (![0, 0] : Fin 2 → Nat) = fun _ => 0 := funext fun a => by fin_cases a <;> rfl

/-- The index maps over the grid: the input's and the output's row block is the point's number, every other block index is 0. -/
theorem idx_facts : ∀ t : Fin cfg2.N, win2_0.index t (0 : Fin 2) = t.val ∧ win2_0.index t (1 : Fin 2) = 0
    ∧ win2_1.index t (0 : Fin 2) = 0 ∧ win2_1.index t (1 : Fin 2) = 0
    ∧ win2_2.index t (0 : Fin 2) = 0 ∧ win2_2.index t (1 : Fin 2) = 0
    ∧ win2_3.index t (0 : Fin 2) = t.val ∧ win2_3.index t (1 : Fin 2) = 0 :=
  (by decide +kernel : ∀ t : Fin grid2.N, _)

/-- The input's block at point t is rows t·2000 … t·2000 + 1999 of the input array. -/
theorem iblk_x (c : Dev nD) (t : Fin cfg2.N) (y : S2000x64.Idx) (i : S50000x64.Idx)
    (h0 : (i 0).val = t.val * 2000 + (y 0).val) (h1 : (i 1).val = (y 1).val) :
    (iblk2 V c 0 t : Vec Ideal S2000x64 .f32) y = xin V c i := by
  obtain ⟨e0, e1, -⟩ := idx_facts t
  unfold iblk2
  rw [View.read_apply]
  show V c main_v17 _ = V c main_v17 _
  congr 1
  funext a
  apply Fin.ext
  match a with
  | ⟨0, _⟩ => show win2_0.index t (0 : Fin 2) * 2000 + 1 * (y 0).val = (i 0).val; rw [e0, h0]; omega
  | ⟨1, _⟩ => show win2_0.index t (1 : Fin 2) * 64 + 1 * (y 1).val = (i 1).val; rw [e1, h1]; omega

/-- The weights' block at every point is the whole weight matrix. -/
theorem iblk_w (c : Dev nD) (t : Fin cfg2.N) (y : S64x40.Idx) :
    (iblk2 V c 1 t : Vec Ideal S64x40 .f32) y = win V c y := by
  obtain ⟨-, -, e0, e1, -⟩ := idx_facts t
  unfold iblk2
  rw [View.read_apply]
  show V c main_arg6 _ = V c main_arg6 _
  congr 1
  funext a
  apply Fin.ext
  match a with
  | ⟨0, _⟩ => show win2_1.index t (0 : Fin 2) * 64 + 1 * (y 0).val = (y 0).val; rw [e0]; omega
  | ⟨1, _⟩ => show win2_1.index t (1 : Fin 2) * 40 + 1 * (y 1).val = (y 1).val; rw [e1]; omega

/-- The bias's block at every point is the whole one-row bias. -/
theorem iblk_b (c : Dev nD) (t : Fin cfg2.N) (y : S1x40.Idx) :
    (iblk2 V c 2 t : Vec Ideal S1x40 .f32) y = bin V c y := by
  obtain ⟨-, -, -, -, e0, e1, -⟩ := idx_facts t
  unfold iblk2
  rw [View.read_apply]
  show V c main_v18 _ = V c main_v18 _
  congr 1
  funext a
  apply Fin.ext
  match a with
  | ⟨0, _⟩ => show win2_2.index t (0 : Fin 2) * 1 + 1 * (y 0).val = (y 0).val; rw [e0]; omega
  | ⟨1, _⟩ => show win2_2.index t (1 : Fin 2) * 40 + 1 * (y 1).val = (y 1).val; rw [e1]; omega

/-! ## The array the region leaves -/

/-- What the output array ends holding: the linear layer's entry at every index. -/
def G (c : Dev nD) : FVec Ideal S50000x40 .f32 := fun i =>
  Cert.Spec.linAt (M := 50000) (K := 64) (N := 40) (xin V c) (win V c) (fun q => bin V c (ix2 (0 : Fin 1) q)) (i 0) (i 1)

/-- What point t writes back is block t of that array. -/
theorem flushed_eq (c : Dev nD) (t : Fin cfg2.N) :
    (dat2 (F := Ideal) V c).flushed 3 t = ((cfg2.win 3).blk t).view.read (Elt Ideal) (G V c) := by
  show (cfg2.win 3).cut (grid2.coords t) ((dat2 V c).after 3 t) = _
  rw [after2_3]
  unfold out2_3
  rw [View.canon_unit_zero hz]
  simp only [View.ld_unit_zero (S := S2000x64) hz, View.ld_unit_zero (S := S64x40) hz, View.ld_unit_zero (S := S1x40) hz]
  obtain ⟨-, -, -, -, -, -, e0, e1⟩ := idx_facts t
  funext y
  show k2_pay1 (F := Ideal) (iblk2 V c 0 t) (iblk2 V c 1 t) (iblk2 V c 2 t) y = G V c (((cfg2.win 3).blk t).view.emb y)
  have hi0 : ((((cfg2.win 3).blk t).view.emb y) 0).val = t.val * 2000 + (y 0).val := by
    show win2_3.index t (0 : Fin 2) * 2000 + 1 * (y 0).val = _
    rw [e0]; omega
  have hi1 : ((((cfg2.win 3).blk t).view.emb y) 1).val = (y 1).val := by
    show win2_3.index t (1 : Fin 2) * 40 + 1 * (y 1).val = _
    rw [e1]; omega
  have hq : (y 1 : Fin 40) = (((cfg2.win 3).blk t).view.emb y) 1 := Fin.ext hi1.symm
  refine ((congrArg (k2_pay1 (F := Ideal) (iblk2 V c 0 t) (iblk2 V c 1 t) (iblk2 V c 2 t)) (eq_ix2 y)).trans
    (pay_apply (iblk2 V c 0 t) (iblk2 V c 1 t) (iblk2 V c 2 t) (y 0) (y 1))).trans ?_
  unfold G Cert.Spec.linAt
  refine congrArg₂ (· + ·) (Finset.sum_congr rfl fun k _ => congrArg₂ (· * ·) ?_ ?_) ?_
  · exact iblk_x V c t (ix2 (y 0) k) (ix2 ((((cfg2.win 3).blk t).view.emb y) 0) k) hi0 rfl
  · exact (iblk_w V c t (ix2 k (y 1))).trans (congrArg (fun z => win V c (ix2 k z)) hq)
  · exact (iblk_b V c t (ix2 (0 : Fin 1) (y 1))).trans (congrArg (fun z => bin V c (ix2 (0 : Fin 1) z)) hq)

/-- An index of the output array is in point t's block iff each coordinate is in the block's range on its axis. -/
theorem mem_blk (t : Fin cfg2.N) (i : S50000x40.Idx) :
    i ∈ ((cfg2.win 3).blk t).view.set ↔ ∀ a : Fin 2, win2_3.index t a * S2000x40.size a ≤ (i a).val ∧ (i a).val < win2_3.index t a * S2000x40.size a + S2000x40.size a := by
  show i ∈ ((View.whole main_v19).slice (win2_3.rect t)).set ↔ _
  rw [View.set_slice_whole, Rect.mem_set_unit]
  exact Iff.rfl

/-- The 25 row blocks cover the output array: row r lies in block r / 2000. -/
theorem cover (i : S50000x40.Idx) :
    ∃ t : Fin cfg2.N, (cfg2.win 3).flush t = true ∧ i ∈ ((cfg2.win 3).blk t).view.set := by
  have hN : cfg2.N = 25 := N_2
  have hi0 : (i 0).val < 50000 := (i 0).isLt
  have hi1 : (i 1).val < 40 := (i 1).isLt
  have ht : (i 0).val / 2000 < cfg2.N := by rw [hN]; omega
  obtain ⟨-, -, -, -, -, -, e0, e1⟩ := idx_facts ⟨(i 0).val / 2000, ht⟩
  have e0' : win2_3.index ⟨(i 0).val / 2000, ht⟩ (0 : Fin 2) = (i 0).val / 2000 := e0
  refine ⟨⟨(i 0).val / 2000, ht⟩, flush2_3 _, ?_⟩
  rw [mem_blk]
  intro a
  match a with
  | ⟨0, _⟩ =>
    show win2_3.index ⟨(i 0).val / 2000, ht⟩ (0 : Fin 2) * 2000 ≤ (i 0).val ∧ (i 0).val < win2_3.index ⟨(i 0).val / 2000, ht⟩ (0 : Fin 2) * 2000 + 2000
    rw [e0']; omega
  | ⟨1, _⟩ =>
    show win2_3.index ⟨(i 0).val / 2000, ht⟩ (1 : Fin 2) * 40 ≤ (i 1).val ∧ (i 1).val < win2_3.index ⟨(i 0).val / 2000, ht⟩ (1 : Fin 2) * 40 + 40
    rw [e1]; omega

/-- So the output array ends holding the linear layer's entries. -/
theorem final (c : Dev nD) : (dat2 (F := Ideal) V c).arrAt 3 cfg2.N = G V c :=
  (dat2 (F := Ideal) V c).arrAt_eq_of_cover 3 (G V c) (fun t _ => flushed_eq V c t) cover

/-- REGION 2, READ AT (p, q): the row p of the input against column q of the weights, plus the bias of column q. -/
theorem region2_apply (c : Dev nD) (p : Fin 50000) (q : Fin 40) :
    out V c (ix2 p q) = Cert.Spec.linAt (xin V c) (win V c) (fun q => bin V c (ix2 (0 : Fin 1) q)) p q := by
  show (dat2 (F := Ideal) V c).arrAt 3 cfg2.N (ix2 p q) = _
  rw [final]
  rfl

end Cert.KernelIdeal.Lin2

end
-- ==== Proof.LibColumns.lean ====
/-
  Columns of a matrix, and three arrays of rows laid side by side, read at an entry.

  A vector of length a set up as an a × 1 column has the vector's entry i at (i, 0); read back as a vector it gives the
  column's entry. A column spread over the b entries of each row has, at (p, c), the column's entry p. Joining an
  n × w₁, an n × w₂ and an n × w₃ array along the column axis gives an array whose entry (r, j) is the first array's
  entry (r, j) for j < w₁, the second's entry (r, j − w₁) for w₁ ≤ j < w₁ + w₂, and the third's entry
  (r, j − w₁ − w₂) from there on.
-/
import Idealize.ShloMosaic.Lib.Pipeline.Value
import Idealize.ShloMosaic.Lib.ValueIdx

noncomputable section

namespace Cert.LibColumns

open Idealize.ShloMosaic Idealize.ShloMosaic.ValueIdx

variable {α : Type}

/-- An `[a]` array cast to `[a, 1]` reads, at `(i, u)`, the operand at `i`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- An `[a, 1]` array cast to `[a]` reads, at `i`, the operand at `(i, 0)`. -/
theorem shapeCast_a1_a_apply {a : ℕ} (x : (⟨2, ![a, 1]⟩ : Shape).Idx → α) (h : (⟨2, ![a, 1]⟩ : Shape).ShapeCasts ⟨1, ![a]⟩)
    (i : Fin a) : shapeCast ⟨1, ![a]⟩ x h (ix1 i) = x (ix2 i (0 : Fin 1)) :=
  shapeCast_apply x h _ _ (by
    rw [Shape.rowMajor_val_two, Shape.rowMajor_val_one]
    show i.val * 1 + 0 = i.val
    rw [Nat.mul_one, Nat.add_zero])

/-- An `[a, 1]` column broadcast to `[a, b]` reads, at `(p, c)`, the column at `p`. -/
theorem broadcastTo_a1_ab_apply {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- THE JOIN OF THREE AT `(r, j)`: the piece whose span of columns holds `j`, at `j` less the widths before it. -/
theorem concat3_apply {n w₁ w₂ w₃ w : ℕ} (x : (⟨2, ![n, w₁]⟩ : Shape).Idx → α) (y : (⟨2, ![n, w₂]⟩ : Shape).Idx → α)
    (z : (⟨2, ![n, w₃]⟩ : Shape).Idx → α)
    (h : Shape.Concatenates [(⟨2, ![n, w₁]⟩ : Shape), ⟨2, ![n, w₂]⟩, ⟨2, ![n, w₃]⟩] ⟨2, ![n, w]⟩ 1)
    (hw : w = w₁ + w₂ + w₃) (r : Fin n) (j : Fin w) :
    concatenate ⟨2, ![n, w]⟩ 1 [⟨⟨2, ![n, w₁]⟩, x⟩, ⟨⟨2, ![n, w₂]⟩, y⟩, ⟨⟨2, ![n, w₃]⟩, z⟩] h (ix2 r j)
      = if h1 : j.val < w₁ then x (ix2 r ⟨j.val, h1⟩)
        else if h2 : j.val < w₁ + w₂ then y (ix2 r ⟨j.val - w₁, by omega⟩)
        else z (ix2 r ⟨j.val - w₁ - w₂, by have := j.isLt; omega⟩) := by
  split
  · next h1 =>
    exact concatenate_apply_piece 1 [⟨⟨2, ![n, w₁]⟩, x⟩, ⟨⟨2, ![n, w₂]⟩, y⟩, ⟨⟨2, ![n, w₃]⟩, z⟩] h (ix2 r j) 0 (by simp) _ x rfl rfl 0 rfl (ix2 r ⟨j.val, h1⟩)
      (fun b hb => match b, hb with
        | ⟨0, _⟩, _ => rfl
        | ⟨1, _⟩, hb => absurd rfl hb) (Nat.zero_add _)
  · next h1 =>
    split
    · next h2 =>
      exact concatenate_apply_piece 1 [⟨⟨2, ![n, w₁]⟩, x⟩, ⟨⟨2, ![n, w₂]⟩, y⟩, ⟨⟨2, ![n, w₃]⟩, z⟩] h (ix2 r j) 1 (by simp) _ y rfl rfl w₁ (by simp) (ix2 r ⟨j.val - w₁, by omega⟩)
        (fun b hb => match b, hb with
          | ⟨0, _⟩, _ => rfl
          | ⟨1, _⟩, hb => absurd rfl hb) (by show w₁ + (j.val - w₁) = j.val; omega)
    · next h2 =>
      exact concatenate_apply_piece 1 [⟨⟨2, ![n, w₁]⟩, x⟩, ⟨⟨2, ![n, w₂]⟩, y⟩, ⟨⟨2, ![n, w₃]⟩, z⟩] h (ix2 r j) 2 (by simp) _ z rfl rfl (w₁ + w₂) (by simp)
        (ix2 r ⟨j.val - w₁ - w₂, by have := j.isLt; omega⟩)
        (fun b hb => match b, hb with
          | ⟨0, _⟩, _ => rfl
          | ⟨1, _⟩, hb => absurd rfl hb) (by show w₁ + w₂ + (j.val - w₁ - w₂) = j.val; omega)

end Cert.LibColumns

end
-- ==== Proof.KLsm.lean ====
/-
  Region 3 of the kernel's @main (the row-wise log-softmax over 25 row blocks of 2000 rows): what its output array holds
  after the region, entry by entry, as the plain formula of Spec.lean over the array the region finds on entry.

  First the body's payload on one 2000 × 40 block, read at an entry: the row's largest entry is the maximum-reduction from −∞,
  the row's sum of shifted exponentials is the sum-reduction from 0, and the two columns they are set up as are spread back
  over the 40 columns. Then the 25 blocks: each is 2000 whole rows of the array, so a row's largest entry and its sum are
  the same in the block and in the array; the blocks written back tile the array.
-/
import proofs.«403088_j44418551775312_1_alg».proof.Proof.Gen.KernelIdeal.Frame
import proofs.«403088_j44418551775312_1_alg».proof.Proof.Spec
import proofs.«403088_j44418551775312_1_alg».proof.Proof.LibColumns
import Idealize.ShloMosaic.Lib.Pipeline.Value
import Idealize.ShloMosaic.Lib.ValueIdx
import Idealize.ShloMosaic.Lib.ValueLayout
import Idealize.ShloMosaic.PureOps.Ideal.Laws

noncomputable section

open Idealize.ShloMosaic Idealize.ShloMosaic.TcCoe Idealize.SL.Sem Idealize.ShloMosaic.ValueIdx
open Idealize.ShloMosaic.Pipeline (Dat)

namespace Cert.KernelIdeal.Lsm

open Cert.KernelIdeal Cert.KernelIdeal.Gen

/-! ## The payload at an entry -/

/-- Row `a`'s index with column `k` put back in is the entry (a, k). -/
theorem lift_row (h : S2000x40.Reduces [1] S2000) (a : Fin 2000) (k : Fin (S2000x40.size 1)) :
    h.lift (ix1 a) k = ix2 a (⟨k.val, k.isLt⟩ : Fin 40) := by
  funext c; apply Fin.ext
  fin_cases c <;> rfl

/-- The maximum-reduction along the columns from −∞, at row `a`, is the row's largest entry. -/
theorem redMax_apply (x : FVec Ideal S2000x40 .f32) (h : S2000x40.Reduces [1] S2000) (hφ : FKind.Formats .f32)
    (hacc : (0xFF800000#32 : BitVec 32) = FKind.maximumf.neutral .f32 hφ) (a : Fin 2000) :
    multiReduction (F := Ideal) .maximumf [1] S2000 x 0xFF800000#32 h hφ hacc (ix1 a) = Cert.Spec.rowMax x a := by
  refine (Ideal.multiReduction_maximumf_single x 0xFF800000#32 h hφ hacc (ix1 a)).trans ?_
  have hb : FloatOps.ofBits (F := Ideal) .f32 0xFF800000#32 = (⊥ : EReal) := by
    show Ideal.ofBits .f32 0xFF800000#32 = ⊥
    simp [Ideal.ofBits, Ideal.ieee]
  have hf : (x ∘ h.lift (ix1 a)) = fun j : Fin 40 => x (ix2 a j) := funext fun k => congrArg x (lift_row h a k)
  rw [hb, hf]
  rfl

/-- The sum-reduction along the columns from 0, at row `a`, is the sum of the row's entries. -/
theorem redSum_apply (y : FVec Ideal S2000x40 .f32) (h : S2000x40.Reduces [1] S2000) (hφ : FKind.Formats .f32)
    (hacc : (0x00000000#32 : BitVec 32) = FKind.add.neutral .f32 hφ) (a : Fin 2000) :
    multiReduction (F := Ideal) .add [1] S2000 y 0x00000000#32 h hφ hacc (ix1 a) = ∑ j : Fin 40, y (ix2 a j) := by
  refine (Ideal.multiReduction_add_single y 0x00000000#32 h hφ hacc (ix1 a)).trans ?_
  exact Finset.sum_congr rfl fun k _ => congrArg y (lift_row h a k)

/-- The row maxima set up as a column and spread over the 40 columns: at (a, b), row `a`'s largest entry. -/
theorem colMax_apply (x : FVec Ideal S2000x40 .f32) (h : S2000x40.Reduces [1] S2000) (hφ : FKind.Formats .f32)
    (hacc : (0xFF800000#32 : BitVec 32) = FKind.maximumf.neutral .f32 hφ) (hsc : S2000.ShapeCasts S2000x1)
    (hbc : S2000x1.Broadcasts S2000x40) (a : Fin 2000) (b : Fin 40) :
    broadcastTo S2000x40 (shapeCast S2000x1 (multiReduction (F := Ideal) .maximumf [1] S2000 x 0xFF800000#32 h hφ hacc) hsc) hbc (ix2 a b)
      = Cert.Spec.rowMax x a :=
  (Cert.LibColumns.broadcastTo_a1_ab_apply _ hbc a b).trans
    ((Cert.LibColumns.shapeCast_a_a1_apply _ hsc a 0).trans (redMax_apply x h hφ hacc a))

/-- The logarithms of the row sums set up as a column and spread over the 40 columns: at (a, b), the logarithm of row `a`'s sum. -/
theorem colLogSum_apply (y : FVec Ideal S2000x40 .f32) (h : S2000x40.Reduces [1] S2000) (hφ : FKind.Formats .f32)
    (hacc : (0x00000000#32 : BitVec 32) = FKind.add.neutral .f32 hφ) (hsc : S2000.ShapeCasts S2000x1)
    (hbc : S2000x1.Broadcasts S2000x40) (a : Fin 2000) (b : Fin 40) :
    broadcastTo S2000x40 (log (F := Ideal) (shapeCast S2000x1 (multiReduction (F := Ideal) .add [1] S2000 y 0x00000000#32 h hφ hacc) hsc)) hbc (ix2 a b)
      = Ideal.log (∑ j : Fin 40, y (ix2 a j)) :=
  (Cert.LibColumns.broadcastTo_a1_ab_apply _ hbc a b).trans
    (congrArg Ideal.log ((Cert.LibColumns.shapeCast_a_a1_apply _ hsc a 0).trans (redSum_apply y h hφ hacc a)))

/-- THE PAYLOAD AT (a, b): the block's log-softmax entry, the block being 2000 whole rows. -/
theorem pay_apply (x0 : Vec Ideal S2000x40 .f32) (a : Fin 2000) (b : Fin 40) :
    k3_pay1 (F := Ideal) x0 (ix2 a b) = Cert.Spec.lsmAt x0 a b := by
  unfold k3_pay1
  dsimp only
  rw [shapeCast_self]
  unfold Cert.Spec.lsmAt
  rw [subf_apply, subf_apply]
  refine congrArg₂ (fun u v : EReal => x0 (ix2 a b) - u - v) (colMax_apply x0 _ _ _ _ _ a b) ?_
  refine (colLogSum_apply _ _ _ _ _ _ a b).trans ?_
  refine congrArg Ideal.log (Finset.sum_congr rfl fun j _ => ?_)
  show Ideal.exp (x0 (ix2 a j) - _) = _
  exact congrArg (fun u : EReal => Ideal.exp (x0 (ix2 a j) - u)) (colMax_apply x0 _ _ _ _ _ a j)

variable (V : (c : Dev nD) → (b : Ref sig .tc) → Buf (Elt Ideal) ((c : Thread nD τ).loc b))

/-- The input array as the region finds it. -/
abbrev xin (c : Dev nD) : FVec Ideal S50000x40 .f32 := V c main_v26
/-- The output array after the region's last write-back. -/
abbrev out (c : Dev nD) : FVec Ideal S50000x40 .f32 := (dat3 (F := Ideal) V c).arrAt 1 cfg3.N

/-! ## From the 25 blocks to the array -/

theorem hz : (![0, 0] : Fin 2 → Nat) = fun _ => 0 := funext fun a => by fin_cases a <;> rfl

/-- The two index maps, decided over the 25 points: point `t` reads and writes block (t, 0). -/
theorem idx_facts : ∀ t : Fin cfg3.N, win3_0.index t (0 : Fin 2) = t.val ∧ win3_0.index t (1 : Fin 2) = 0
    ∧ win3_1.index t (0 : Fin 2) = t.val ∧ win3_1.index t (1 : Fin 2) = 0 :=
  (by decide +kernel : ∀ t : Fin grid3.N, _)

/-- A block of whole rows has the array's log-softmax on its rows: if row `a` of `B` is row `p` of `X`, entry by entry,
    the two rows have the same largest entry and the same sum of shifted exponentials. -/
theorem lsmAt_of_row (X : FVec Ideal S50000x40 .f32) (B : FVec Ideal S2000x40 .f32) (a : Fin 2000) (p : Fin 50000)
    (hB : ∀ j : Fin 40, B (ix2 a j) = X (ix2 p j)) (b : Fin 40) :
    Cert.Spec.lsmAt B a b = Cert.Spec.lsmAt X p b := by
  have hrow : (fun j : Fin 40 => B (ix2 a j)) = fun j : Fin 40 => X (ix2 p j) := funext hB
  have hm : Cert.Spec.rowMax B a = Cert.Spec.rowMax X p :=
    congrArg (fun f : Fin 40 → EReal => (Finset.univ : Finset (Fin 40)).fold max ⊥ f) hrow
  unfold Cert.Spec.lsmAt
  rw [hm, hB b]
  exact congrArg (fun s : EReal => X (ix2 p b) - Cert.Spec.rowMax X p - Ideal.log s)
    (Finset.sum_congr rfl fun j _ => by rw [hB j])

/-- The input window's block at point `t` is rows 2000·t … 2000·t + 1999 of the input array, all 40 columns. -/
theorem iblk_apply (c : Dev nD) (t : Fin cfg3.N) (a : Fin 2000) (j : Fin 40) (p : Fin 50000)
    (hp : p.val = t.val * 2000 + a.val) :
    (iblk3 (F := Ideal) V c 0 t : Vec Ideal S2000x40 .f32) (ix2 a j) = xin V c (ix2 p j) := by
  obtain ⟨e0, e1, -, -⟩ := idx_facts t
  unfold iblk3
  rw [View.read_apply]
  show V c main_v26 _ = V c main_v26 _
  refine congrArg (V c main_v26) (funext fun ax => Fin.ext ?_)
  match ax with
  | ⟨0, _⟩ => show win3_0.index t (0 : Fin 2) * 2000 + 1 * a.val = p.val; rw [e0, hp]; omega
  | ⟨1, _⟩ => show win3_0.index t (1 : Fin 2) * 40 + 1 * j.val = j.val; rw [e1]; omega

/-- What the output array ends holding: the log-softmax of the input array, entry by entry. -/
def G (c : Dev nD) : FVec Ideal S50000x40 .f32 :=
  fun i => Cert.Spec.lsmAt (xin V c) (⟨(i 0).val, idx2_lt0 i⟩ : Fin 50000) (⟨(i 1).val, idx2_lt1 i⟩ : Fin 40)

/-- WHAT POINT `t` WRITES BACK is block `t` of `G`. -/
theorem flushed_eq (c : Dev nD) (t : Fin cfg3.N) :
    (dat3 (F := Ideal) V c).flushed 1 t = ((cfg3.win 1).blk t).view.read (Elt Ideal) (G V c) := by
  show (cfg3.win 1).cut (grid3.coords t) ((dat3 V c).after 1 t) = _
  rw [after3_1]
  unfold out3_1
  rw [View.canon_unit_zero hz]
  simp only [View.ld_unit_zero (S := S2000x40) hz]
  obtain ⟨-, -, e2, e3⟩ := idx_facts t
  funext y
  have ha : (y 0).val < 2000 := (y 0).isLt
  have hb : (y 1).val < 40 := (y 1).isLt
  have ht : t.val < 25 := lt_of_lt_of_eq t.isLt N_3
  have hy : (win3 1).xinj (grid3.coords t) y = ix2 (⟨(y 0).val, ha⟩ : Fin 2000) (⟨(y 1).val, hb⟩ : Fin 40) :=
    funext fun ax => Fin.ext (by match ax with | ⟨0, _⟩ => rfl | ⟨1, _⟩ => rfl)
  show k3_pay1 (iblk3 V c 0 t) ((win3 1).xinj (grid3.coords t) y) = _
  refine (congrArg (k3_pay1 (F := Ideal) (iblk3 V c 0 t)) hy).trans ?_
  refine (pay_apply (iblk3 V c 0 t) ⟨(y 0).val, ha⟩ ⟨(y 1).val, hb⟩).trans ?_
  refine (lsmAt_of_row (xin V c) (iblk3 V c 0 t) ⟨(y 0).val, ha⟩ ⟨t.val * 2000 + (y 0).val, by omega⟩
    (fun j => iblk_apply V c t ⟨(y 0).val, ha⟩ j ⟨t.val * 2000 + (y 0).val, by omega⟩ rfl) ⟨(y 1).val, hb⟩).trans ?_
  rw [View.read_apply]
  unfold G
  refine congrArg₂ (Cert.Spec.lsmAt (xin V c)) (Fin.ext ?_) (Fin.ext ?_)
  · show t.val * 2000 + (y 0).val = win3_1.index t (0 : Fin 2) * 2000 + 1 * (y 0).val
    rw [e2]; omega
  · show (y 1).val = win3_1.index t (1 : Fin 2) * 40 + 1 * (y 1).val
    rw [e3]; omega

/-- Every entry of the array lies in the block of the point its row falls to: row r in block r / 2000. -/
theorem cover (i : S50000x40.Idx) :
    ∃ t : Fin cfg3.N, (cfg3.win 1).flush t = true ∧ i ∈ ((cfg3.win 1).blk t).view.set := by
  have hi0 : (i 0).val < 50000 := (i 0).isLt
  have hi1 : (i 1).val < 40 := (i 1).isLt
  obtain ⟨t, ht⟩ : ∃ t : Fin cfg3.N, t.val = (i 0).val / 2000 :=
    ⟨⟨(i 0).val / 2000, lt_of_lt_of_eq (show (i 0).val / 2000 < 25 by omega) N_3.symm⟩, rfl⟩
  obtain ⟨-, -, e2, e3⟩ := idx_facts t
  refine ⟨t, flush3_1 t, ?_⟩
  show i ∈ ((View.whole main_v27).slice (win3_1.rect t)).set
  rw [View.set_slice_whole, Rect.mem_set_unit]
  intro a
  match a with
  | ⟨0, _⟩ =>
    show win3_1.index t (0 : Fin 2) * 2000 ≤ (i 0).val ∧ (i 0).val < win3_1.index t (0 : Fin 2) * 2000 + 2000
    rw [e2, ht]; omega
  | ⟨1, _⟩ =>
    show win3_1.index t (1 : Fin 2) * 40 ≤ (i 1).val ∧ (i 1).val < win3_1.index t (1 : Fin 2) * 40 + 40
    rw [e3]; omega

/-- THE OUTPUT ARRAY after the region is `G`: the 25 blocks written back tile it. -/
theorem final (c : Dev nD) : (dat3 (F := Ideal) V c).arrAt 1 cfg3.N = G V c :=
  (dat3 (F := Ideal) V c).arrAt_eq_of_cover 1 (G V c) (fun t _ => flushed_eq V c t) cover

/-- REGION 3, READ AT (p, q): the entry less its row's largest, less the logarithm of the sum of the exponentials of the row's entries so shifted. -/
theorem region3_apply (c : Dev nD) (p : Fin 50000) (q : Fin 40) :
    out V c (ix2 p q) = Cert.Spec.lsmAt (xin V c) p q := by
  show (dat3 (F := Ideal) V c).arrAt 1 cfg3.N (ix2 p q) = _
  rw [final V c]
  rfl

end Cert.KernelIdeal.Lsm

end
-- ==== Proof.KAgg.lean ====
/-
  The kernel program's aggregation over the edges, its own host operations composed: the rows named by the edge's
  source index are gathered (an index outside the table reads as the fill value instead), scaled by the edge's
  weight and added into the row named by the edge's target.
-/
import proofs.«403088_j44418551775312_1_alg».proof.KernelIdeal
import proofs.«403088_j44418551775312_1_alg».proof.Proof.Gen.KernelIdeal

noncomputable section

namespace Cert.KernelIdeal.Agg

open Cert.KernelIdeal Cert.KernelIdeal.Gen Idealize.ShloMosaic

variable {F : FTy → Type} [FloatOps F]

/-- The edge's source index made non-negative (a negative index counts from the end), as a column of start indices. -/
def idx2 (col : IVec S800000 32) : IVec S800000x1 32 :=
  broadcastInDim S800000x1 ![0] bcast_S800000_S800000x1_0
    (select (cmpi .slt col (broadcastInDim S800000 ![] bcast_S_S800000 (constantI S_ 32 0#32)))
      (addi col (broadcastInDim S800000 ![] bcast_S_S800000 (constantI S_ 32 50000#32))) col)

/-- Per edge: does the start index lie in [0, 49999]? -/
def inRange (col : IVec S800000 32) : IVec S800000 1 :=
  Host.reduce IntOp.andi
    (andi (cmpi .sge (idx2 col) (broadcastInDim S800000x1 ![] bcast_S_S800000x1 (constantI S_ 32 0#32)))
      (cmpi .sle (idx2 col) (broadcastInDim S800000x1 ![0, 1] bcast_S1x1_S800000x1_0_1
        (broadcastInDim S1x1 ![1] bcast_S1_S1x1_1 (constantI S1 32 49999#32)))))
    (constantI S_ 1 1#1) reducesTo_S800000x1_S800000_d1 h_S_

/-- The gathered 64-wide rows, the fill value where the index is out of range. -/
def take64 (s : FVec F S50000x64 .f32) (col : IVec S800000 32) : FVec F S800000x64 .f32 :=
  select (broadcastInDim S800000x64 ![0] bcast_S800000_S800000x64_0 (inRange col))
    (Host.gather gather_S50000x64_S800000x1_S800000x64_1_0_n_n_0_1_164 s (idx2 col))
    (broadcastInDim S800000x64 ![] bcast_S_S800000x64 (constant S_ .f32 0x7FC00000#32))

/-- The gathered 40-wide rows, the fill value where the index is out of range. -/
def take40 (s : FVec F S50000x40 .f32) (col : IVec S800000 32) : FVec F S800000x40 .f32 :=
  select (broadcastInDim S800000x40 ![0] bcast_S800000_S800000x40_0 (inRange col))
    (Host.gather gather_S50000x40_S800000x1_S800000x40_1_0_n_n_0_1_140 s (idx2 col))
    (broadcastInDim S800000x40 ![] bcast_S_S800000x40 (constant S_ .f32 0x7FC00000#32))

/-- The aggregation over the edges of 64-wide rows. -/
def aggK64 (s : FVec F S50000x64 .f32) (ew : FVec F S800000 .f32) (row col : IVec S800000 32) : FVec F S50000x64 .f32 :=
  Host.scatterAdd scatter_S50000x64_S800000x1_S800000x64_1_0_0_1
    (broadcastInDim S50000x64 ![] bcast_S_S50000x64 (constant S_ .f32 0x00000000#32))
    (broadcastInDim S800000x1 ![0] bcast_S800000_S800000x1_0 row)
    (mulf (take64 s col)
      (broadcastInDim S800000x64 ![0, 1] bcast_S800000x1_S800000x64_0_1 (broadcastInDim S800000x1 ![0] bcast_S800000_S800000x1_0 ew)))

/-- The aggregation over the edges of 40-wide rows. -/
def aggK40 (s : FVec F S50000x40 .f32) (ew : FVec F S800000 .f32) (row col : IVec S800000 32) : FVec F S50000x40 .f32 :=
  Host.scatterAdd scatter_S50000x40_S800000x1_S800000x40_1_0_0_1
    (broadcastInDim S50000x40 ![] bcast_S_S50000x40 (constant S_ .f32 0x00000000#32))
    (broadcastInDim S800000x1 ![0] bcast_S800000_S800000x1_0 row)
    (mulf (take40 s col)
      (broadcastInDim S800000x40 ![0, 1] bcast_S800000x1_S800000x40_0_1 (broadcastInDim S800000x1 ![0] bcast_S800000_S800000x1_0 ew)))

end Cert.KernelIdeal.Agg

end
-- ==== Proof.KHost.lean ====
/-
  The kernel program's host operations before its first two regions, read back: what region 0 and region 1 find in
  their input arrays on entry — region 1's as the kernel's aggregation (KAgg.lean) of region 0's output array and of
  the arguments as launched (no host operation and no region writes an argument) — and each bias row as the bias
  argument laid out as one row.
-/
import proofs.«403088_j44418551775312_1_alg».proof.Proof.Gen.KernelIdeal.Frame
import proofs.«403088_j44418551775312_1_alg».proof.Proof.KAgg
import proofs.«403088_j44418551775312_1_alg».proof.Proof.LibTypedRef
import Idealize.ShloMosaic.Lib.StableHlo.Run
import Idealize.ShloMosaic.Lib.Pipeline.Value
import Idealize.ShloMosaic.Lib.ValueIdx
import Idealize.ShloMosaic.Lib.ValueLayout

noncomputable section

open Idealize.ShloMosaic Idealize.ShloMosaic.TcCoe Idealize.SL.Sem Idealize.ShloMosaic.ValueIdx

namespace Cert.KernelIdeal.Host

open Cert.KernelIdeal Cert.KernelIdeal.Gen Cert.KernelIdeal.Agg

variable {F : FTy → Type} [FloatOps F]
variable (m : (ℓ : Loc nD τ sig) → Buf (Elt F) ℓ) (ρ : Dev nD → PrngReg)

/-- A buffer that no operation of the named list writes holds after the list what it held before. -/
macro "kept" l:ident : tactic =>
  `(tactic| exact StableHlo.after_of_forall_not_mem _ _ (List.forall_iff_forall_mem.mp (by
      simp only [$l:ident, List.Forall, StableHlo.nullary_writes, StableHlo.unary_writes, StableHlo.binary_writes,
        StableHlo.ternary_writes, StableHlo.quaternary_writes, StableHlo.reshape_writes, StableHlo.binaryIndexed_writes,
        Finset.mem_singleton]
      repeat' apply And.intro
      all_goals exact StableHlo.devRef_ne_of_ne (by decide))))

/-! ## Region 0's entry -/

theorem entry0_x (c : Dev nD) : V1 m ρ c main_arg0 = m ((c : Thread nD τ).loc main_arg0) := by
  have h : W1 m ρ c (Proc.devRef .tc main_arg0) = W0 m ρ c (Proc.devRef .tc main_arg0) := by kept hostOps0
  exact h.trans rfl
theorem entry0_w (c : Dev nD) : V1 m ρ c main_arg2 = m ((c : Thread nD τ).loc main_arg2) := by
  have h : W1 m ρ c (Proc.devRef .tc main_arg2) = W0 m ρ c (Proc.devRef .tc main_arg2) := by kept hostOps0
  exact h.trans rfl
/-- The bias row at (0, q) is the bias argument at q. -/
theorem entry0_b (c : Dev nD) (q : Fin 64) :
    (V1 m ρ c main_v0 : FVec F S1x64 .f32) (ix2 (0 : Fin 1) q) = (m ((c : Thread nD τ).loc main_arg3) : FVec F S64 .f32) (ix1 q) := by
  have h : W1 m ρ c (Proc.devRef .tc main_v0)
      = fun i => shapeCast S1x64 (W0 m ρ c (Proc.devRef .tc main_arg3) : FVec F S64 .f32) shapeCasts_S64_S1x64 i := by
    after_results
    rfl
  show (W1 m ρ c (Proc.devRef .tc main_v0) : FVec F S1x64 .f32) (ix2 (0 : Fin 1) q) = _
  rw [h]
  exact shapeCast_a_1a_apply _ _ 0 q

/-! ## The two stretches of host operations before region 1, over any contents on entry -/

/-- After the gather's stretch its result buffer holds the rows of the table buffer gathered at the index buffer. -/
theorem take_ops1 (V : Valuation τ sig (Elt F)) :
    StableHlo.after hostOps1 V (Proc.devRef .tc main_v2)
      = take64 (V (Proc.devRef .tc main_v1) : FVec F S50000x64 .f32) (V (Proc.devRef .tc main_arg9) : IVec S800000 32) := by
  after_results_simp
  simp only [Cert.LibTypedRef.ofBuf_toBuf]
  simp only [StableHlo.TRef.ofBuf, StableHlo.TRef.toBuf, cast_eq]
  unfold take64 inRange idx2
  with_reducible rfl

/-- The gathered rows scaled by the edge weights and added into the rows named by the edge targets. -/
def scale64 (t : FVec F S800000x64 .f32) (ew : FVec F S800000 .f32) (row : IVec S800000 32) : FVec F S50000x64 .f32 :=
  Host.scatterAdd scatter_S50000x64_S800000x1_S800000x64_1_0_0_1
    (broadcastInDim S50000x64 ![] bcast_S_S50000x64 (constant S_ .f32 0x00000000#32))
    (broadcastInDim S800000x1 ![0] bcast_S800000_S800000x1_0 row)
    (mulf t
      (broadcastInDim S800000x64 ![0, 1] bcast_S800000x1_S800000x64_0_1 (broadcastInDim S800000x1 ![0] bcast_S800000_S800000x1_0 ew)))

/-- The aggregation is the scaling and scatter of the gathered rows. -/
theorem aggK64_eq (s : FVec F S50000x64 .f32) (ew : FVec F S800000 .f32) (row col : IVec S800000 32) :
    aggK64 s ew row col = scale64 (take64 s col) ew row := by
  unfold aggK64 scale64
  with_reducible rfl

/-- After the scatter's stretch its result buffer holds the scaled rows added up by target. -/
theorem scale_ops1 (V : Valuation τ sig (Elt F)) :
    StableHlo.after hostOps1_1 V (Proc.devRef .tc main_v8)
      = scale64 (V (Proc.devRef .tc main_v2) : FVec F S800000x64 .f32) (V (Proc.devRef .tc main_arg1) : FVec F S800000 .f32)
          (V (Proc.devRef .tc main_arg8) : IVec S800000 32) := by
  after_results_simp
  unfold scale64
  with_reducible rfl

/-! ## Region 1's entry -/

/-! No operation before region 1 and no window of region 0 writes the edge weights, the edge targets, the edge
    sources, or region 1's weight and bias arguments: each still holds what it held at launch. -/

theorem W3_arg1 (c : Dev nD) : W3 m ρ c (Proc.devRef .tc main_arg1) = m ((c : Thread nD τ).loc main_arg1) :=
  calc W3 m ρ c (Proc.devRef .tc main_arg1)
    _ = W2 m ρ c (Proc.devRef .tc main_arg1) := by kept hostOps1
    _ = W1 m ρ c (Proc.devRef .tc main_arg1) := W2_of_ne m ρ c main_arg1 (by decide)
    _ = W0 m ρ c (Proc.devRef .tc main_arg1) := by kept hostOps0
    _ = m ((c : Thread nD τ).loc main_arg1) := rfl

theorem W3_arg8 (c : Dev nD) : W3 m ρ c (Proc.devRef .tc main_arg8) = m ((c : Thread nD τ).loc main_arg8) :=
  calc W3 m ρ c (Proc.devRef .tc main_arg8)
    _ = W2 m ρ c (Proc.devRef .tc main_arg8) := by kept hostOps1
    _ = W1 m ρ c (Proc.devRef .tc main_arg8) := W2_of_ne m ρ c main_arg8 (by decide)
    _ = W0 m ρ c (Proc.devRef .tc main_arg8) := by kept hostOps0
    _ = m ((c : Thread nD τ).loc main_arg8) := rfl

theorem W2_arg9 (c : Dev nD) : W2 m ρ c (Proc.devRef .tc main_arg9) = m ((c : Thread nD τ).loc main_arg9) :=
  calc W2 m ρ c (Proc.devRef .tc main_arg9)
    _ = W1 m ρ c (Proc.devRef .tc main_arg9) := W2_of_ne m ρ c main_arg9 (by decide)
    _ = W0 m ρ c (Proc.devRef .tc main_arg9) := by kept hostOps0
    _ = m ((c : Thread nD τ).loc main_arg9) := rfl

theorem W3_arg5 (c : Dev nD) : W3 m ρ c (Proc.devRef .tc main_arg5) = m ((c : Thread nD τ).loc main_arg5) :=
  calc W3 m ρ c (Proc.devRef .tc main_arg5)
    _ = W2 m ρ c (Proc.devRef .tc main_arg5) := by kept hostOps1
    _ = W1 m ρ c (Proc.devRef .tc main_arg5) := W2_of_ne m ρ c main_arg5 (by decide)
    _ = W0 m ρ c (Proc.devRef .tc main_arg5) := by kept hostOps0
    _ = m ((c : Thread nD τ).loc main_arg5) := rfl

/-- Region 1's input array is the aggregation of region 0's output array. -/
theorem entry1_a (c : Dev nD) :
    V4 m ρ c main_v8 = aggK64 (W2 m ρ c (Proc.devRef .tc main_v1)) (m ((c : Thread nD τ).loc main_arg1))
      (m ((c : Thread nD τ).loc main_arg8)) (m ((c : Thread nD τ).loc main_arg9)) := by
  rw [aggK64_eq, ← W3_arg1 m ρ c, ← W3_arg8 m ρ c, ← W2_arg9 m ρ c]
  exact (scale_ops1 (W3 m ρ c)).trans (congrArg (fun t => scale64 t _ _) (take_ops1 (W2 m ρ c)))
theorem entry1_w (c : Dev nD) : V4 m ρ c main_arg4 = m ((c : Thread nD τ).loc main_arg4) :=
  calc W4 m ρ c (Proc.devRef .tc main_arg4)
    _ = W3 m ρ c (Proc.devRef .tc main_arg4) := by kept hostOps1_1
    _ = W2 m ρ c (Proc.devRef .tc main_arg4) := by kept hostOps1
    _ = W1 m ρ c (Proc.devRef .tc main_arg4) := W2_of_ne m ρ c main_arg4 (by decide)
    _ = W0 m ρ c (Proc.devRef .tc main_arg4) := by kept hostOps0
    _ = m ((c : Thread nD τ).loc main_arg4) := rfl

theorem entry1_b (c : Dev nD) (q : Fin 64) :
    (V4 m ρ c main_v9 : FVec F S1x64 .f32) (ix2 (0 : Fin 1) q) = (m ((c : Thread nD τ).loc main_arg5) : FVec F S64 .f32) (ix1 q) := by
  have h : ∀ V : Valuation τ sig (Elt F), StableHlo.after hostOps1_1 V (Proc.devRef .tc main_v9)
      = fun i => shapeCast S1x64 (V (Proc.devRef .tc main_arg5) : FVec F S64 .f32) shapeCasts_S64_S1x64 i := by
    intro V
    after_results_simp
    rfl
  have h4 : W4 m ρ c (Proc.devRef .tc main_v9)
      = fun i => shapeCast S1x64 (W3 m ρ c (Proc.devRef .tc main_arg5) : FVec F S64 .f32) shapeCasts_S64_S1x64 i := h (W3 m ρ c)
  show (W4 m ρ c (Proc.devRef .tc main_v9) : FVec F S1x64 .f32) (ix2 (0 : Fin 1) q) = _
  rw [h4, W3_arg5 m ρ c]
  exact shapeCast_a_1a_apply _ _ 0 q

end Cert.KernelIdeal.Host

end
-- ==== Proof.KHost2.lean ====
/-
  The kernel program's host operations between its second and third regions, read back: what the third region finds
  on entry — its input array is the kernel's aggregation (KAgg.lean) of the second region's output array and of the
  arguments as launched (no host operation and no region writes an argument), its weights are the argument, and its
  bias row is the bias argument laid out as one row.
-/
import proofs.«403088_j44418551775312_1_alg».proof.Proof.Gen.KernelIdeal.Frame
import proofs.«403088_j44418551775312_1_alg».proof.Proof.KAgg
import proofs.«403088_j44418551775312_1_alg».proof.Proof.LibTypedRef
import Idealize.ShloMosaic.Lib.StableHlo.Run
import Idealize.ShloMosaic.Lib.Pipeline.Value
import Idealize.ShloMosaic.Lib.ValueIdx
import Idealize.ShloMosaic.Lib.ValueLayout

noncomputable section

open Idealize.ShloMosaic Idealize.ShloMosaic.TcCoe Idealize.SL.Sem Idealize.ShloMosaic.ValueIdx

namespace Cert.KernelIdeal.Host2

open Cert.KernelIdeal Cert.KernelIdeal.Gen Cert.KernelIdeal.Agg

variable {F : FTy → Type} [FloatOps F]

/-- A buffer that no operation of a stretch writes holds after the stretch what it held before. -/
local macro "kept_through " l:ident : tactic =>
  `(tactic| exact StableHlo.after_of_forall_not_mem _ _ (List.forall_iff_forall_mem.mp (by
      simp only [$l:ident, List.flatten_cons, List.flatten_nil, List.append_nil, List.cons_append, List.nil_append,
        List.Forall, StableHlo.nullary_writes, StableHlo.unary_writes, StableHlo.binary_writes,
        StableHlo.ternary_writes, StableHlo.quaternary_writes, StableHlo.reshape_writes, StableHlo.binaryIndexed_writes,
        Finset.mem_singleton]
      repeat' apply And.intro
      all_goals exact StableHlo.devRef_ne_of_ne (by decide))))

/-! ## The two stretches of host operations before region 2, over any contents `V` of the buffers -/

/-- The 23 operations of the row gather leave in its result buffer the gathered rows of the table they find, by the
    indices they find. -/
theorem take_ops2 (V : Valuation τ sig (Elt F)) :
    StableHlo.after hostOps2 V (Proc.devRef .tc main_v11)
      = take64 (V (Proc.devRef .tc main_v10) : FVec F S50000x64 .f32) (V (Proc.devRef .tc main_arg9) : IVec S800000 32) := by
  after_results_simp
  simp only [Cert.LibTypedRef.ofBuf_toBuf]
  simp only [StableHlo.TRef.ofBuf, StableHlo.TRef.toBuf, cast_eq]
  unfold take64 inRange idx2
  with_reducible rfl

/-- The 8 operations after it leave in region 2's input buffer the gathered rows scaled by the edge weights and added
    into the rows the target indices name, from zeros. -/
theorem agg_ops2_1 (V : Valuation τ sig (Elt F)) :
    StableHlo.after hostOps2_1 V (Proc.devRef .tc main_v17)
      = Host.scatterAdd scatter_S50000x64_S800000x1_S800000x64_1_0_0_1
          (broadcastInDim S50000x64 ![] bcast_S_S50000x64 (constant S_ .f32 0x00000000#32))
          (broadcastInDim S800000x1 ![0] bcast_S800000_S800000x1_0 (V (Proc.devRef .tc main_arg8) : IVec S800000 32))
          (mulf (V (Proc.devRef .tc main_v11) : FVec F S800000x64 .f32)
            (broadcastInDim S800000x64 ![0, 1] bcast_S800000x1_S800000x64_0_1
              (broadcastInDim S800000x1 ![0] bcast_S800000_S800000x1_0 (V (Proc.devRef .tc main_arg1) : FVec F S800000 .f32)))) := by
  after_results

/-- … and in the bias row's buffer the bias vector laid out as one row: at (0, q), the vector's entry q. -/
theorem bias_ops2_1 (V : Valuation τ sig (Elt F)) (q : Fin 40) :
    (StableHlo.after hostOps2_1 V (Proc.devRef .tc main_v18) : FVec F S1x40 .f32) (ix2 (0 : Fin 1) q)
      = (V (Proc.devRef .tc main_arg7) : FVec F S40 .f32) (ix1 q) := by
  have e : (StableHlo.after hostOps2_1 V (Proc.devRef .tc main_v18) : FVec F S1x40 .f32)
      = shapeCast S1x40 (V (Proc.devRef .tc main_arg7) : FVec F S40 .f32) shapeCasts_S40_S1x40 := by
    after_results
    rfl
  rw [e]
  exact shapeCast_apply (s := S40) (t := S1x40) _ _ (ix2 (0 : Fin 1) q) (ix1 q) (by
    show (S40.rowMajor (ix1 q)).val = (S1x40.rowMajor (ix2 (0 : Fin 1) q)).val
    rw [Shape.rowMajor_val_one, Shape.rowMajor_val_two]
    show q.val = 0 * 40 + q.val
    omega)

variable (m : (ℓ : Loc nD τ sig) → Buf (Elt F) ℓ) (ρ : Dev nD → PrngReg)

/-! ## The arguments at region 1's exit are the arguments as launched -/

theorem W5_main_arg1 (c : Dev nD) : W5 m ρ c (Proc.devRef .tc main_arg1) = m ((c : Thread nD τ).loc main_arg1) :=
  calc W5 m ρ c (Proc.devRef .tc main_arg1)
    _ = W4 m ρ c (Proc.devRef .tc main_arg1) := W5_of_ne m ρ c main_arg1 (by decide)
    _ = W3 m ρ c (Proc.devRef .tc main_arg1) := by kept_through hostOps1_1
    _ = W2 m ρ c (Proc.devRef .tc main_arg1) := by kept_through hostOps1
    _ = W1 m ρ c (Proc.devRef .tc main_arg1) := W2_of_ne m ρ c main_arg1 (by decide)
    _ = W0 m ρ c (Proc.devRef .tc main_arg1) := by kept_through hostOps0
    _ = m ((c : Thread nD τ).loc main_arg1) := rfl
theorem W5_main_arg6 (c : Dev nD) : W5 m ρ c (Proc.devRef .tc main_arg6) = m ((c : Thread nD τ).loc main_arg6) :=
  calc W5 m ρ c (Proc.devRef .tc main_arg6)
    _ = W4 m ρ c (Proc.devRef .tc main_arg6) := W5_of_ne m ρ c main_arg6 (by decide)
    _ = W3 m ρ c (Proc.devRef .tc main_arg6) := by kept_through hostOps1_1
    _ = W2 m ρ c (Proc.devRef .tc main_arg6) := by kept_through hostOps1
    _ = W1 m ρ c (Proc.devRef .tc main_arg6) := W2_of_ne m ρ c main_arg6 (by decide)
    _ = W0 m ρ c (Proc.devRef .tc main_arg6) := by kept_through hostOps0
    _ = m ((c : Thread nD τ).loc main_arg6) := rfl
theorem W5_main_arg7 (c : Dev nD) : W5 m ρ c (Proc.devRef .tc main_arg7) = m ((c : Thread nD τ).loc main_arg7) :=
  calc W5 m ρ c (Proc.devRef .tc main_arg7)
    _ = W4 m ρ c (Proc.devRef .tc main_arg7) := W5_of_ne m ρ c main_arg7 (by decide)
    _ = W3 m ρ c (Proc.devRef .tc main_arg7) := by kept_through hostOps1_1
    _ = W2 m ρ c (Proc.devRef .tc main_arg7) := by kept_through hostOps1
    _ = W1 m ρ c (Proc.devRef .tc main_arg7) := W2_of_ne m ρ c main_arg7 (by decide)
    _ = W0 m ρ c (Proc.devRef .tc main_arg7) := by kept_through hostOps0
    _ = m ((c : Thread nD τ).loc main_arg7) := rfl
theorem W5_main_arg8 (c : Dev nD) : W5 m ρ c (Proc.devRef .tc main_arg8) = m ((c : Thread nD τ).loc main_arg8) :=
  calc W5 m ρ c (Proc.devRef .tc main_arg8)
    _ = W4 m ρ c (Proc.devRef .tc main_arg8) := W5_of_ne m ρ c main_arg8 (by decide)
    _ = W3 m ρ c (Proc.devRef .tc main_arg8) := by kept_through hostOps1_1
    _ = W2 m ρ c (Proc.devRef .tc main_arg8) := by kept_through hostOps1
    _ = W1 m ρ c (Proc.devRef .tc main_arg8) := W2_of_ne m ρ c main_arg8 (by decide)
    _ = W0 m ρ c (Proc.devRef .tc main_arg8) := by kept_through hostOps0
    _ = m ((c : Thread nD τ).loc main_arg8) := rfl
theorem W5_main_arg9 (c : Dev nD) : W5 m ρ c (Proc.devRef .tc main_arg9) = m ((c : Thread nD τ).loc main_arg9) :=
  calc W5 m ρ c (Proc.devRef .tc main_arg9)
    _ = W4 m ρ c (Proc.devRef .tc main_arg9) := W5_of_ne m ρ c main_arg9 (by decide)
    _ = W3 m ρ c (Proc.devRef .tc main_arg9) := by kept_through hostOps1_1
    _ = W2 m ρ c (Proc.devRef .tc main_arg9) := by kept_through hostOps1
    _ = W1 m ρ c (Proc.devRef .tc main_arg9) := W2_of_ne m ρ c main_arg9 (by decide)
    _ = W0 m ρ c (Proc.devRef .tc main_arg9) := by kept_through hostOps0
    _ = m ((c : Thread nD τ).loc main_arg9) := rfl

/-! ## Region 2's entry -/

/-- Region 2's input array is the aggregation of region 1's output array. -/
theorem entry2_a (c : Dev nD) :
    V7 m ρ c main_v17 = aggK64 (W5 m ρ c (Proc.devRef .tc main_v10)) (m ((c : Thread nD τ).loc main_arg1))
      (m ((c : Thread nD τ).loc main_arg8)) (m ((c : Thread nD τ).loc main_arg9)) := by
  have k1 : W6 m ρ c (Proc.devRef .tc main_arg1) = W5 m ρ c (Proc.devRef .tc main_arg1) := by kept_through hostOps2
  have k8 : W6 m ρ c (Proc.devRef .tc main_arg8) = W5 m ρ c (Proc.devRef .tc main_arg8) := by kept_through hostOps2
  have h1 : W6 m ρ c (Proc.devRef .tc main_arg1) = m ((c : Thread nD τ).loc main_arg1) := k1.trans (W5_main_arg1 m ρ c)
  have h8 : W6 m ρ c (Proc.devRef .tc main_arg8) = m ((c : Thread nD τ).loc main_arg8) := k8.trans (W5_main_arg8 m ρ c)
  have h11 : W6 m ρ c (Proc.devRef .tc main_v11)
      = take64 (W5 m ρ c (Proc.devRef .tc main_v10)) (m ((c : Thread nD τ).loc main_arg9)) := by
    refine (take_ops2 (W5 m ρ c)).trans ?_
    rw [W5_main_arg9 m ρ c]
  refine (agg_ops2_1 (W6 m ρ c)).trans ?_
  unfold aggK64
  rw [h1, h8, h11]
theorem entry2_w (c : Dev nD) : V7 m ρ c main_arg6 = m ((c : Thread nD τ).loc main_arg6) :=
  calc V7 m ρ c main_arg6
    _ = W6 m ρ c (Proc.devRef .tc main_arg6) := by kept_through hostOps2_1
    _ = W5 m ρ c (Proc.devRef .tc main_arg6) := by kept_through hostOps2
    _ = m ((c : Thread nD τ).loc main_arg6) := W5_main_arg6 m ρ c
theorem entry2_b (c : Dev nD) (q : Fin 40) :
    (V7 m ρ c main_v18 : FVec F S1x40 .f32) (ix2 (0 : Fin 1) q) = (m ((c : Thread nD τ).loc main_arg7) : FVec F S40 .f32) (ix1 q) := by
  have k7 : W6 m ρ c (Proc.devRef .tc main_arg7) = W5 m ρ c (Proc.devRef .tc main_arg7) := by kept_through hostOps2
  have h7 : W6 m ρ c (Proc.devRef .tc main_arg7) = m ((c : Thread nD τ).loc main_arg7) := k7.trans (W5_main_arg7 m ρ c)
  refine (bias_ops2_1 (W6 m ρ c) q).trans ?_
  rw [h7]

end Cert.KernelIdeal.Host2

end
-- ==== Proof.KHost3.lean ====
/-
  The kernel program's host operations between its third and fourth regions, read back: what the last region finds in
  its input array on entry is the kernel's aggregation (KAgg.lean) of the third region's output array and of the
  arguments as launched (no host operation and no region writes an argument).
-/
import proofs.«403088_j44418551775312_1_alg».proof.Proof.Gen.KernelIdeal.Frame
import proofs.«403088_j44418551775312_1_alg».proof.Proof.KAgg
import proofs.«403088_j44418551775312_1_alg».proof.Proof.LibTypedRef
import Idealize.ShloMosaic.Lib.StableHlo.Run
import Idealize.ShloMosaic.Lib.Pipeline.Value
import Idealize.ShloMosaic.Lib.ValueIdx
import Idealize.ShloMosaic.Lib.ValueLayout

noncomputable section

open Idealize.ShloMosaic Idealize.ShloMosaic.TcCoe Idealize.SL.Sem Idealize.ShloMosaic.ValueIdx

namespace Cert.KernelIdeal.Host3

open Cert.KernelIdeal Cert.KernelIdeal.Gen Cert.KernelIdeal.Agg

variable {F : FTy → Type} [FloatOps F]
variable (m : (ℓ : Loc nD τ sig) → Buf (Elt F) ℓ) (ρ : Dev nD → PrngReg)

section Stretches
variable (V : Valuation τ sig (Elt F))

/-- The second stretch: the scaled rows are scattered and added into zeros. -/
theorem ops3_1_v26 :
    StableHlo.after (hostOps3_1 (F := F)) V (Proc.devRef .tc main_v26) =
      Host.scatterAdd scatter_S50000x40_S800000x1_S800000x40_1_0_0_1
        (broadcastInDim S50000x40 ![] bcast_S_S50000x40 (constant (F := F) S_ .f32 0x00000000#32))
        (broadcastInDim S800000x1 ![0] bcast_S800000_S800000x1_0 (V (Proc.devRef .tc main_arg8)))
        (mulf (V (Proc.devRef .tc main_v20))
          (broadcastInDim S800000x40 ![0, 1] bcast_S800000x1_S800000x40_0_1
            (broadcastInDim S800000x1 ![0] bcast_S800000_S800000x1_0 (V (Proc.devRef .tc main_arg1))))) := by
  dsimp only [hostOps3_1]
  after_results

/-- The first stretch: the rows named by the source indices, the fill value where the index is out of range. -/
theorem ops3_v20 :
    StableHlo.after (hostOps3 (F := F)) V (Proc.devRef .tc main_v20) =
      take40 (V (Proc.devRef .tc main_v19)) (V (Proc.devRef .tc main_arg9)) := by
  simp only [hostOps3]
  after_results_simp
  simp only [Cert.LibTypedRef.ofBuf_toBuf]
  simp only [StableHlo.TRef.ofBuf, StableHlo.TRef.toBuf, cast_eq]
  unfold take40 inRange idx2
  with_reducible rfl

/-- The first stretch writes no argument: main_arg1 is kept. -/
theorem keep3_arg1 : StableHlo.after (hostOps3 (F := F)) V (Proc.devRef .tc main_arg1) = V (Proc.devRef .tc main_arg1) :=
  StableHlo.after_of_forall_not_mem _ _ (List.forall_iff_forall_mem.mp (by
    simp only [hostOps3, List.Forall, StableHlo.nullary_writes, StableHlo.unary_writes, StableHlo.binary_writes,
      StableHlo.ternary_writes, StableHlo.quaternary_writes, StableHlo.reshape_writes, StableHlo.binaryIndexed_writes,
      Finset.mem_singleton]
    repeat' apply And.intro
    all_goals exact StableHlo.devRef_ne_of_ne (by decide)))
/-- The second stretch writes no argument: main_arg1 is kept. -/
theorem keep3_1_arg1 : StableHlo.after (hostOps3_1 (F := F)) V (Proc.devRef .tc main_arg1) = V (Proc.devRef .tc main_arg1) :=
  StableHlo.after_of_forall_not_mem _ _ (List.forall_iff_forall_mem.mp (by
    simp only [hostOps3_1, List.Forall, StableHlo.nullary_writes, StableHlo.unary_writes, StableHlo.binary_writes,
      StableHlo.ternary_writes, StableHlo.quaternary_writes, StableHlo.reshape_writes, StableHlo.binaryIndexed_writes,
      Finset.mem_singleton]
    repeat' apply And.intro
    all_goals exact StableHlo.devRef_ne_of_ne (by decide)))

/-- The first stretch writes no argument: main_arg8 is kept. -/
theorem keep3_arg8 : StableHlo.after (hostOps3 (F := F)) V (Proc.devRef .tc main_arg8) = V (Proc.devRef .tc main_arg8) :=
  StableHlo.after_of_forall_not_mem _ _ (List.forall_iff_forall_mem.mp (by
    simp only [hostOps3, List.Forall, StableHlo.nullary_writes, StableHlo.unary_writes, StableHlo.binary_writes,
      StableHlo.ternary_writes, StableHlo.quaternary_writes, StableHlo.reshape_writes, StableHlo.binaryIndexed_writes,
      Finset.mem_singleton]
    repeat' apply And.intro
    all_goals exact StableHlo.devRef_ne_of_ne (by decide)))
/-- The second stretch writes no argument: main_arg8 is kept. -/
theorem keep3_1_arg8 : StableHlo.after (hostOps3_1 (F := F)) V (Proc.devRef .tc main_arg8) = V (Proc.devRef .tc main_arg8) :=
  StableHlo.after_of_forall_not_mem _ _ (List.forall_iff_forall_mem.mp (by
    simp only [hostOps3_1, List.Forall, StableHlo.nullary_writes, StableHlo.unary_writes, StableHlo.binary_writes,
      StableHlo.ternary_writes, StableHlo.quaternary_writes, StableHlo.reshape_writes, StableHlo.binaryIndexed_writes,
      Finset.mem_singleton]
    repeat' apply And.intro
    all_goals exact StableHlo.devRef_ne_of_ne (by decide)))

/-- The first stretch writes no argument: main_arg9 is kept. -/
theorem keep3_arg9 : StableHlo.after (hostOps3 (F := F)) V (Proc.devRef .tc main_arg9) = V (Proc.devRef .tc main_arg9) :=
  StableHlo.after_of_forall_not_mem _ _ (List.forall_iff_forall_mem.mp (by
    simp only [hostOps3, List.Forall, StableHlo.nullary_writes, StableHlo.unary_writes, StableHlo.binary_writes,
      StableHlo.ternary_writes, StableHlo.quaternary_writes, StableHlo.reshape_writes, StableHlo.binaryIndexed_writes,
      Finset.mem_singleton]
    repeat' apply And.intro
    all_goals exact StableHlo.devRef_ne_of_ne (by decide)))
/-- The second stretch writes no argument: main_arg9 is kept. -/
theorem keep3_1_arg9 : StableHlo.after (hostOps3_1 (F := F)) V (Proc.devRef .tc main_arg9) = V (Proc.devRef .tc main_arg9) :=
  StableHlo.after_of_forall_not_mem _ _ (List.forall_iff_forall_mem.mp (by
    simp only [hostOps3_1, List.Forall, StableHlo.nullary_writes, StableHlo.unary_writes, StableHlo.binary_writes,
      StableHlo.ternary_writes, StableHlo.quaternary_writes, StableHlo.reshape_writes, StableHlo.binaryIndexed_writes,
      Finset.mem_singleton]
    repeat' apply And.intro
    all_goals exact StableHlo.devRef_ne_of_ne (by decide)))

end Stretches

/-- At the third region's exit main_arg1 holds what was launched: nothing after it writes an argument either, and at the
    last region's exit the argument is as launched. -/
theorem W8_arg1 (c : Dev nD) : W8 m ρ c (Proc.devRef .tc main_arg1) = m ((c : Thread nD τ).loc main_arg1) :=
  calc W8 m ρ c (Proc.devRef .tc main_arg1)
    _ = W9 m ρ c (Proc.devRef .tc main_arg1) := (keep3_arg1 (W8 m ρ c)).symm
    _ = W10 m ρ c (Proc.devRef .tc main_arg1) := (keep3_1_arg1 (W9 m ρ c)).symm
    _ = W11 m ρ c (Proc.devRef .tc main_arg1) := (W11_of_ne m ρ c main_arg1 (by decide)).symm
    _ = m ((c : Thread nD τ).loc main_arg1) := W11_main_arg1 m ρ c

/-- At the third region's exit main_arg8 holds what was launched: nothing after it writes an argument either, and at the
    last region's exit the argument is as launched. -/
theorem W8_arg8 (c : Dev nD) : W8 m ρ c (Proc.devRef .tc main_arg8) = m ((c : Thread nD τ).loc main_arg8) :=
  calc W8 m ρ c (Proc.devRef .tc main_arg8)
    _ = W9 m ρ c (Proc.devRef .tc main_arg8) := (keep3_arg8 (W8 m ρ c)).symm
    _ = W10 m ρ c (Proc.devRef .tc main_arg8) := (keep3_1_arg8 (W9 m ρ c)).symm
    _ = W11 m ρ c (Proc.devRef .tc main_arg8) := (W11_of_ne m ρ c main_arg8 (by decide)).symm
    _ = m ((c : Thread nD τ).loc main_arg8) := W11_main_arg8 m ρ c

/-- At the third region's exit main_arg9 holds what was launched: nothing after it writes an argument either, and at the
    last region's exit the argument is as launched. -/
theorem W8_arg9 (c : Dev nD) : W8 m ρ c (Proc.devRef .tc main_arg9) = m ((c : Thread nD τ).loc main_arg9) :=
  calc W8 m ρ c (Proc.devRef .tc main_arg9)
    _ = W9 m ρ c (Proc.devRef .tc main_arg9) := (keep3_arg9 (W8 m ρ c)).symm
    _ = W10 m ρ c (Proc.devRef .tc main_arg9) := (keep3_1_arg9 (W9 m ρ c)).symm
    _ = W11 m ρ c (Proc.devRef .tc main_arg9) := (W11_of_ne m ρ c main_arg9 (by decide)).symm
    _ = m ((c : Thread nD τ).loc main_arg9) := W11_main_arg9 m ρ c

/-- Region 3's input array is the aggregation of region 2's output array. -/
theorem entry3_a (c : Dev nD) :
    V10 m ρ c main_v26 = aggK40 (W8 m ρ c (Proc.devRef .tc main_v19)) (m ((c : Thread nD τ).loc main_arg1))
      (m ((c : Thread nD τ).loc main_arg8)) (m ((c : Thread nD τ).loc main_arg9)) := by
  have e20 : W9 m ρ c (Proc.devRef .tc main_v20) =
      take40 (W8 m ρ c (Proc.devRef .tc main_v19)) (m ((c : Thread nD τ).loc main_arg9)) := by
    refine (ops3_v20 (W8 m ρ c)).trans ?_
    rw [W8_arg9 m ρ c]
  have e8 : W9 m ρ c (Proc.devRef .tc main_arg8) = m ((c : Thread nD τ).loc main_arg8) :=
    (keep3_arg8 (W8 m ρ c)).trans (W8_arg8 m ρ c)
  have e1 : W9 m ρ c (Proc.devRef .tc main_arg1) = m ((c : Thread nD τ).loc main_arg1) :=
    (keep3_arg1 (W8 m ρ c)).trans (W8_arg1 m ρ c)
  refine (ops3_1_v26 (W9 m ρ c)).trans ?_
  unfold aggK40
  rw [e20, e8, e1]

end Cert.KernelIdeal.Host3

end
-- ==== Proof.LibAllOnes.lean ====
/-
  Truth values that are all ones, and index words in a range.

  A reduction by `and` from a true initial value over an array of truth values that are all true is true (the
  converse of reading a `jnp.all` back). A 32-bit word that is at least zero and below `n` as a SIGNED number is
  below `n` unsigned; such a word is not negative, so the test "negative?" answers false on it and the tests
  "at least zero?" and "at most n − 1?" answer true.
-/
import Idealize.ShloMosaic.Lib.ReduceAll
import Idealize.ShloMosaic.Lib.StableHlo.Predicate
import Idealize.ShloMosaic.Lib.ValueIdx

noncomputable section

namespace Cert.LibAllOnes

open Idealize.ShloMosaic Idealize.ShloMosaic.StableHlo.Predicate

/-- A left fold by `and` from true over true values is true. -/
theorem foldl_andi_ones {ι : Type} (f : ι → BitVec 1) (hf : ∀ n, f n = 1#1) :
    ∀ l : List ι, l.foldl (fun r n => IntOp.andi r (f n)) 1#1 = 1#1
  | [] => rfl
  | a :: l => by
    rw [List.foldl_cons, hf a, show IntOp.andi 1#1 1#1 = 1#1 from by decide]
    exact foldl_andi_ones f hf l

/-- A `stablehlo.reduce` by `and` from a true initial value over an array that is true everywhere is true. -/
theorem reduce_andi_ones {s t u : Shape} {axes : List (Fin s.rank)} (x : s.Idx → BitVec 1) (init : u.Idx → BitVec 1)
    (h : s.ReducesTo axes t) (hu : 0 < u.numel) (j : t.Idx) (hinit : ∀ k, init k = 1#1) (hx : ∀ i, x i = 1#1) :
    Host.reduce IntOp.andi x init h hu j = 1#1 := by
  rw [Host.reduce_eq_foldl, hinit]
  exact foldl_andi_ones x hx _

/-- A word in [0, n) as a signed number is below n unsigned. -/
theorem toNat_lt_of_signed (w : BitVec 32) (n : Nat) (hn : n < 2 ^ 31) (h0 : IntOp.cmpi .sge w (0#32) = 1#1)
    (h1 : IntOp.cmpi .slt w (BitVec.ofNat 32 n) = 1#1) : w.toNat < n := by
  unfold IntOp.cmpi at h0 h1
  rw [ofBool_eq_one_iff] at h0 h1
  simp only [BitVec.slt, BitVec.sle, decide_eq_true_eq] at h0 h1
  have h32 := w.isLt
  unfold BitVec.toInt at h0 h1
  split at h1 <;> simp at h0 h1 <;> omega

/-- A word below 2³¹ is not negative: the signed test against zero answers false. -/
theorem slt_zero (w : BitVec 32) (hw : w.toNat < 2 ^ 31) : IntOp.cmpi .slt w (0#32) = 0#1 := by
  refine ValueIdx.eq_zero_of_ne_one fun h => ?_
  have := (slt_iff_toNat (a := w) (b := 0#32) hw (by decide)).1 h
  simp at this

/-- A word below 2³¹ is at least zero as a signed number. -/
theorem sge_zero (w : BitVec 32) (hw : w.toNat < 2 ^ 31) : IntOp.cmpi .sge w (0#32) = 1#1 :=
  (sge_iff_toNat (a := w) (b := 0#32) hw (by decide)).2 (by simp)

/-- A word at most `n` (below 2³¹) is at most `n` as a signed number. -/
theorem sle_ofNat (w : BitVec 32) (n : Nat) (hn : n < 2 ^ 31) (hw : w.toNat ≤ n) : IntOp.cmpi .sle w (BitVec.ofNat 32 n) = 1#1 := by
  have hb : (BitVec.ofNat 32 n).toNat = n := by simp [BitVec.toNat_ofNat]; omega
  exact (sle_iff_toNat (a := w) (b := BitVec.ofNat 32 n) (by omega) (by omega)).2 (by omega)

end Cert.LibAllOnes

end
-- ==== Proof.TakeMask.lean ====
/-
  With every edge's source index in the table's range (−50000 ≤ col < 50000: a negative index counts from the end),
  the kernel program's gather never reads the fill value: the index made non-negative lies in [0, 49999], so the
  range test is true on every edge and the selection returns the gathered row. The kernel's aggregation is then the
  reference's, operation for operation.
-/
import proofs.«403088_j44418551775312_1_alg».proof.Proof.KAgg
import proofs.«403088_j44418551775312_1_alg».proof.Proof.RefLayers
import proofs.«403088_j44418551775312_1_alg».proof.Proof.LibAllOnes
import Idealize.ShloMosaic.Lib.StableHlo.Predicate
import Idealize.ShloMosaic.Lib.ValueIdx
import Idealize.ShloMosaic.Lib.Pipeline.Value

noncomputable section

open Idealize.ShloMosaic Idealize.ShloMosaic.ValueIdx

namespace Cert.KernelIdeal.Take

open Cert.KernelIdeal Cert.KernelIdeal.Gen Cert.KernelIdeal.Agg

variable {F : FTy → Type} [FloatOps F]

/-- Every edge's source index lies in the table's range, negative indices counting from the end. -/
def ColInRange (col : IVec S800000 32) : Prop :=
  ∀ e : Fin 800000, -50000 ≤ (col (ix1 e)).toInt ∧ (col (ix1 e)).toInt < 50000

/-! ## One index word: made non-negative, it lies in [0, 49999] -/

/-- A word in [−50000, 50000) made non-negative — 50000 added when it is negative — reads, as a signed number, a value
    in [0, 49999]: a negative word w becomes w + 50000 with no wrap-around, a non-negative one stays. -/
theorem wrap_toInt (w : BitVec 32) (h0 : -50000 ≤ w.toInt) (h1 : w.toInt < 50000) :
    0 ≤ (Scalar.select (IntOp.cmpi .slt w 0#32) (IntOp.addi w 50000#32) w).toInt ∧
      (Scalar.select (IntOp.cmpi .slt w 0#32) (IntOp.addi w 50000#32) w).toInt ≤ 49999 := by
  by_cases hneg : w.toInt < 0
  · have hc : IntOp.cmpi .slt w 0#32 = 1#1 := by
      unfold IntOp.cmpi
      rw [StableHlo.Predicate.ofBool_eq_one_iff]
      simp only [BitVec.slt, decide_eq_true_eq]
      simpa using hneg
    rw [hc, select_one]
    unfold IntOp.addi
    rw [BitVec.toInt_add]
    have h5 : (50000#32 : BitVec 32).toInt = 50000 := by decide
    rw [h5]
    have : (w.toInt + 50000).bmod (2 ^ 32) = w.toInt + 50000 := by
      apply Int.bmod_eq_of_le <;> omega
    rw [this]; omega
  · have hc : IntOp.cmpi .slt w 0#32 = 0#1 := by
      refine eq_zero_of_ne_one fun h => hneg ?_
      unfold IntOp.cmpi at h
      rw [StableHlo.Predicate.ofBool_eq_one_iff] at h
      simp only [BitVec.slt, decide_eq_true_eq] at h
      simpa using h
    rw [hc, select_zero]
    omega

/-- The signed tests "at least 0" and "at most 49999" on a word whose signed value lies in [0, 49999] both answer true. -/
theorem tests_true (v : BitVec 32) (h0 : 0 ≤ v.toInt) (h1 : v.toInt ≤ 49999) :
    IntOp.andi (IntOp.cmpi .sge v 0#32) (IntOp.cmpi .sle v 49999#32) = 1#1 := by
  have hz : (0#32 : BitVec 32).toInt = 0 := by decide
  have hm : (49999#32 : BitVec 32).toInt = 49999 := by decide
  have ha : IntOp.cmpi .sge v 0#32 = 1#1 := by
    unfold IntOp.cmpi
    rw [StableHlo.Predicate.ofBool_eq_one_iff]
    simp only [BitVec.sle, decide_eq_true_eq, hz]
    exact h0
  have hb : IntOp.cmpi .sle v 49999#32 = 1#1 := by
    unfold IntOp.cmpi
    rw [StableHlo.Predicate.ofBool_eq_one_iff]
    simp only [BitVec.sle, decide_eq_true_eq, hm]
    exact h1
  rw [ha, hb]; decide

/-! ## The index column and the range test, read at an edge -/

/-- A vector laid out as a one-column array reads, at (e, b), the vector at e. -/
theorem col1_apply {α : Type} {n : Nat} (h₁ : (⟨1, ![n]⟩ : Shape).BroadcastsInDim ⟨2, ![n, 1]⟩ ![0])
    (v : (⟨1, ![n]⟩ : Shape).Idx → α) (e : Fin n) (b : Fin 1) :
    broadcastInDim ⟨2, ![n, 1]⟩ ![0] h₁ v (ix2 e b) = v (ix1 e) := by
  obtain rfl : b = 0 := Subsingleton.elim _ _
  have hi : (ix2 e (0 : Fin 1) : (⟨2, ![n, 1]⟩ : Shape).Idx) = StableHlo.Predicate.ixP e := by
    funext a; match a with | ⟨0, _⟩ => rfl | ⟨1, _⟩ => rfl
  have hj : (ix1 e : (⟨1, ![n]⟩ : Shape).Idx) = Shape.Idx.ofFin e := by
    funext a; match a with | ⟨0, _⟩ => rfl
  rw [hi, hj]
  exact StableHlo.Predicate.bcast_col1 h₁ v e

/-- The start index of edge e: the edge's source index made non-negative. -/
theorem idx2_apply (col : IVec S800000 32) (e : Fin 800000) (b : Fin 1) :
    idx2 col (ix2 e b) =
      Scalar.select (IntOp.cmpi .slt (col (ix1 e)) 0#32) (IntOp.addi (col (ix1 e)) 50000#32) (col (ix1 e)) := by
  unfold idx2
  rw [col1_apply]
  rfl

/-- With every source index in range the range test is true on every edge. -/
theorem inRange_ones (col : IVec S800000 32) (hcol : ColInRange col) : inRange col = fun _ => 1#1 := by
  funext j
  unfold inRange
  refine Cert.LibAllOnes.reduce_andi_ones _ _ _ _ j (fun k => rfl) fun i => ?_
  obtain ⟨e, b, rfl⟩ : ∃ e b, i = ix2 e b := ⟨_, _, eq_ix2 i⟩
  show IntOp.andi (IntOp.cmpi .sge (idx2 col (ix2 e b)) 0#32) (IntOp.cmpi .sle (idx2 col (ix2 e b)) 49999#32) = 1#1
  rw [idx2_apply]
  obtain ⟨h0, h1⟩ := wrap_toInt (col (ix1 e)) (hcol e).1 (hcol e).2
  exact tests_true _ h0 h1

/-! ## The gathered rows and the aggregations -/

/-- With every source index in range the kernel's gathered 64-wide rows are the plain gather's. -/
theorem take64_eq (s : FVec F S50000x64 .f32) (col : IVec S800000 32) (hcol : ColInRange col) :
    take64 s col = Host.gather gather_S50000x64_S800000x1_S800000x64_1_0_n_n_0_1_164 s (idx2 col) := by
  unfold take64
  rw [inRange_ones col hcol]
  funext i
  exact select_one _ _

/-- With every source index in range the kernel's gathered 40-wide rows are the plain gather's. -/
theorem take40_eq (s : FVec F S50000x40 .f32) (col : IVec S800000 32) (hcol : ColInRange col) :
    take40 s col = Host.gather gather_S50000x40_S800000x1_S800000x40_1_0_n_n_0_1_140 s (idx2 col) := by
  unfold take40
  rw [inRange_ones col hcol]
  funext i
  exact select_one _ _

/-- The aggregation of 64-wide rows: the kernel's is the reference's when every source index is in range. -/
theorem aggK64_eq (s : FVec F S50000x64 .f32) (ew : FVec F S800000 .f32) (row col : IVec S800000 32) (hcol : ColInRange col) :
    aggK64 s ew row col = Cert.ReferenceIdeal.Layers.agg64 s ew row col := by
  unfold aggK64 Cert.ReferenceIdeal.Layers.agg64
  rw [take64_eq s col hcol]
  rfl

/-- The aggregation of 40-wide rows: the kernel's is the reference's when every source index is in range. -/
theorem aggK40_eq (s : FVec F S50000x40 .f32) (ew : FVec F S800000 .f32) (row col : IVec S800000 32) (hcol : ColInRange col) :
    aggK40 s ew row col = Cert.ReferenceIdeal.Layers.agg40 s ew row col := by
  unfold aggK40 Cert.ReferenceIdeal.Layers.agg40
  rw [take40_eq s col hcol]
  rfl

end Cert.KernelIdeal.Take

end
-- ==== Proof.KValue.lean ====
/-
  The kernel program's result as the reference's network of the arguments.

  Region by region: what a linear region leaves in its output array is the reference's linear layer of what the region
  found on entry (both are the plain sum-of-products formula, entry by entry); what the next region finds is the
  aggregation over the edges of that array, and with every source index in range the kernel's aggregation is the
  reference's; the last region leaves the reference's log-softmax of what it found. Chained from the launch contents,
  the result buffer ends at the reference's whole network applied to the ten arguments.
-/
import proofs.«403088_j44418551775312_1_alg».proof.Proof.Gen.KernelIdeal.Frame
import proofs.«403088_j44418551775312_1_alg».proof.Proof.KLin0
import proofs.«403088_j44418551775312_1_alg».proof.Proof.KLin1
import proofs.«403088_j44418551775312_1_alg».proof.Proof.KLin2
import proofs.«403088_j44418551775312_1_alg».proof.Proof.KLsm
import proofs.«403088_j44418551775312_1_alg».proof.Proof.KHost
import proofs.«403088_j44418551775312_1_alg».proof.Proof.KHost2
import proofs.«403088_j44418551775312_1_alg».proof.Proof.KHost3
import proofs.«403088_j44418551775312_1_alg».proof.Proof.TakeMask
import proofs.«403088_j44418551775312_1_alg».proof.Proof.RefLayers

noncomputable section

open Idealize.ShloMosaic Idealize.ShloMosaic.TcCoe Idealize.SL.Sem Idealize.ShloMosaic.ValueIdx

namespace Cert.KernelIdeal.KValue

open Cert.KernelIdeal Cert.KernelIdeal.Gen Cert.KernelIdeal.Agg Cert.KernelIdeal.Host Cert.KernelIdeal.Take
open Cert.ReferenceIdeal.Layers

variable (m : (ℓ : Loc nD τ sig) → Buf (Elt Ideal) ℓ) (ρ : Dev nD → PrngReg)

/-! ## The ten arguments as launched, as arrays of their literal shapes -/

abbrev ax (c : Dev nD) : FVec Ideal S50000x512 .f32 := m ((c : Thread nD τ).loc main_arg0)
abbrev aew (c : Dev nD) : FVec Ideal S800000 .f32 := m ((c : Thread nD τ).loc main_arg1)
abbrev aw1 (c : Dev nD) : FVec Ideal S512x64 .f32 := m ((c : Thread nD τ).loc main_arg2)
abbrev ab1 (c : Dev nD) : FVec Ideal S64 .f32 := m ((c : Thread nD τ).loc main_arg3)
abbrev aw2 (c : Dev nD) : FVec Ideal S64x64 .f32 := m ((c : Thread nD τ).loc main_arg4)
abbrev ab2 (c : Dev nD) : FVec Ideal S64 .f32 := m ((c : Thread nD τ).loc main_arg5)
abbrev aw3 (c : Dev nD) : FVec Ideal S64x40 .f32 := m ((c : Thread nD τ).loc main_arg6)
abbrev ab3 (c : Dev nD) : FVec Ideal S40 .f32 := m ((c : Thread nD τ).loc main_arg7)
abbrev arow (c : Dev nD) : IVec S800000 32 := m ((c : Thread nD τ).loc main_arg8)
abbrev acol (c : Dev nD) : IVec S800000 32 := m ((c : Thread nD τ).loc main_arg9)

/-! ## The first layer -/

/-- Region 0's output array is the reference's linear layer of what region 0 found. -/
theorem s1_eq (c : Dev nD) :
    W2 m ρ c (Proc.devRef .tc main_v1) = lin0 (ax m c) (aw1 m c) (ab1 m c) := by
  refine (W2_arr m ρ c 3).trans ?_
  show Lin0.out (V1 m ρ) c = _
  funext i
  obtain ⟨p, q, rfl⟩ : ∃ (p : Fin 50000) (q : Fin 64), i = ix2 p q := ⟨i 0, i 1, eq_ix2 i⟩
  rw [Lin0.region0_apply, lin0_apply]
  have hx : Lin0.xin (V1 m ρ) c = (ax m c) := entry0_x m ρ c
  have hw : Lin0.win (V1 m ρ) c = aw1 m c := entry0_w m ρ c
  have hb : (fun q : Fin 64 => Lin0.bin (V1 m ρ) c (ix2 (0 : Fin 1) q)) = fun q => ab1 m c (ix1 q) :=
    funext fun q => entry0_b m ρ c q
  rw [hx, hw, hb]

/-- What region 1 finds: the aggregation of the first layer. -/
theorem a1_eq (c : Dev nD) (hcol : ColInRange (acol m c)) :
    V4 m ρ c main_v8 = (agg64 (lin0 (ax m c) (aw1 m c) (ab1 m c)) (aew m c) (arow m c) (acol m c)) :=
  (entry1_a m ρ c).trans (by rw [s1_eq m ρ c]; exact Cert.KernelIdeal.Take.aggK64_eq _ _ _ _ hcol)

/-! ## The second layer -/

/-- Region 1's output array is the reference's linear layer of what region 1 found. -/
theorem s2_eq (c : Dev nD) (hcol : ColInRange (acol m c)) :
    W5 m ρ c (Proc.devRef .tc main_v10) = lin1 (agg64 (lin0 (ax m c) (aw1 m c) (ab1 m c)) (aew m c) (arow m c) (acol m c)) (aw2 m c) (ab2 m c) := by
  refine (W5_arr m ρ c 3).trans ?_
  show Lin1.out (V4 m ρ) c = _
  funext i
  obtain ⟨p, q, rfl⟩ : ∃ (p : Fin 50000) (q : Fin 64), i = ix2 p q := ⟨i 0, i 1, eq_ix2 i⟩
  rw [Lin1.region1_apply, lin1_apply]
  have hx : Lin1.xin (V4 m ρ) c = (agg64 (lin0 (ax m c) (aw1 m c) (ab1 m c)) (aew m c) (arow m c) (acol m c)) := a1_eq m ρ c hcol
  have hw : Lin1.win (V4 m ρ) c = aw2 m c := entry1_w m ρ c
  have hb : (fun q : Fin 64 => Lin1.bin (V4 m ρ) c (ix2 (0 : Fin 1) q)) = fun q => ab2 m c (ix1 q) :=
    funext fun q => entry1_b m ρ c q
  rw [hx, hw, hb]

/-- What region 2 finds: the aggregation of the second layer. -/
theorem a2_eq (c : Dev nD) (hcol : ColInRange (acol m c)) :
    V7 m ρ c main_v17 = (agg64 (lin1 (agg64 (lin0 (ax m c) (aw1 m c) (ab1 m c)) (aew m c) (arow m c) (acol m c)) (aw2 m c) (ab2 m c)) (aew m c) (arow m c) (acol m c)) :=
  (Cert.KernelIdeal.Host2.entry2_a m ρ c).trans (by rw [s2_eq m ρ c hcol]; exact Cert.KernelIdeal.Take.aggK64_eq _ _ _ _ hcol)

/-! ## The third layer -/

/-- Region 2's output array is the reference's linear layer of what region 2 found. -/
theorem s3_eq (c : Dev nD) (hcol : ColInRange (acol m c)) :
    W8 m ρ c (Proc.devRef .tc main_v19) = lin2 (agg64 (lin1 (agg64 (lin0 (ax m c) (aw1 m c) (ab1 m c)) (aew m c) (arow m c) (acol m c)) (aw2 m c) (ab2 m c)) (aew m c) (arow m c) (acol m c)) (aw3 m c) (ab3 m c) := by
  refine (W8_arr m ρ c 3).trans ?_
  show Lin2.out (V7 m ρ) c = _
  funext i
  obtain ⟨p, q, rfl⟩ : ∃ (p : Fin 50000) (q : Fin 40), i = ix2 p q := ⟨i 0, i 1, eq_ix2 i⟩
  rw [Lin2.region2_apply, lin2_apply]
  have hx : Lin2.xin (V7 m ρ) c = (agg64 (lin1 (agg64 (lin0 (ax m c) (aw1 m c) (ab1 m c)) (aew m c) (arow m c) (acol m c)) (aw2 m c) (ab2 m c)) (aew m c) (arow m c) (acol m c)) := a2_eq m ρ c hcol
  have hw : Lin2.win (V7 m ρ) c = aw3 m c := Cert.KernelIdeal.Host2.entry2_w m ρ c
  have hb : (fun q : Fin 40 => Lin2.bin (V7 m ρ) c (ix2 (0 : Fin 1) q)) = fun q => ab3 m c (ix1 q) :=
    funext fun q => Cert.KernelIdeal.Host2.entry2_b m ρ c q
  rw [hx, hw, hb]

/-- What region 3 finds: the aggregation of the third layer. -/
theorem a3_eq (c : Dev nD) (hcol : ColInRange (acol m c)) :
    V10 m ρ c main_v26 = (agg40 (lin2 (agg64 (lin1 (agg64 (lin0 (ax m c) (aw1 m c) (ab1 m c)) (aew m c) (arow m c) (acol m c)) (aw2 m c) (ab2 m c)) (aew m c) (arow m c) (acol m c)) (aw3 m c) (ab3 m c)) (aew m c) (arow m c) (acol m c)) :=
  (Cert.KernelIdeal.Host3.entry3_a m ρ c).trans (by rw [s3_eq m ρ c hcol]; exact Cert.KernelIdeal.Take.aggK40_eq _ _ _ _ hcol)

/-! ## The result -/

/-- THE KERNEL PROGRAM'S RESULT: with every source index in range, the result buffer after the last region holds the
    reference's network of the ten arguments as launched. -/
theorem kernel_value (c : Dev nD) (hcol : ColInRange (acol m c)) :
    W11 m ρ c (Proc.devRef .tc main_v27)
      = gcn (ax m c) (aw1 m c) (ab1 m c) (aw2 m c) (ab2 m c) (aw3 m c) (ab3 m c) (aew m c) (arow m c) (acol m c) := by
  refine (W11_arr m ρ c 1).trans ?_
  show Lsm.out (V10 m ρ) c = _
  funext i
  obtain ⟨p, q, rfl⟩ : ∃ (p : Fin 50000) (q : Fin 40), i = ix2 p q := ⟨i 0, i 1, eq_ix2 i⟩
  rw [Lsm.region3_apply]
  have hx : Lsm.xin (V10 m ρ) c = (agg40 (lin2 (agg64 (lin1 (agg64 (lin0 (ax m c) (aw1 m c) (ab1 m c)) (aew m c) (arow m c) (acol m c)) (aw2 m c) (ab2 m c)) (aew m c) (arow m c) (acol m c)) (aw3 m c) (ab3 m c)) (aew m c) (arow m c) (acol m c)) := a3_eq m ρ c hcol
  rw [hx]
  unfold gcn
  rw [lsm_apply]

end Cert.KernelIdeal.KValue

end
-- ==== Proof.PreDecode.lean ====
/-
  The precondition read back: besides the finiteness of the float inputs (not needed by the proof) it says that every
  entry of the source-index input `col` is at least −50000 and below 50000 as a signed 32-bit number.
-/
import proofs.«403088_j44418551775312_1_alg».proof.Defs
import proofs.«403088_j44418551775312_1_alg».proof.Proof.Gen.Pre_finite_inputs
import proofs.«403088_j44418551775312_1_alg».proof.Proof.TakeMask
import Idealize.ShloMosaic.Lib.ReduceAll
import Idealize.ShloMosaic.Lib.StableHlo.Predicate
import Idealize.ShloMosaic.Lib.ValueIdx

noncomputable section

open Idealize.ShloMosaic Idealize.ShloMosaic.ValueIdx Idealize.SL.Sem

namespace Cert.PreDecode

/-- From the precondition of the idealized kernel's memory: every source index is in range, on every device. -/
theorem col_range [hPre : Cert.Pre_finite_inputs.Facts]
    (m : (ℓ : Loc Cert.KernelIdeal.nD Cert.KernelIdeal.τ Cert.KernelIdeal.sig) → Buf (Elt Ideal) ℓ)
    (h : Cert.Pre_KernelIdeal m) (c : Dev Cert.KernelIdeal.nD) :
    Cert.KernelIdeal.Take.ColInRange (m ((c.tc : Thread Cert.KernelIdeal.nD Cert.KernelIdeal.τ).loc Cert.KernelIdeal.main_arg9)) := by
  haveI : Subsingleton Cert.Pre_finite_inputs.S_.Idx := ⟨fun a b => funext fun d => d.elim0⟩
  -- the precondition at its one index: a conjunction whose last two conjuncts are the two tests on the source indices
  have h0 := congrFun (h c) ix0
  dsimp only [Cert.Pre_finite_inputs.fn, Cert.Pre_finite_inputs.fn_part1, Cert.Pre_finite_inputs.fn_part2] at h0
  obtain ⟨h1, hlt⟩ := IntOp.andi_eq_one.1 h0
  obtain ⟨-, hge⟩ := IntOp.andi_eq_one.1 h1
  intro e
  -- each test is true on every edge; a true signed comparison is the inequality of the signed values
  have hge' := Host.reduce_andi_all _ _ _ _ _ hge (ix1 e)
  have hlt' := Host.reduce_andi_all _ _ _ _ _ hlt (ix1 e)
  have a := IntOp.cmpi_sge.1 hge'
  have b := IntOp.cmpi_slt.1 hlt'
  have hm : (4294917296#32 : BitVec 32).toInt = -50000 := by decide
  have hp : (50000#32 : BitVec 32).toInt = 50000 := by decide
  exact ⟨hm ▸ a, hp ▸ b⟩

end Cert.PreDecode

end
-- ==== Proof.lean ====
/-
  The certificate of the three-layer graph convolution kernel against its jnp reference, over the extended reals.

  The two programs compute the same network: three linear layers (sum over k of x (p, k) · w (k, q), plus the bias), each
  followed by the aggregation over the edges (gather the row named by the edge's source index, scale by the edge weight,
  add into the row named by the edge's target), the second linear layer on the positive part of its input, and a
  row-wise log-softmax at the end. The kernel program runs the linear layers and the log-softmax as regions over 25 blocks
  of 2000 rows; each region's output array, read entry by entry, is the same plain formula as the reference's layer
  (no rearrangement of the sums is needed: a block holds whole rows). The aggregations are host operations in both
  programs; they differ only in what an out-of-range source index reads (the kernel program's gather fills, the
  reference's clamps), which the precondition rules out: every source index lies in [−50000, 50000), a negative
  index counting from the end in both programs. The frames of the two kernel programs are the generated ones; the
  reference's frame is its run with the result dropped; the idealization rewrote nothing.
-/
import proofs.«403088_j44418551775312_1_alg».proof.Defs
import proofs.«403088_j44418551775312_1_alg».proof.Proof.Gen.Kernel
import proofs.«403088_j44418551775312_1_alg».proof.Proof.Gen.Kernel.Frame
import proofs.«403088_j44418551775312_1_alg».proof.Proof.Gen.KernelIdeal
import proofs.«403088_j44418551775312_1_alg».proof.Proof.Gen.KernelIdeal.Frame
import proofs.«403088_j44418551775312_1_alg».proof.Proof.Gen.ReferenceIdeal
import proofs.«403088_j44418551775312_1_alg».proof.Proof.Gen.Pre_finite_inputs
import proofs.«403088_j44418551775312_1_alg».proof.Proof.RefRun
import proofs.«403088_j44418551775312_1_alg».proof.Proof.RefValue
import proofs.«403088_j44418551775312_1_alg».proof.Proof.RunValue
import proofs.«403088_j44418551775312_1_alg».proof.Proof.KValue
import proofs.«403088_j44418551775312_1_alg».proof.Proof.PreDecode
import Idealize.ShloMosaic.Adequacy
import Idealize.ShloMosaic.Init

noncomputable section

namespace Cert.Proof

open Idealize.ShloMosaic Idealize.ShloMosaic.TcCoe Idealize.SL.Sem

theorem frame_k : Cert.frame_Kernel := fun m ρ _ => Cert.Kernel.Gen.frame m ρ
theorem frame_ki : Cert.frame_KernelIdeal := fun m ρ _ => Cert.KernelIdeal.Gen.frame m ρ
/-- The reference's frame: its run, the result dropped. -/
theorem frame_ri : Cert.frame_ReferenceIdeal := fun m ρ _ =>
  (θ_run Cert.ReferenceIdeal.defs _ _).mono (fun _ h c => (h c).2) (Cert.ReferenceIdeal.ValueP.run (F := Ideal) m ρ)

/-- From memories agreeing on the ten arguments, with every source index in range, both programs end with the
    reference's network of those arguments in their result buffers. -/
theorem algebraic : Cert.algebraic_KernelIdeal_ReferenceIdeal := by
  intro m ρ m' ρ' hpre hagree
  refine ⟨fun c => Cert.KernelIdeal.Gen.W11 m ρ c (Proc.devRef .tc Cert.KernelIdeal.main_v27),
    Cert.KernelIdeal.GenRun.run_value m ρ, ?_⟩
  refine (θ_run Cert.ReferenceIdeal.defs _ _).mono (fun _ h c => ⟨(h c).1.trans ?_, (h c).2⟩)
    (Cert.ReferenceIdeal.ValueP.run (F := Ideal) m' ρ')
  obtain ⟨h0, h1, h2, h3, h4, h5, h6, h7, h8, h9⟩ := hagree c
  refine ((Cert.ReferenceIdeal.RefValue.ref_value m' c).trans ?_).trans
    (Cert.KernelIdeal.KValue.kernel_value m ρ c (Cert.PreDecode.col_range m hpre c)).symm
  rw [h0, h1, h2, h3, h4, h5, h6, h7, h8, h9]

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
